-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x256 : Shape := ⟨2, ![512, 256]⟩
abbrev S256x1 : Shape := ⟨2, ![256, 1]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256x1 : S_.BroadcastsInDim S256x1 (![] : Fin 0 → Fin S256x1.rank)
  reducesTo_S256x1_S_d0_1 : S256x1.ReducesTo [0, 1] S_

variable [Facts]

def fn_part1 {F : FTy → Type} [FloatOps F] (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  main_v18

def fn {F : FTy → Type} [FloatOps F] (main_arg0 : FVec F S8192x512 .f32) (main_arg1 : IVec S8192x8192 32) (main_arg2 : FVec F S512x256 .f32) (main_arg3 : FVec F S256x1 .f32) (main_arg4 : FVec F S256x1 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256x1 .f32 := Host.absf main_arg3
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  let main_v14 : FVec F S256x1 .f32 := Host.absf main_arg4
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_v13 main_v16
-- ==== Kernel.lean ====
abbrev S8192x512 : Shape := ⟨2, ![8192, 512]⟩
abbrev S8192x8192 : Shape := ⟨2, ![8192, 8192]⟩
abbrev S512x256 : Shape := ⟨2, ![512, 256]⟩
abbrev S256x1 : Shape := ⟨2, ![256, 1]⟩
abbrev S1x256 : Shape := ⟨2, ![1, 256]⟩
abbrev S8192x256 : Shape := ⟨2, ![8192, 256]⟩
abbrev S8192x1 : Shape := ⟨2, ![8192, 1]⟩
abbrev S1024x512 : Shape := ⟨2, ![1024, 512]⟩
abbrev S1024x256 : Shape := ⟨2, ![1024, 256]⟩
abbrev S1024x1 : Shape := ⟨2, ![1024, 1]⟩
abbrev S1024 : Shape := ⟨1, ![1024]⟩
abbrev S1x8192 : Shape := ⟨2, ![1, 8192]⟩
abbrev S1x1024 : Shape := ⟨2, ![1, 1024]⟩
abbrev S1024x1024 : Shape := ⟨2, ![1024, 1024]⟩

abbrev nBuf : Space → Nat
  | .hbm => 12
  | .vmem => 23
  | .smem => 0
  | _ => 0

abbrev bufTy : (tb : Table) → Fin (tcTables nBuf tb) → BufTy
  | .hbm, ⟨0, _⟩ => ⟨S8192x512, .f32⟩
  | .hbm, ⟨1, _⟩ => ⟨S8192x8192, .i32⟩
  | .hbm, ⟨2, _⟩ => ⟨S512x256, .f32⟩
  | .hbm, ⟨3, _⟩ => ⟨S256x1, .f32⟩
  | .hbm, ⟨4, _⟩ => ⟨S256x1, .f32⟩
  | .hbm, ⟨5, _⟩ => ⟨S1x256, .f32⟩
  | .hbm, ⟨6, _⟩ => ⟨S1x256, .f32⟩
  | .hbm, ⟨7, _⟩ => ⟨S8192x256, .bf16⟩
  | .hbm, ⟨8, _⟩ => ⟨S8192x1, .f32⟩
  | .hbm, ⟨9, _⟩ => ⟨S8192x1, .f32⟩
  | .hbm, ⟨10, _⟩ => ⟨S1x8192, .f32⟩
  | .hbm, ⟨11, _⟩ => ⟨S8192x256, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S1x256, .f32⟩
  | .local _ .vmem, ⟨4, _⟩ => ⟨S1x256, .f32⟩
  | .local _ .vmem, ⟨5, _⟩ => ⟨S1024x256, .bf16⟩
  | .local _ .vmem, ⟨6, _⟩ => ⟨S1024x256, .bf16⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S8192x256, .bf16⟩
  | .local _ .vmem, ⟨12, _⟩ => ⟨S1024x1, .f32⟩
  | .local _ .vmem, ⟨13, _⟩ => ⟨S1024x1, .f32⟩
  | .local _ .vmem, ⟨14, _⟩ => ⟨S1x1024, .f32⟩
  | .local _ .vmem, ⟨15, _⟩ => ⟨S1x1024, .f32⟩
  | .local _ .vmem, ⟨16, _⟩ => ⟨S1024x1024, .i32⟩
  | .local _ .vmem, ⟨17, _⟩ => ⟨S1024x1024, .i32⟩
  | .local _ .vmem, ⟨18, _⟩ => ⟨S1024x256, .f32⟩
  | .local _ .vmem, ⟨19, _⟩ => ⟨S1024x256, .f32⟩
  | .local _ .vmem, ⟨20, _⟩ => ⟨S1024x1, .f32⟩
  | .local _ .vmem, ⟨21, _⟩ => ⟨S1024x1, .f32⟩
  | .local _ .vmem, ⟨22, _⟩ => ⟨S1024x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 8], ![false, false]⟩

def k1_mult1 (i : grid1.Coords) : BitVec 32 :=
  let arg1 : BitVec 32 := BitVec.ofNat 32 (i 1).val
  let c1024_i32 : BitVec 32 := 1024#32
  let v37 : BitVec 32 := Scalar.muli arg1 c1024_i32
  v37
def k1_off1 (i : grid1.Coords) : Fin 2 → Nat :=
  let arg1 : BitVec 32 := BitVec.ofNat 32 (i 1).val
  let c1024_i32 : BitVec 32 := 1024#32
  let v37 : BitVec 32 := Scalar.muli arg1 c1024_i32
  let v38 : BitVec 32 := v37
  let v39 : Index := Scalar.indexCast v38
  let c0_17 : Index := 0#32
  ![v39.toNat, 0]
def k1_cond2 (i : grid1.Coords) : BitVec 1 :=
  let arg1 : BitVec 32 := BitVec.ofNat 32 (i 1).val
  let c7_i32 : BitVec 32 := 7#32
  let v54 : BitVec 1 := Scalar.cmpi .eq arg1 c7_i32
  let v55 : BitVec 32 := Scalar.extui v54
  let c0_i32_25 : BitVec 32 := 0#32
  let v56 : BitVec 1 := Scalar.cmpi .ne v55 c0_i32_25
  v56

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 1 → Memref sig .tc .vmem S8192x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S256x1_S1x256 : S256x1.ShapeCasts S1x256
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  reduces_S1024x256_S1024 : S1024x256.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S8192x1_S1x8192 : S8192x1.ShapeCasts S1x8192
  shapeCasts_S1024x1_S1024x1 : S1024x1.ShapeCasts S1024x1
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  broadcasts_S1024x1_S1024x256 : S1024x1.Broadcasts S1024x256
  dot_S1024x512_S512x256_S1024x256_1_0_0_1_n_n_wf : DotDims.WF S1024x512 S512x256 S1024x256 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x256.size a
  hwx0_4 : ∀ i : grid0.Coords, EltTy.bits .bf16 = 32 ∨ (Rect.block (s := S8192x256) S1024x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x256.size a ≤ S8192x256.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8192x256.size a ≤ S8192x256.size a
  hwx1_0 : ∀ i : grid1.Coords, EltTy.bits .bf16 = 32 ∨ (Rect.block (s := S8192x256) S8192x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .f32 = 32 ∨ (Rect.block (s := S8192x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x8192.size a
  hwx1_2 : ∀ i : grid1.Coords, EltTy.bits .f32 = 32 ∨ (Rect.block (s := S1x8192) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x8192.size a
  hwx1_3 : ∀ i : grid1.Coords, EltTy.bits .i32 = 32 ∨ (Rect.block (s := S8192x8192) S1024x1024.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S8192x256.size a
  hwx1_4 : ∀ i : grid1.Coords, EltTy.bits .f32 = 32 ∨ (Rect.block (s := S8192x256) S1024x256.size (cc1_transform_4 i) (hinb1_4 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1024x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1024x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v2_0) S8192x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1024x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x256 : Shape := ⟨2, ![512, 256]⟩
abbrev S256x1 : Shape := ⟨2, ![256, 1]⟩
abbrev S8192x256 : Shape := ⟨2, ![8192, 256]⟩
abbrev S8192x1 : Shape := ⟨2, ![8192, 1]⟩
abbrev S1x8192 : Shape := ⟨2, ![1, 8192]⟩
abbrev S_ : Shape := ⟨0, ![]⟩
abbrev S8192 : Shape := ⟨1, ![8192]⟩

abbrev nBuf : Space → Nat
  | .hbm => 42
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .i32⟩
  | .hbm, ⟨2, _⟩ => ⟨S512x256, .f32⟩
  | .hbm, ⟨3, _⟩ => ⟨S256x1, .f32⟩
  | .hbm, ⟨4, _⟩ => ⟨S256x1, .f32⟩
  | .hbm, ⟨5, _⟩ => ⟨S8192x256, .f32⟩
  | .hbm, ⟨6, _⟩ => ⟨S8192x1, .f32⟩
  | .hbm, ⟨7, _⟩ => ⟨S8192x1, .f32⟩
  | .hbm, ⟨8, _⟩ => ⟨S1x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S_, .f32⟩
  | .hbm, ⟨14, _⟩ => ⟨S8192x8192, .f32⟩
  | .hbm, ⟨15, _⟩ => ⟨S8192x8192, .i1⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .i32⟩
  | .hbm, ⟨21, _⟩ => ⟨S8192x8192, .i32⟩
  | .hbm, ⟨22, _⟩ => ⟨S8192x8192, .i1⟩
  | .hbm, ⟨23, _⟩ => ⟨S_, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S8192x1, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x8192, .f32⟩
  | .hbm, ⟨40, _⟩ => ⟨S8192x8192, .f32⟩
  | .hbm, ⟨41, _⟩ => ⟨S8192x256, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_call1_v0 : Ref sig .tc := ⟨.hbm, 24, rfl⟩
abbrev main_call1_v1 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩

abbrev nD : Nat := 1
abbrev τ : Topo := Topo.v7x

variable {F : FTy → Type} [FloatOps F]

class Facts₀ : Prop where
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  dot_S8192x512_S512x256_S8192x256_1_0_0_1_n_n_wf : DotDims.WF S8192x512 S512x256 S8192x256 [1] [0] [0] [1] [] []
  dot_S8192x256_S256x1_S8192x1_1_0_0_1_n_n_wf : DotDims.WF S8192x256 S256x1 S8192x1 [1] [0] [0] [1] [] []
  dot_S8192x8192_S8192x256_S8192x256_1_0_0_1_n_n_wf : DotDims.WF S8192x8192 S8192x256 S8192x256 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.K.R0.lean ====
/- The frame half of the first pipelined kernel of the program: what each window's staging buffer holds when the
   body is entered, what the body's three stores leave in the output windows' buffers as closed functions of the
   input blocks, the body's triple, and the body obligation of the pipeline's proof data. Stated at any float
   interpretation. -/
import proofs.«426516_j55353538511035_3_alg».proof.Proof.Gen.Kernel.Launch
import proofs.«426516_j55353538511035_3_alg».proof.Proof.Gen.Kernel.Skeleton
import proofs.«426516_j55353538511035_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the whole half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved,
    so the block of the point before is this point's. The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved,
    so the block of the point before is this point's. The window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved,
    so the block of the point before is this point's. The window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved,
    so the block of the point before is this point's. The window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole block of its window -/

abbrev r0_0 : Rect S1024x512 := Rect.unit (s := S1024x512) ![0, 0] S1024x512.size inb_S1024x512_S1024x512_0_0
abbrev r0_1 : Rect S512x256 := Rect.unit (s := S512x256) ![0, 0] S512x256.size inb_S512x256_S512x256_0_0
abbrev r0_2 : Rect S1x256 := Rect.unit (s := S1x256) ![0, 0] S1x256.size inb_S1x256_S1x256_0_0
abbrev r0_3 : Rect S1x256 := Rect.unit (s := S1x256) ![0, 0] S1x256.size inb_S1x256_S1x256_0_0
abbrev r0_4 : Rect S1024x256 := Rect.unit (s := S1024x256) ![0, 0] S1024x256.size inb_S1024x256_S1024x256_0_0
abbrev r0_5 : Rect S1024x1 := Rect.unit (s := S1024x1) ![0, 0] S1024x1.size inb_S1024x1_S1024x1_0_0
abbrev r0_6 : Rect S1024x1 := Rect.unit (s := S1024x1) ![0, 0] S1024x1.size inb_S1024x1_S1024x1_0_0

/-! ## What the body leaves in each output window's buffer -/

/-- Window 4's buffer after the body: its one store, the rounded product of the rounded blocks. -/
def out0_4 (x0 : Vec F S1024x512 .f32) (x1 : Vec F S512x256 .f32) : Vec F S1024x256 .bf16 :=
  View.canon [⟨r0_4, k0_pay2 (View.ld x0 r0_0) (View.ld x1 r0_1)⟩]

/-- Window 5's buffer after the body: its one store, the product's rows weighted by window 2's row and summed. -/
def out0_5 (x0 : Vec F S1024x512 .f32) (x1 : Vec F S512x256 .f32) (x2 : Vec F S1x256 .f32) : Vec F S1024x1 .f32 :=
  View.canon [⟨r0_5, k0_pay3 (View.ld x0 r0_0) (View.ld x1 r0_1) (View.ld x2 r0_2)⟩]

/-- Window 6's buffer after the body: its one store, the product's rows weighted by window 3's row and summed. -/
def out0_6 (x0 : Vec F S1024x512 .f32) (x1 : Vec F S512x256 .f32) (x3 : Vec F S1x256 .f32) : Vec F S1024x1 .f32 :=
  View.canon [⟨r0_6, k0_pay4 (View.ld x0 r0_0) (View.ld x1 r0_1) (View.ld x3 r0_3)⟩]

/-- The one store of window 4 is the whole block, so it covers it. -/
theorem cover0_4 (p0 : Vec F S1024x256 .bf16) (y : S1024x256.Idx) :
    ∃ pc ∈ ([⟨r0_4, p0⟩] : List (View.Piece (Elt F) S1024x256 .bf16)), y ∈ pc.1.set :=
  View.cover_of_tiled [⟨r0_4, p0⟩] S1024x256.size (by rfl) y

/-- The one store of window 5 is the whole block, so it covers it. -/
theorem cover0_5 (p0 : Vec F S1024x1 .f32) (y : S1024x1.Idx) :
    ∃ pc ∈ ([⟨r0_5, p0⟩] : List (View.Piece (Elt F) S1024x1 .f32)), y ∈ pc.1.set :=
  View.cover_of_tiled [⟨r0_5, p0⟩] S1024x1.size (by rfl) y

/-- The one store of window 6 is the whole block, so it covers it. -/
theorem cover0_6 (p0 : Vec F S1024x1 .f32) (y : S1024x1.Idx) :
    ∃ pc ∈ ([⟨r0_6, p0⟩] : List (View.Piece (Elt F) S1024x1 .f32)), y ∈ pc.1.set :=
  View.cover_of_tiled [⟨r0_6, p0⟩] S1024x1.size (by rfl) y

/-! ## The body's triple -/

set_option maxHeartbeats 1000000 in
/-- The kernel body on whole staging memrefs, the inputs' at read contents `x0 … x3` and the outputs' at anything,
    runs to the continuation holding the inputs' as they were and each output's at `out0_W` of the inputs': the
    printed function is its sequence of memory operations over the named payloads; each output buffer is read once
    (and the value dropped) before its one whole-block store, which decides its contents whatever was there. -/
theorem sound_kernel0 (c : Dev nD) (E : Set ℕ) (i : grid0.Coords)
    (arg1 : Memref sig .tc .vmem S1024x512 .f32) (harg1 : arg1.IsWhole) (arg2 : Memref sig .tc .vmem S512x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1024x256 .bf16) (harg5 : arg5.IsWhole) (arg6 : Memref sig .tc .vmem S1024x1 .f32) (harg6 : arg6.IsWhole)
    (arg7 : Memref sig .tc .vmem S1024x1 .f32) (harg7 : arg7.IsWhole)
    (x0 : Vec F S1024x512 .f32) (x1 : Vec F S512x256 .f32) (x2 : Vec F S1x256 .f32) (x3 : Vec F S1x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x1 x2)
            ∗ owns (c : Thread nD τ) arg7 fullShare (out0_6 x0 x1 x3)) -∗ K ⟨⟩))
      ⊢ wp frame (wpE (defs₀ (F := F)) Variants.none c none) E (cc0__wh_kernel i arg1 harg1 arg2 harg2 arg3 harg3 arg4 harg4 arg5 harg5 arg6 harg6 arg7 harg7) K := by
  simp only [cc0__wh_kernel_eq_skeleton]; unfold cc0__wh_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of the pipeline on core `c`: the arrays as the region finds them (`V`); after the body at point
    `t` each input's buffer at its block and each output's at `out0_W` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.R1Runs.lean ====
/- Region 1 (the attention kernel over its 8×8 grid, second coordinate the reduction step): what the runs of its
   body share. A window's block at a point read off the array the region finds; that each input's staging buffer
   holds that block at every point, fetched there or not; the two branch conditions of the body as predicates on the
   grid point, decided over the 64 points (the first holds where the step is 0, the second where it is 7); where the
   output window is idle and where it is written back; the staging and scratch memrefs the body is called on; and
   the region's invariant with the three carried scratch buffers split off as memrefs owned at some contents. -/
import proofs.«426516_j55353538511035_3_alg».proof.Proof.Gen.Kernel.Launch
import proofs.«426516_j55353538511035_3_alg».proof.Proof.Gen.Kernel.Skeleton
import proofs.«426516_j55353538511035_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
-- membership in a rectangle of these extents: the elaborator's structural look recurses once per coordinate of
-- the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- Each core's TensorCore buffer contents when the region is entered: a parameter, since the program has two regions
-- and the contents the second finds are what the first and the host lines between them left.
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the whole value array, fetched once at the first point) holds its block at every point: where it
    is not fetched its block index has not moved, and the body leaves the buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the row terms, fetched where the reduction step is 0): the same. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the column terms, fetched at every point): the same. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the adjacency block, fetched at every point): the same. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first branch (reset the carried buffers), from the grid coordinates: the reduction
    step is 0. -/
abbrev cond1_0 (i : grid1.Coords) : Prop := (Scalar.cmpi .ne (Scalar.extui (Scalar.cmpi .eq (BitVec.ofNat 32 (i 1).val) 0#32)) 0#32) = 1#1
/-- It holds at the points ≡ 0 (mod 8) — decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second branch (normalise and store the output), from the grid coordinates: the
    reduction step is 7. -/
abbrev cond1_1 (i : grid1.Coords) : Prop := k1_cond2 i = 1#1
/-- It holds at the points ≡ 7 (mod 8) — decided over the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- Windows 0–3 are inputs: never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Where the reduction step is 0 the body stores nothing into output 4: the window is idle there, -/
theorem idleAt1_4_A : ∀ t : Fin cfg1.N, cond1_0 (grid1.coords t) → ¬cond1_1 (grid1.coords t) → cfg1.idle 4 (grid1.coords t) = true := by decide +kernel
/-- and its block is not written back. -/
theorem noFlush1_4_A : ∀ t : Fin cfg1.N, cond1_0 (grid1.coords t) → ¬cond1_1 (grid1.coords t) → (cfg1.win 4).flush t = false := by decide +kernel
/-- Where the step is 1..6: idle as well, -/
theorem idleAt1_4_B : ∀ t : Fin cfg1.N, ¬cond1_0 (grid1.coords t) → ¬cond1_1 (grid1.coords t) → cfg1.idle 4 (grid1.coords t) = true := by decide +kernel
/-- and not written back. -/
theorem noFlush1_4_B : ∀ t : Fin cfg1.N, ¬cond1_0 (grid1.coords t) → ¬cond1_1 (grid1.coords t) → (cfg1.win 4).flush t = false := by decide +kernel
/-- Where the step is 7 the body stores the whole block of output 4: the window is live. -/
theorem liveAt1_4_C : ∀ t : Fin cfg1.N, ¬cond1_0 (grid1.coords t) → cond1_1 (grid1.coords t) → cfg1.idle 4 (grid1.coords t) = false := by decide +kernel

/-! ## The memrefs the body is called on -/

/-- One staging buffer of output window 4, through which its contents are stated (which of the two does not matter:
    what is read back through a whole view is what the pieces cover). -/
abbrev VO1_4 : View sig .tc .vmem S1024x256 .f32 := (Memref.whole cc1_stg4_0 : Memref sig .tc .vmem S1024x256 .f32).view
/-- Each window's current staging memref at point `t`, spelled as the pipeline passes it, and its wholeness. -/
abbrev ms1_0 (t : Fin cfg1.N) : Memref sig .tc .vmem S8192x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x256 .f32 := win1_4.stage (cfg1.slots t 4)
abbrev hs1_4 (t : Fin cfg1.N) : (ms1_4 t).IsWhole := hstage1_4 ((cfg1.slots t 4).cast nbuf1_4)
/-- The scratch operands: whole scoped buffers of the kernel's own, passed beside the windows — the running row
    maximum, the running row sum, the running weighted sum. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x256 .f32 := Memref.whole cc1_scratch2
/-- The same as views: what the kernel carries between points is stated through them. -/
abbrev VS1_0 : View sig .tc .vmem S1024x1 .f32 := scM1_0.view
abbrev VS1_1 : View sig .tc .vmem S1024x1 .f32 := scM1_1.view
abbrev VS1_2 : View sig .tc .vmem S1024x256 .f32 := scM1_2.view

/-! ## The region's invariant -/

/-- The core's scoped buffers that this region neither stages through nor carries — the other region's eleven staging
    buffers —, each whole at some contents: the body never touches them, so they travel as one conjunct. -/
def restS1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f))

/-- The invariant the body obligation hands the run and takes back, with the three scratch operands as memrefs owned
    at some contents and everything else scoped as one conjunct: the scoped rest enumerated, a whole memref's
    ownership being its buffer's points-to, and the conjuncts reordered (separating conjunction is commutative
    and associative). -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d) ∗ (∃ d, owns (c : Thread nD τ) scM1_2 fullShare d) ∗ restS1 (F := F) c) ∗ (∃ r, prngReg c r)) := by
  unfold Pipeline.ΦA; rw [scopedRest1_eq]; simp only [scM1_0, scM1_1, scM1_2, owns_whole, restS1]
  refine BI.Entails.antisymm (show (_ : sProp 𝕄) ⊢ _ from ?_) (show (_ : sProp 𝕄) ⊢ _ from ?_)
  · iintro ⟨⟨A0, A1, A2, A3, A4, A5, A6, A7, A8, A9, A10, S0, S1, S2⟩, R⟩
    isplitr [R]
    · isplitl [S0]; · iexact S0
      isplitl [S1]; · iexact S1
      isplitl [S2]; · iexact S2
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      iexact A10
    · iexact R
  · iintro ⟨⟨S0, S1, S2, A0, A1, A2, A3, A4, A5, A6, A7, A8, A9, A10⟩, R⟩
    isplitr [R]
    ·
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [S0]; · iexact S0
      isplitl [S1]; · iexact S1
      iexact S2
    · iexact R

end Cert.Kernel.Fr

end
-- ==== Proof.K.R1RunA.lean ====
/- Region 1, case A of the body's run: the reduction step is 0 (the first branch taken, the second not). The body
   resets the three carried buffers — running maximum to −∞, running sum and weighted sum to 0 — before it reads
   them, so they may hold anything on entry; it then folds this step's block into them and stores nothing into the
   output, which is handed back as found. The pieces each carried buffer ends with are the witness. -/
import proofs.«426516_j55353538511035_3_alg».proof.Proof.K.R1Runs
-- membership in a rectangle of these extents: the elaborator's structural look recurses once per coordinate of
-- the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each buffer, as pieces (last first), WHERE THE REDUCTION STEP IS 0, with the proof
    that on whole memrefs — the four inputs at their contents, the output at contents `xi4` handed back untouched
    (no store reaches it), the three carried buffers at anything — the body runs to the continuation holding the inputs
    as they were, the output as it was, and each carried buffer with its pieces written: the reset stores cover each
    carried buffer before the first load of it, so what the loads read are the reset values, whatever was there. -/
noncomputable def kernelRun1_A (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x1024 .i32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S8192x256 .bf16) (x1 : Vec F S1024x1 .f32) (x2 : Vec F S1x1024 .f32) (x3 : Vec F S1024x1024 .i32) :
    Σ' (L4 : List (View.Piece (Elt F) S1024x256 .f32)) (LS0 : List (View.Piece (Elt F) S1024x1 .f32)) (LS1 : List (View.Piece (Elt F) S1024x1 .f32)), { LS2 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Fr

end
-- ==== Proof.K.R1RunB.lean ====
/- Region 1, case B of the body's run: the reduction step is 1..6 (neither branch taken). The body reads the three
   carried buffers as the step before left them, folds this step's block into them — new running maximum, running
   sum and weighted sum rescaled by the exponential of the maximum's change — and stores nothing into the output,
   which is handed back as found. The pieces each carried buffer ends with are the witness. -/
import proofs.«426516_j55353538511035_3_alg».proof.Proof.K.R1RunA
-- membership in a rectangle of these extents: the elaborator's structural look recurses once per coordinate of
-- the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each buffer, as pieces (last first), WHERE THE REDUCTION STEP IS 1..6, with the
    proof that on whole memrefs — the four inputs at their contents, the output at contents `xi4` handed back
    untouched (no store reaches it), the three carried buffers at the contents `xs·` the step before left — the body
    runs to the continuation holding the inputs as they were, the output as it was, and each carried buffer with its
    pieces written. -/
noncomputable def kernelRun1_B (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x1024 .i32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) :
    Σ' (L4 : List (View.Piece (Elt F) S1024x256 .f32)) (LS0 : List (View.Piece (Elt F) S1024x1 .f32)) (LS1 : List (View.Piece (Elt F) S1024x1 .f32)), { LS2 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Fr

end
-- ==== Proof.K.R1RunC.lean ====
/- Region 1, case C of the body's run: the reduction step is 7 (the first branch not taken, the second taken). The
   body folds the last block into the three carried buffers as in the steps before, then reads the weighted sum and
   the running sum back and stores their quotient, row by row, over the whole output block. The pieces the output
   and each carried buffer end with are the witness. -/
import proofs.«426516_j55353538511035_3_alg».proof.Proof.K.R1RunB
-- membership in a rectangle of these extents: the elaborator's structural look recurses once per coordinate of
-- the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each buffer, as pieces (last first), WHERE THE REDUCTION STEP IS 7, with the proof
    that on whole memrefs — the four inputs at their contents, the output at anything (the body stores its whole
    block), the three carried buffers at the contents `xs·` the step before left — the body runs to the continuation
    holding the inputs as they were and the output and each carried buffer with its pieces written. -/
noncomputable def kernelRun1_C (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x1024 .i32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) :
    Σ' (L4 : List (View.Piece (Elt F) S1024x256 .f32)) (LS0 : List (View.Piece (Elt F) S1024x1 .f32)) (LS1 : List (View.Piece (Elt F) S1024x1 .f32)), { LS2 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.Kernel.Fr

end
-- ==== Proof.K.R1Pieces.lean ====
/-
  The attention region's three control cases at a grid point: each case's whole-body run taken at the point's own
  staging memrefs and the three scratch buffers, and, per case and per scratch buffer, that the case's stores tile
  the buffer and what they leave in it (the stores read back through the buffer's view); for the case that stores
  the output block, the same for that block. The run of a case is the witness of what it stores; nothing here says
  what the stored values are.
-/
import proofs.«426516_j55353538511035_3_alg».proof.Proof.K.R1RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At a point where the output block is not stored nothing consults its contents: the window is neither written
    back there nor read at the next point. A fixed placeholder stands for them. -/
def outIdle : Vec F S1024x256 .f32 := VO1_4.read (Elt F) VO1_4.junk

/-! ## Case A: the tile index is 0: the scratch is stored afresh before it is read -/

/-- Case A's run at point `t`: the windows' current staging memrefs and the three scratch buffers. -/
abbrev runA (c : Dev nD) (t : Fin cfg1.N) (hc0 : cond1_0 (grid1.coords t)) (hc1 : ¬cond1_1 (grid1.coords t))
    (x0 : Vec F S8192x256 .bf16) (x1 : Vec F S1024x1 .f32) (x2 : Vec F S1x1024 .f32) (x3 : Vec F S1024x1024 .i32) :=
  kernelRun1_A (F := F) c (grid1.coords t) (ms1_0 t) (hs1_0 t) (ms1_1 t) (hs1_1 t) (ms1_2 t) (hs1_2 t) (ms1_3 t) (hs1_3 t)
    (ms1_4 t) (hs1_4 t) scM1_0 (Memref.isWhole_whole _) scM1_1 (Memref.isWhole_whole _) scM1_2 (Memref.isWhole_whole _) hc0 hc1 x0 x1 x2 x3

/-- Case A's stores into scratch 0 tile it, so they cover it. -/
theorem scoverA_0 (c : Dev nD) (t : Fin cfg1.N) (hc0 : cond1_0 (grid1.coords t)) (hc1 : ¬cond1_1 (grid1.coords t))
    (x0 : Vec F S8192x256 .bf16) (x1 : Vec F S1024x1 .f32) (x2 : Vec F S1x1024 .f32) (x3 : Vec F S1024x1024 .i32) (y : S1024x1.Idx) :
    ∃ pc ∈ (runA (F := F) c t hc0 hc1 x0 x1 x2 x3).2.1, y ∈ pc.1.set :=
  View.cover_of_tiledL (runA (F := F) c t hc0 hc1 x0 x1 x2 x3).2.1 S1024x1.size (by sl_kernel_rfl) y

/-- What case A leaves in scratch 0: its stores read back. -/
def soutA_0 (c : Dev nD) (t : Fin cfg1.N) (hc0 : cond1_0 (grid1.coords t)) (hc1 : ¬cond1_1 (grid1.coords t))
    (x0 : Vec F S8192x256 .bf16) (x1 : Vec F S1024x1 .f32) (x2 : Vec F S1x1024 .f32) (x3 : Vec F S1024x1024 .i32) : Vec F S1024x1 .f32 :=
  VS1_0.read (Elt F) (VS1_0.writes (Elt F) VS1_0.junk (runA (F := F) c t hc0 hc1 x0 x1 x2 x3).2.1)

/-- Case A's stores into scratch 1 tile it, so they cover it. -/
theorem scoverA_1 (c : Dev nD) (t : Fin cfg1.N) (hc0 : cond1_0 (grid1.coords t)) (hc1 : ¬cond1_1 (grid1.coords t))
    (x0 : Vec F S8192x256 .bf16) (x1 : Vec F S1024x1 .f32) (x2 : Vec F S1x1024 .f32) (x3 : Vec F S1024x1024 .i32) (y : S1024x1.Idx) :
    ∃ pc ∈ (runA (F := F) c t hc0 hc1 x0 x1 x2 x3).2.2.1, y ∈ pc.1.set :=
  View.cover_of_tiledL (runA (F := F) c t hc0 hc1 x0 x1 x2 x3).2.2.1 S1024x1.size (by sl_kernel_rfl) y

/-- What case A leaves in scratch 1: its stores read back. -/
def soutA_1 (c : Dev nD) (t : Fin cfg1.N) (hc0 : cond1_0 (grid1.coords t)) (hc1 : ¬cond1_1 (grid1.coords t))
    (x0 : Vec F S8192x256 .bf16) (x1 : Vec F S1024x1 .f32) (x2 : Vec F S1x1024 .f32) (x3 : Vec F S1024x1024 .i32) : Vec F S1024x1 .f32 :=
  VS1_1.read (Elt F) (VS1_1.writes (Elt F) VS1_1.junk (runA (F := F) c t hc0 hc1 x0 x1 x2 x3).2.2.1)

/-- Case A's stores into scratch 2 tile it, so they cover it. -/
theorem scoverA_2 (c : Dev nD) (t : Fin cfg1.N) (hc0 : cond1_0 (grid1.coords t)) (hc1 : ¬cond1_1 (grid1.coords t))
    (x0 : Vec F S8192x256 .bf16) (x1 : Vec F S1024x1 .f32) (x2 : Vec F S1x1024 .f32) (x3 : Vec F S1024x1024 .i32) (y : S1024x256.Idx) :
    ∃ pc ∈ (runA (F := F) c t hc0 hc1 x0 x1 x2 x3).2.2.2.1, y ∈ pc.1.set :=
  View.cover_of_tiledL (runA (F := F) c t hc0 hc1 x0 x1 x2 x3).2.2.2.1 S1024x256.size (by sl_kernel_rfl) y

/-- What case A leaves in scratch 2: its stores read back. -/
def soutA_2 (c : Dev nD) (t : Fin cfg1.N) (hc0 : cond1_0 (grid1.coords t)) (hc1 : ¬cond1_1 (grid1.coords t))
    (x0 : Vec F S8192x256 .bf16) (x1 : Vec F S1024x1 .f32) (x2 : Vec F S1x1024 .f32) (x3 : Vec F S1024x1024 .i32) : Vec F S1024x256 .f32 :=
  VS1_2.read (Elt F) (VS1_2.writes (Elt F) VS1_2.junk (runA (F := F) c t hc0 hc1 x0 x1 x2 x3).2.2.2.1)

/-! ## Case B: the tile index is 1 … 6 -/

/-- Case B's run at point `t`: the windows' current staging memrefs and the three scratch buffers. -/
abbrev runB (c : Dev nD) (t : Fin cfg1.N) (hc0 : ¬cond1_0 (grid1.coords t)) (hc1 : ¬cond1_1 (grid1.coords t))
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) :=
  kernelRun1_B (F := F) c (grid1.coords t) (ms1_0 t) (hs1_0 t) (ms1_1 t) (hs1_1 t) (ms1_2 t) (hs1_2 t) (ms1_3 t) (hs1_3 t)
    (ms1_4 t) (hs1_4 t) scM1_0 (Memref.isWhole_whole _) scM1_1 (Memref.isWhole_whole _) scM1_2 (Memref.isWhole_whole _) hc0 hc1 x0 x1 x2 x3 xs0 xs1 xs2

/-- Case B's stores into scratch 0 tile it, so they cover it. -/
theorem scoverB_0 (c : Dev nD) (t : Fin cfg1.N) (hc0 : ¬cond1_0 (grid1.coords t)) (hc1 : ¬cond1_1 (grid1.coords t))
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) (y : S1024x1.Idx) :
    ∃ pc ∈ (runB (F := F) c t hc0 hc1 x0 x1 x2 x3 xs0 xs1 xs2).2.1, y ∈ pc.1.set :=
  View.cover_of_tiledL (runB (F := F) c t hc0 hc1 x0 x1 x2 x3 xs0 xs1 xs2).2.1 S1024x1.size (by sl_kernel_rfl) y

/-- What case B leaves in scratch 0: its stores read back. -/
def soutB_0 (c : Dev nD) (t : Fin cfg1.N) (hc0 : ¬cond1_0 (grid1.coords t)) (hc1 : ¬cond1_1 (grid1.coords t))
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) : Vec F S1024x1 .f32 :=
  VS1_0.read (Elt F) (VS1_0.writes (Elt F) VS1_0.junk (runB (F := F) c t hc0 hc1 x0 x1 x2 x3 xs0 xs1 xs2).2.1)

/-- Case B's stores into scratch 1 tile it, so they cover it. -/
theorem scoverB_1 (c : Dev nD) (t : Fin cfg1.N) (hc0 : ¬cond1_0 (grid1.coords t)) (hc1 : ¬cond1_1 (grid1.coords t))
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) (y : S1024x1.Idx) :
    ∃ pc ∈ (runB (F := F) c t hc0 hc1 x0 x1 x2 x3 xs0 xs1 xs2).2.2.1, y ∈ pc.1.set :=
  View.cover_of_tiledL (runB (F := F) c t hc0 hc1 x0 x1 x2 x3 xs0 xs1 xs2).2.2.1 S1024x1.size (by sl_kernel_rfl) y

/-- What case B leaves in scratch 1: its stores read back. -/
def soutB_1 (c : Dev nD) (t : Fin cfg1.N) (hc0 : ¬cond1_0 (grid1.coords t)) (hc1 : ¬cond1_1 (grid1.coords t))
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) : Vec F S1024x1 .f32 :=
  VS1_1.read (Elt F) (VS1_1.writes (Elt F) VS1_1.junk (runB (F := F) c t hc0 hc1 x0 x1 x2 x3 xs0 xs1 xs2).2.2.1)

/-- Case B's stores into scratch 2 tile it, so they cover it. -/
theorem scoverB_2 (c : Dev nD) (t : Fin cfg1.N) (hc0 : ¬cond1_0 (grid1.coords t)) (hc1 : ¬cond1_1 (grid1.coords t))
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) (y : S1024x256.Idx) :
    ∃ pc ∈ (runB (F := F) c t hc0 hc1 x0 x1 x2 x3 xs0 xs1 xs2).2.2.2.1, y ∈ pc.1.set :=
  View.cover_of_tiledL (runB (F := F) c t hc0 hc1 x0 x1 x2 x3 xs0 xs1 xs2).2.2.2.1 S1024x256.size (by sl_kernel_rfl) y

/-- What case B leaves in scratch 2: its stores read back. -/
def soutB_2 (c : Dev nD) (t : Fin cfg1.N) (hc0 : ¬cond1_0 (grid1.coords t)) (hc1 : ¬cond1_1 (grid1.coords t))
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) : Vec F S1024x256 .f32 :=
  VS1_2.read (Elt F) (VS1_2.writes (Elt F) VS1_2.junk (runB (F := F) c t hc0 hc1 x0 x1 x2 x3 xs0 xs1 xs2).2.2.2.1)

/-! ## Case C: the tile index is 7: the output block is stored too -/

/-- Case C's run at point `t`: the windows' current staging memrefs and the three scratch buffers. -/
abbrev runC (c : Dev nD) (t : Fin cfg1.N) (hc0 : ¬cond1_0 (grid1.coords t)) (hc1 : cond1_1 (grid1.coords t))
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) :=
  kernelRun1_C (F := F) c (grid1.coords t) (ms1_0 t) (hs1_0 t) (ms1_1 t) (hs1_1 t) (ms1_2 t) (hs1_2 t) (ms1_3 t) (hs1_3 t)
    (ms1_4 t) (hs1_4 t) scM1_0 (Memref.isWhole_whole _) scM1_1 (Memref.isWhole_whole _) scM1_2 (Memref.isWhole_whole _) hc0 hc1 x0 x1 x2 x3 xs0 xs1 xs2

/-- Case C's store into the output block is the whole block, so it covers it. -/
theorem coverC_4 (c : Dev nD) (t : Fin cfg1.N) (hc0 : ¬cond1_0 (grid1.coords t)) (hc1 : cond1_1 (grid1.coords t))
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) (y : S1024x256.Idx) :
    ∃ pc ∈ (runC (F := F) c t hc0 hc1 x0 x1 x2 x3 xs0 xs1 xs2).1, y ∈ pc.1.set :=
  View.cover_of_tiledL (runC (F := F) c t hc0 hc1 x0 x1 x2 x3 xs0 xs1 xs2).1 S1024x256.size (by sl_kernel_rfl) y

/-- What case C leaves in the output block: its store read back. -/
def outC_4 (c : Dev nD) (t : Fin cfg1.N) (hc0 : ¬cond1_0 (grid1.coords t)) (hc1 : cond1_1 (grid1.coords t))
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) : Vec F S1024x256 .f32 :=
  VO1_4.read (Elt F) (VO1_4.writes (Elt F) VO1_4.junk (runC (F := F) c t hc0 hc1 x0 x1 x2 x3 xs0 xs1 xs2).1)

/-- Case C's stores into scratch 0 tile it, so they cover it. -/
theorem scoverC_0 (c : Dev nD) (t : Fin cfg1.N) (hc0 : ¬cond1_0 (grid1.coords t)) (hc1 : cond1_1 (grid1.coords t))
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) (y : S1024x1.Idx) :
    ∃ pc ∈ (runC (F := F) c t hc0 hc1 x0 x1 x2 x3 xs0 xs1 xs2).2.1, y ∈ pc.1.set :=
  View.cover_of_tiledL (runC (F := F) c t hc0 hc1 x0 x1 x2 x3 xs0 xs1 xs2).2.1 S1024x1.size (by sl_kernel_rfl) y

/-- What case C leaves in scratch 0: its stores read back. -/
def soutC_0 (c : Dev nD) (t : Fin cfg1.N) (hc0 : ¬cond1_0 (grid1.coords t)) (hc1 : cond1_1 (grid1.coords t))
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) : Vec F S1024x1 .f32 :=
  VS1_0.read (Elt F) (VS1_0.writes (Elt F) VS1_0.junk (runC (F := F) c t hc0 hc1 x0 x1 x2 x3 xs0 xs1 xs2).2.1)

/-- Case C's stores into scratch 1 tile it, so they cover it. -/
theorem scoverC_1 (c : Dev nD) (t : Fin cfg1.N) (hc0 : ¬cond1_0 (grid1.coords t)) (hc1 : cond1_1 (grid1.coords t))
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) (y : S1024x1.Idx) :
    ∃ pc ∈ (runC (F := F) c t hc0 hc1 x0 x1 x2 x3 xs0 xs1 xs2).2.2.1, y ∈ pc.1.set :=
  View.cover_of_tiledL (runC (F := F) c t hc0 hc1 x0 x1 x2 x3 xs0 xs1 xs2).2.2.1 S1024x1.size (by sl_kernel_rfl) y

/-- What case C leaves in scratch 1: its stores read back. -/
def soutC_1 (c : Dev nD) (t : Fin cfg1.N) (hc0 : ¬cond1_0 (grid1.coords t)) (hc1 : cond1_1 (grid1.coords t))
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) : Vec F S1024x1 .f32 :=
  VS1_1.read (Elt F) (VS1_1.writes (Elt F) VS1_1.junk (runC (F := F) c t hc0 hc1 x0 x1 x2 x3 xs0 xs1 xs2).2.2.1)

/-- Case C's stores into scratch 2 tile it, so they cover it. -/
theorem scoverC_2 (c : Dev nD) (t : Fin cfg1.N) (hc0 : ¬cond1_0 (grid1.coords t)) (hc1 : cond1_1 (grid1.coords t))
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) (y : S1024x256.Idx) :
    ∃ pc ∈ (runC (F := F) c t hc0 hc1 x0 x1 x2 x3 xs0 xs1 xs2).2.2.2.1, y ∈ pc.1.set :=
  View.cover_of_tiledL (runC (F := F) c t hc0 hc1 x0 x1 x2 x3 xs0 xs1 xs2).2.2.2.1 S1024x256.size (by sl_kernel_rfl) y

/-- What case C leaves in scratch 2: its stores read back. -/
def soutC_2 (c : Dev nD) (t : Fin cfg1.N) (hc0 : ¬cond1_0 (grid1.coords t)) (hc1 : cond1_1 (grid1.coords t))
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) : Vec F S1024x256 .f32 :=
  VS1_2.read (Elt F) (VS1_2.writes (Elt F) VS1_2.junk (runC (F := F) c t hc0 hc1 x0 x1 x2 x3 xs0 xs1 xs2).2.2.2.1)

end Cert.Kernel.Fr

end
-- ==== Proof.K.R1.lean ====
/-
  Region 1 of the kernel program (the attention call, a grid of 8 × 8 points in row-major order, the second
  coordinate running over the eight tiles of 1024 key columns): what its output block and its three scratch
  buffers hold after each grid point, and the region's proof data and body obligation, at any float instance.

  The three scratch buffers carry, between the points of one row of the grid, the running maximum of the masked
  scores (1024 × 1), the running sum of the exponentials (1024 × 1) and the running weighted sum of the value
  rows (1024 × 256). A point whose tile index is 0 stores fresh values into all three before it reads them
  (case A); the points with tile index 1 … 6 read what the point before left and store the update (case B); the
  point with tile index 7 does the same and then stores the quotient of the last two into the output block
  (case C), the only point of its row at which the output block is stored and written back. So the contents
  after point n are defined by recursion on n: case A from the point's input blocks alone, cases B and C from
  the input blocks and the scratch components of point n − 1. The region's invariant before point n + 1 holds
  the three scratch buffers at exactly those components; before the first point it holds them at anything.
-/
import proofs.«426516_j55353538511035_3_alg».proof.Proof.K.R1Pieces

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The contents after each point -/

/-- The output block and the three scratch buffers after a point of case A: from the point's input blocks alone. -/
def stepA (c : Dev nD) (t : Fin cfg1.N) (hc0 : cond1_0 (grid1.coords t)) (hc1 : ¬cond1_1 (grid1.coords t)) :
    Vec F S1024x256 .f32 × Vec F S1024x1 .f32 × Vec F S1024x1 .f32 × Vec F S1024x256 .f32 :=
  (outIdle, soutA_0 c t hc0 hc1 (iblk1 V c 0 t) (iblk1 V c 1 t) (iblk1 V c 2 t) (iblk1 V c 3 t), soutA_1 c t hc0 hc1 (iblk1 V c 0 t) (iblk1 V c 1 t) (iblk1 V c 2 t) (iblk1 V c 3 t), soutA_2 c t hc0 hc1 (iblk1 V c 0 t) (iblk1 V c 1 t) (iblk1 V c 2 t) (iblk1 V c 3 t))

/-- After a point of case B: from the input blocks and what the point before left in the scratch. -/
def stepB (c : Dev nD) (t : Fin cfg1.N) (hc0 : ¬cond1_0 (grid1.coords t)) (hc1 : ¬cond1_1 (grid1.coords t))
    (p : Vec F S1024x1 .f32 × Vec F S1024x1 .f32 × Vec F S1024x256 .f32) :
    Vec F S1024x256 .f32 × Vec F S1024x1 .f32 × Vec F S1024x1 .f32 × Vec F S1024x256 .f32 :=
  (outIdle, soutB_0 c t hc0 hc1 (iblk1 V c 0 t) (iblk1 V c 1 t) (iblk1 V c 2 t) (iblk1 V c 3 t) p.1 p.2.1 p.2.2, soutB_1 c t hc0 hc1 (iblk1 V c 0 t) (iblk1 V c 1 t) (iblk1 V c 2 t) (iblk1 V c 3 t) p.1 p.2.1 p.2.2,
    soutB_2 c t hc0 hc1 (iblk1 V c 0 t) (iblk1 V c 1 t) (iblk1 V c 2 t) (iblk1 V c 3 t) p.1 p.2.1 p.2.2)

/-- After a point of case C: the same, and the output block stored. -/
def stepC (c : Dev nD) (t : Fin cfg1.N) (hc0 : ¬cond1_0 (grid1.coords t)) (hc1 : cond1_1 (grid1.coords t))
    (p : Vec F S1024x1 .f32 × Vec F S1024x1 .f32 × Vec F S1024x256 .f32) :
    Vec F S1024x256 .f32 × Vec F S1024x1 .f32 × Vec F S1024x1 .f32 × Vec F S1024x256 .f32 :=
  (outC_4 c t hc0 hc1 (iblk1 V c 0 t) (iblk1 V c 1 t) (iblk1 V c 2 t) (iblk1 V c 3 t) p.1 p.2.1 p.2.2, soutC_0 c t hc0 hc1 (iblk1 V c 0 t) (iblk1 V c 1 t) (iblk1 V c 2 t) (iblk1 V c 3 t) p.1 p.2.1 p.2.2,
    soutC_1 c t hc0 hc1 (iblk1 V c 0 t) (iblk1 V c 1 t) (iblk1 V c 2 t) (iblk1 V c 3 t) p.1 p.2.1 p.2.2, soutC_2 c t hc0 hc1 (iblk1 V c 0 t) (iblk1 V c 1 t) (iblk1 V c 2 t) (iblk1 V c 3 t) p.1 p.2.1 p.2.2)

/-- THE RECURSION. What the output block and the three scratch buffers hold after the body at position `n`: the case the
    tile index `n % 8` selects, over what position `n - 1` left in the scratch when the case reads it. Tile index 0 and
    tile index 7 cannot both hold. -/
def outsAt1 (c : Dev nD) : (n : ℕ) → n < cfg1.N →
    Vec F S1024x256 .f32 × Vec F S1024x1 .f32 × Vec F S1024x1 .f32 × Vec F S1024x256 .f32
  | 0, hn => stepA V c ⟨0, hn⟩ ((hcond1_0 ⟨0, hn⟩).mpr (Nat.zero_mod _))
      (fun h => (fun h => by (try dsimp only at h); omega) ((hcond1_1 ⟨0, hn⟩).mp h))
  | n + 1, hn =>
    if h0 : (n + 1) % 8 = 0 then
      if h1 : (n + 1) % 8 = 7 then
        False.elim (by omega)
      else
        stepA V c ⟨n + 1, hn⟩ ((hcond1_0 ⟨n + 1, hn⟩).mpr h0) (fun h => h1 ((hcond1_1 ⟨n + 1, hn⟩).mp h))
    else
      if h1 : (n + 1) % 8 = 7 then
        stepC V c ⟨n + 1, hn⟩ (fun h => h0 ((hcond1_0 ⟨n + 1, hn⟩).mp h)) ((hcond1_1 ⟨n + 1, hn⟩).mpr h1)
          (outsAt1 c n (Nat.lt_of_succ_lt hn)).2
      else
        stepB V c ⟨n + 1, hn⟩ (fun h => h0 ((hcond1_0 ⟨n + 1, hn⟩).mp h)) (fun h => h1 ((hcond1_1 ⟨n + 1, hn⟩).mp h))
          (outsAt1 c n (Nat.lt_of_succ_lt hn)).2

/-- `outsAt1` at a point of case A. -/
theorem outsAt1_A (c : Dev nD) (t : Fin cfg1.N) (h0 : t.val % 8 = 0) (h1 : ¬t.val % 8 = 7) :
    outsAt1 V c t.val t.isLt = stepA V c t ((hcond1_0 t).mpr h0) (fun h => h1 ((hcond1_1 t).mp h)) := by
  obtain ⟨n, hn⟩ := t
  cases n with
  | zero => exact rfl
  | succ n => exact (dif_pos h0).trans ((dif_neg h1).trans rfl)

/-- `outsAt1` at a point of case B: over what the point before left. -/
theorem outsAt1_B (c : Dev nD) (t : Fin cfg1.N) (h0 : ¬t.val % 8 = 0) (h1 : ¬t.val % 8 = 7) :
    outsAt1 V c t.val t.isLt = stepB V c t (fun h => h0 ((hcond1_0 t).mp h)) (fun h => h1 ((hcond1_1 t).mp h))
      (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: over what the point before left. -/
theorem outsAt1_C (c : Dev nD) (t : Fin cfg1.N) (h0 : ¬t.val % 8 = 0) (h1 : t.val % 8 = 7) :
    outsAt1 V c t.val t.isLt = stepC V c t (fun h => h0 ((hcond1_0 t).mp h)) ((hcond1_1 t).mpr h1)
      (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The region's invariant, point by point -/

/-- Before position `n`: before the first point every scratch buffer at anything (the class's invariant); afterwards
    the three scratch buffers at what the point before left, the other region's staging buffers at anything, and the
    generator register at some state. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2.1)
      ∗ owns (c : Thread nD τ) scM1_1 fullShare ((outsAt1 V c n hn).2.2.1)
      ∗ owns (c : Thread nD τ) scM1_2 fullShare ((outsAt1 V c n hn).2.2.2) ∗ restS1 (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM1_0 fullShare ((outsAt1 V c n hn).2.1)
      ∗ owns (c : Thread nD τ) scM1_1 fullShare ((outsAt1 V c n hn).2.2.1)
      ∗ owns (c : Thread nD τ) scM1_2 fullShare ((outsAt1 V c n hn).2.2.2) ∗ restS1 (F := F) c) ∗ (∃ r, prngReg c r)) := rfl

theorem PhiS_pos (c : Dev nD) (n : ℕ) (h : n ≤ cfg1.N) (hz : n ≠ 0) :
    PhiS V c n h = iprop(iprop(owns (c : Thread nD τ) scM1_0 fullShare ((outsAt1 V c (n - 1) (by omega)).2.1)
      ∗ owns (c : Thread nD τ) scM1_1 fullShare ((outsAt1 V c (n - 1) (by omega)).2.2.1)
      ∗ owns (c : Thread nD τ) scM1_2 fullShare ((outsAt1 V c (n - 1) (by omega)).2.2.2) ∗ restS1 (F := F) c) ∗ (∃ r, prngReg c r)) := by
  cases n with
  | zero => exact absurd rfl hz
  | succ n => rfl

/-! ## The pipeline's proof data -/

/-- The proof data of the attention call on core `c`: the arrays as the region finds them; after the body at point `t`
    each input's buffer at its block and the output's at `outsAt1`'s first component; the invariant `PhiS`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

/-- An input window is live at every point: the body leaves its buffer at the block it found. -/
theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) :
    (dat1 V c).leavesExact 3 t = owns (c : Thread nD τ) (ms1_3 t) fullShare (iblk1 V c 3 t) := by
  unfold Dat.leavesExact; rw [liveAt1_3 t, after1_3]

set_option maxHeartbeats 4800000 in
/-- The body at any point. The inputs' memrefs hold their blocks; the tile index `t % 8` says which case the point is
    in; the invariant hands the body the three scratch buffers at what the point before left (at anything before the
    first point, and a point of case A accepts anything since it stores them afresh), and takes them back at this
    point's contents, each case's stores covering each buffer; the output block is handed back untouched where the
    case does not store it, and at the stored contents where it does; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3]
  have hN : t.val < 64 := lt_of_lt_of_eq t.isLt (show cfg1.N = 64 from N_1)
  by_cases h0 : t.val % 8 = 0
  · have h1 : ¬t.val % 8 = 7 := by omega
    rw [Dat.leavesExact_idle (dat1 V c) 4 t (idleAt1_4_A t ((hcond1_0 t).mpr h0) (fun h => h1 ((hcond1_1 t).mp h)))
      (noFlush1_4_A t ((hcond1_0 t).mpr h0) (fun h => h1 ((hcond1_1 t).mp h)))]
    rw [outsAt1_A V c t h0 h1]
    unfold stepA soutA_0 soutA_1 soutA_2; (try dsimp only)
    by_cases hz : t.val = 0
    · rw [PhiS_castSucc V c t, PhiS_zero V c _ _ hz, PhiA1_eq]
      iintro ⟨⟨⟨HS0, HS1, HS2, HR⟩, Hg⟩, Ho, ⟨%d0, H0⟩, ⟨%d1, H1⟩, ⟨%d2, H2⟩, ⟨%d3, H3⟩, ⟨%d4, H4⟩⟩
      iapply ((runA (F := F) c t ((hcond1_0 t).mpr h0) (fun h => h1 ((hcond1_1 t).mp h)) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 HR Hg]
      · isplitr [Hg]
        · isplitl [HS0]
          · unfold owns; iexists _; isplitr
            swap; · iexact HS0
            ipureintro; exact View.read_writes_of_cover _ _ _ _ _ (scoverA_0 _ _ _ _ _ _ _ _)
          isplitl [HS1]
          · unfold owns; iexists _; isplitr
            swap; · iexact HS1
            ipureintro; exact View.read_writes_of_cover _ _ _ _ _ (scoverA_1 _ _ _ _ _ _ _ _)
          isplitl [HS2]
          · unfold owns; iexists _; isplitr
            swap; · iexact HS2
            ipureintro; exact View.read_writes_of_cover _ _ _ _ _ (scoverA_2 _ _ _ _ _ _ _ _)
          iexact HR
        · iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HS0, HS1, HS2, HR⟩, Hg⟩, Ho, ⟨%d0, H0⟩, ⟨%d1, H1⟩, ⟨%d2, H2⟩, ⟨%d3, H3⟩, ⟨%d4, H4⟩⟩
      iapply ((runA (F := F) c t ((hcond1_0 t).mpr h0) (fun h => h1 ((hcond1_1 t).mp h)) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%es0, HS0⟩, ⟨%es1, HS1⟩, ⟨%es2, HS2⟩⟩
      isplitl [HS0 HS1 HS2 HR Hg]
      · isplitr [Hg]
        · isplitl [HS0]
          · unfold owns; iexists _; isplitr
            swap; · iexact HS0
            ipureintro; exact View.read_writes_of_cover _ _ _ _ _ (scoverA_0 _ _ _ _ _ _ _ _)
          isplitl [HS1]
          · unfold owns; iexists _; isplitr
            swap; · iexact HS1
            ipureintro; exact View.read_writes_of_cover _ _ _ _ _ (scoverA_1 _ _ _ _ _ _ _ _)
          isplitl [HS2]
          · unfold owns; iexists _; isplitr
            swap; · iexact HS2
            ipureintro; exact View.read_writes_of_cover _ _ _ _ _ (scoverA_2 _ _ _ _ _ _ _ _)
          iexact HR
        · iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 8 = 7
    · rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold stepC outC_4 soutC_0 soutC_1 soutC_2; (try dsimp only)
      rw [PhiS_castSucc V c t, PhiS_pos V c _ _ hz]
      iintro ⟨⟨⟨HS0, HS1, HS2, HR⟩, Hg⟩, Ho, ⟨%d0, H0⟩, ⟨%d1, H1⟩, ⟨%d2, H2⟩, ⟨%d3, H3⟩, ⟨%d4, H4⟩⟩
      iapply ((runC (F := F) c t (fun h => h0 ((hcond1_0 t).mp h)) ((hcond1_1 t).mpr h1) (iblk1 V c 0 t) (iblk1 V c 1 t) (iblk1 V c 2 t) (iblk1 V c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HS0 HS1 HS2 HR Hg]
      · isplitr [Hg]
        · isplitl [HS0]
          · unfold owns; iexists _; isplitr
            swap; · iexact HS0
            ipureintro; exact View.read_writes_of_cover _ _ _ _ _ (scoverC_0 _ _ _ _ _ _ _ _ _ _ _)
          isplitl [HS1]
          · unfold owns; iexists _; isplitr
            swap; · iexact HS1
            ipureintro; exact View.read_writes_of_cover _ _ _ _ _ (scoverC_1 _ _ _ _ _ _ _ _ _ _ _)
          isplitl [HS2]
          · unfold owns; iexists _; isplitr
            swap; · iexact HS2
            ipureintro; exact View.read_writes_of_cover _ _ _ _ _ (scoverC_2 _ _ _ _ _ _ _ _ _ _ _)
          iexact HR
        · iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC_4 _ _ _ _ _ _ _ _ _ _ _)
    · rw [Dat.leavesExact_idle (dat1 V c) 4 t (idleAt1_4_B t (fun h => h0 ((hcond1_0 t).mp h)) (fun h => h1 ((hcond1_1 t).mp h)))
        (noFlush1_4_B t (fun h => h0 ((hcond1_0 t).mp h)) (fun h => h1 ((hcond1_1 t).mp h)))]
      rw [outsAt1_B V c t h0 h1]
      unfold stepB soutB_0 soutB_1 soutB_2; (try dsimp only)
      rw [PhiS_castSucc V c t, PhiS_pos V c _ _ hz]
      iintro ⟨⟨⟨HS0, HS1, HS2, HR⟩, Hg⟩, Ho, ⟨%d0, H0⟩, ⟨%d1, H1⟩, ⟨%d2, H2⟩, ⟨%d3, H3⟩, ⟨%d4, H4⟩⟩
      iapply ((runB (F := F) c t (fun h => h0 ((hcond1_0 t).mp h)) (fun h => h1 ((hcond1_1 t).mp h)) (iblk1 V c 0 t) (iblk1 V c 1 t) (iblk1 V c 2 t) (iblk1 V c 3 t) _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 HR Hg]
      · isplitr [Hg]
        · isplitl [HS0]
          · unfold owns; iexists _; isplitr
            swap; · iexact HS0
            ipureintro; exact View.read_writes_of_cover _ _ _ _ _ (scoverB_0 _ _ _ _ _ _ _ _ _ _ _)
          isplitl [HS1]
          · unfold owns; iexists _; isplitr
            swap; · iexact HS1
            ipureintro; exact View.read_writes_of_cover _ _ _ _ _ (scoverB_1 _ _ _ _ _ _ _ _ _ _ _)
          isplitl [HS2]
          · unfold owns; iexists _; isplitr
            swap; · iexact HS2
            ipureintro; exact View.read_writes_of_cover _ _ _ _ _ (scoverB_2 _ _ _ _ _ _ _ _ _ _ _)
          iexact HR
        · iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HS0, HS1, HS2, HR⟩, Hg⟩
  isplitr [Hg]
  · isplitl [HS0]; · iexists _; iexact HS0
    isplitl [HS1]; · iexists _; iexact HS1
    isplitl [HS2]; · iexists _; iexact HS2
    iexact HR
  · iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.Kernel.Fr

end
-- ==== Proof.K.Run.lean ====
/-
  The run of the kernel program: two kernel regions among two stretches of host reshapes. The buffers' contents at
  each boundary are a fold from the launch memory — a host stretch applies its operations; a region leaves each of
  its windows' arrays at what its write-backs leave (an input's array as entered, an output's array at the blocks
  flushed into it) and every other buffer as entered. Over that fold each region is a segment entered from "every
  unscoped buffer at the boundary's contents, the generator register at some state, nothing owed" and left at the
  next boundary's; the first region keeps the class's invariant, the second the invariant that carries its three
  scratch buffers between grid points. The launch then says: every weakly fair execution terminates, and the final
  memory holds every unscoped buffer at the last boundary's contents. Read at the five arguments that is the frame
  claim (no host operation and no region writes an argument); read at the result buffer it is what the second
  region's write-backs leave in the output window's array.
-/
import proofs.«426516_j55353538511035_3_alg».proof.Proof.K.R0
import proofs.«426516_j55353538511035_3_alg».proof.Proof.K.R1
import proofs.«426516_j55353538511035_3_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the two attention vectors reshaped to rows): the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the column terms reshaped to a row): the second region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched

No host operation writes an argument; a region reads an argument through an input window (whose array it leaves as
entered) or does not touch it. So the fold at an argument's buffer walks back to the launch memory. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide : main_arg0 ∉ hostOps0_W)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 3).trans (((dat1 (V3 m ρ) c).arrAt_in 3 rfl _).trans (A_eq1 (V3 m ρ) c 3))
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_writes_sub hostOps0 _ hostOps0_writes (by decide : main_arg2 ∉ hostOps0_W)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl

/-- The result buffer ends at what the second region's write-backs leave in its output window's array. -/
theorem W4_main_v4 (c : Dev nD) : W4 m ρ c (Proc.devRef .tc main_v4) = (dat1 (V3 m ρ) c).arrAt 4 cfg1.N :=
  W4_arr m ρ c 4

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the last boundary's contents, the generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left at `W2`. Its arrays are split
    out of the unscoped buffers and put back at the contents its write-backs leave; the generator register goes into
    the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the contents its write-backs leave; the generator register goes into
    the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from hin1 (V3 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    the final memory holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_main m ρ)

/-- The run with the result named: the result buffer ends at what the second region's write-backs leave in its output
    window's array, and every argument array as launched. -/
theorem run_result : θ_run defs (onTc (τ := τ) (main (F := F))) ⟨m, fun _ => 0, ρ⟩ (fun r => ∀ c : Dev nD,
      r.2.mem ((c.tc : Thread nD τ).loc main_v4) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v4 (by decide))).trans (W4_main_v4 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_main m ρ)

end Cert.Kernel.Fr

end
-- ==== Proof.KI.R0.lean ====
/- The frame half of the first pipelined kernel of the program: what each window's staging buffer holds when the
   body is entered, what the body's three stores leave in the output windows' buffers as closed functions of the
   input blocks, the body's triple, and the body obligation of the pipeline's proof data. Stated at any float
   interpretation. -/
import proofs.«426516_j55353538511035_3_alg».proof.Proof.Gen.KernelIdeal.Launch
import proofs.«426516_j55353538511035_3_alg».proof.Proof.Gen.KernelIdeal.Skeleton
import proofs.«426516_j55353538511035_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the whole half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved,
    so the block of the point before is this point's. The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved,
    so the block of the point before is this point's. The window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved,
    so the block of the point before is this point's. The window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved,
    so the block of the point before is this point's. The window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole block of its window -/

abbrev r0_0 : Rect S1024x512 := Rect.unit (s := S1024x512) ![0, 0] S1024x512.size inb_S1024x512_S1024x512_0_0
abbrev r0_1 : Rect S512x256 := Rect.unit (s := S512x256) ![0, 0] S512x256.size inb_S512x256_S512x256_0_0
abbrev r0_2 : Rect S1x256 := Rect.unit (s := S1x256) ![0, 0] S1x256.size inb_S1x256_S1x256_0_0
abbrev r0_3 : Rect S1x256 := Rect.unit (s := S1x256) ![0, 0] S1x256.size inb_S1x256_S1x256_0_0
abbrev r0_4 : Rect S1024x256 := Rect.unit (s := S1024x256) ![0, 0] S1024x256.size inb_S1024x256_S1024x256_0_0
abbrev r0_5 : Rect S1024x1 := Rect.unit (s := S1024x1) ![0, 0] S1024x1.size inb_S1024x1_S1024x1_0_0
abbrev r0_6 : Rect S1024x1 := Rect.unit (s := S1024x1) ![0, 0] S1024x1.size inb_S1024x1_S1024x1_0_0

/-! ## What the body leaves in each output window's buffer -/

/-- Window 4's buffer after the body: its one store, the rounded product of the rounded blocks. -/
def out0_4 (x0 : Vec F S1024x512 .f32) (x1 : Vec F S512x256 .f32) : Vec F S1024x256 .bf16 :=
  View.canon [⟨r0_4, k0_pay2 (View.ld x0 r0_0) (View.ld x1 r0_1)⟩]

/-- Window 5's buffer after the body: its one store, the product's rows weighted by window 2's row and summed. -/
def out0_5 (x0 : Vec F S1024x512 .f32) (x1 : Vec F S512x256 .f32) (x2 : Vec F S1x256 .f32) : Vec F S1024x1 .f32 :=
  View.canon [⟨r0_5, k0_pay3 (View.ld x0 r0_0) (View.ld x1 r0_1) (View.ld x2 r0_2)⟩]

/-- Window 6's buffer after the body: its one store, the product's rows weighted by window 3's row and summed. -/
def out0_6 (x0 : Vec F S1024x512 .f32) (x1 : Vec F S512x256 .f32) (x3 : Vec F S1x256 .f32) : Vec F S1024x1 .f32 :=
  View.canon [⟨r0_6, k0_pay4 (View.ld x0 r0_0) (View.ld x1 r0_1) (View.ld x3 r0_3)⟩]

/-- The one store of window 4 is the whole block, so it covers it. -/
theorem cover0_4 (p0 : Vec F S1024x256 .bf16) (y : S1024x256.Idx) :
    ∃ pc ∈ ([⟨r0_4, p0⟩] : List (View.Piece (Elt F) S1024x256 .bf16)), y ∈ pc.1.set :=
  View.cover_of_tiled [⟨r0_4, p0⟩] S1024x256.size (by rfl) y

/-- The one store of window 5 is the whole block, so it covers it. -/
theorem cover0_5 (p0 : Vec F S1024x1 .f32) (y : S1024x1.Idx) :
    ∃ pc ∈ ([⟨r0_5, p0⟩] : List (View.Piece (Elt F) S1024x1 .f32)), y ∈ pc.1.set :=
  View.cover_of_tiled [⟨r0_5, p0⟩] S1024x1.size (by rfl) y

/-- The one store of window 6 is the whole block, so it covers it. -/
theorem cover0_6 (p0 : Vec F S1024x1 .f32) (y : S1024x1.Idx) :
    ∃ pc ∈ ([⟨r0_6, p0⟩] : List (View.Piece (Elt F) S1024x1 .f32)), y ∈ pc.1.set :=
  View.cover_of_tiled [⟨r0_6, p0⟩] S1024x1.size (by rfl) y

/-! ## The body's triple -/

set_option maxHeartbeats 1000000 in
/-- The kernel body on whole staging memrefs, the inputs' at read contents `x0 … x3` and the outputs' at anything,
    runs to the continuation holding the inputs' as they were and each output's at `out0_W` of the inputs': the
    printed function is its sequence of memory operations over the named payloads; each output buffer is read once
    (and the value dropped) before its one whole-block store, which decides its contents whatever was there. -/
theorem sound_kernel0 (c : Dev nD) (E : Set ℕ) (i : grid0.Coords)
    (arg1 : Memref sig .tc .vmem S1024x512 .f32) (harg1 : arg1.IsWhole) (arg2 : Memref sig .tc .vmem S512x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1024x256 .bf16) (harg5 : arg5.IsWhole) (arg6 : Memref sig .tc .vmem S1024x1 .f32) (harg6 : arg6.IsWhole)
    (arg7 : Memref sig .tc .vmem S1024x1 .f32) (harg7 : arg7.IsWhole)
    (x0 : Vec F S1024x512 .f32) (x1 : Vec F S512x256 .f32) (x2 : Vec F S1x256 .f32) (x3 : Vec F S1x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x1 x2)
            ∗ owns (c : Thread nD τ) arg7 fullShare (out0_6 x0 x1 x3)) -∗ K ⟨⟩))
      ⊢ wp frame (wpE (defs₀ (F := F)) Variants.none c none) E (cc0__wh_kernel i arg1 harg1 arg2 harg2 arg3 harg3 arg4 harg4 arg5 harg5 arg6 harg6 arg7 harg7) K := by
  simp only [cc0__wh_kernel_eq_skeleton]; unfold cc0__wh_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of the pipeline on core `c`: the arrays as the region finds them (`V`); after the body at point
    `t` each input's buffer at its block and each output's at `out0_W` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.R1Runs.lean ====
/- Region 1 (the attention kernel over its 8×8 grid, second coordinate the reduction step): what the runs of its
   body share. A window's block at a point read off the array the region finds; that each input's staging buffer
   holds that block at every point, fetched there or not; the two branch conditions of the body as predicates on the
   grid point, decided over the 64 points (the first holds where the step is 0, the second where it is 7); where the
   output window is idle and where it is written back; the staging and scratch memrefs the body is called on; and
   the region's invariant with the three carried scratch buffers split off as memrefs owned at some contents. -/
import proofs.«426516_j55353538511035_3_alg».proof.Proof.Gen.KernelIdeal.Launch
import proofs.«426516_j55353538511035_3_alg».proof.Proof.Gen.KernelIdeal.Skeleton
import proofs.«426516_j55353538511035_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
-- membership in a rectangle of these extents: the elaborator's structural look recurses once per coordinate of
-- the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- Each core's TensorCore buffer contents when the region is entered: a parameter, since the program has two regions
-- and the contents the second finds are what the first and the host lines between them left.
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the whole value array, fetched once at the first point) holds its block at every point: where it
    is not fetched its block index has not moved, and the body leaves the buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the row terms, fetched where the reduction step is 0): the same. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the column terms, fetched at every point): the same. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the adjacency block, fetched at every point): the same. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first branch (reset the carried buffers), from the grid coordinates: the reduction
    step is 0. -/
abbrev cond1_0 (i : grid1.Coords) : Prop := (Scalar.cmpi .ne (Scalar.extui (Scalar.cmpi .eq (BitVec.ofNat 32 (i 1).val) 0#32)) 0#32) = 1#1
/-- It holds at the points ≡ 0 (mod 8) — decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second branch (normalise and store the output), from the grid coordinates: the
    reduction step is 7. -/
abbrev cond1_1 (i : grid1.Coords) : Prop := k1_cond2 i = 1#1
/-- It holds at the points ≡ 7 (mod 8) — decided over the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- Windows 0–3 are inputs: never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Where the reduction step is 0 the body stores nothing into output 4: the window is idle there, -/
theorem idleAt1_4_A : ∀ t : Fin cfg1.N, cond1_0 (grid1.coords t) → ¬cond1_1 (grid1.coords t) → cfg1.idle 4 (grid1.coords t) = true := by decide +kernel
/-- and its block is not written back. -/
theorem noFlush1_4_A : ∀ t : Fin cfg1.N, cond1_0 (grid1.coords t) → ¬cond1_1 (grid1.coords t) → (cfg1.win 4).flush t = false := by decide +kernel
/-- Where the step is 1..6: idle as well, -/
theorem idleAt1_4_B : ∀ t : Fin cfg1.N, ¬cond1_0 (grid1.coords t) → ¬cond1_1 (grid1.coords t) → cfg1.idle 4 (grid1.coords t) = true := by decide +kernel
/-- and not written back. -/
theorem noFlush1_4_B : ∀ t : Fin cfg1.N, ¬cond1_0 (grid1.coords t) → ¬cond1_1 (grid1.coords t) → (cfg1.win 4).flush t = false := by decide +kernel
/-- Where the step is 7 the body stores the whole block of output 4: the window is live. -/
theorem liveAt1_4_C : ∀ t : Fin cfg1.N, ¬cond1_0 (grid1.coords t) → cond1_1 (grid1.coords t) → cfg1.idle 4 (grid1.coords t) = false := by decide +kernel

/-! ## The memrefs the body is called on -/

/-- One staging buffer of output window 4, through which its contents are stated (which of the two does not matter:
    what is read back through a whole view is what the pieces cover). -/
abbrev VO1_4 : View sig .tc .vmem S1024x256 .f32 := (Memref.whole cc1_stg4_0 : Memref sig .tc .vmem S1024x256 .f32).view
/-- Each window's current staging memref at point `t`, spelled as the pipeline passes it, and its wholeness. -/
abbrev ms1_0 (t : Fin cfg1.N) : Memref sig .tc .vmem S8192x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x256 .f32 := win1_4.stage (cfg1.slots t 4)
abbrev hs1_4 (t : Fin cfg1.N) : (ms1_4 t).IsWhole := hstage1_4 ((cfg1.slots t 4).cast nbuf1_4)
/-- The scratch operands: whole scoped buffers of the kernel's own, passed beside the windows — the running row
    maximum, the running row sum, the running weighted sum. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x256 .f32 := Memref.whole cc1_scratch2
/-- The same as views: what the kernel carries between points is stated through them. -/
abbrev VS1_0 : View sig .tc .vmem S1024x1 .f32 := scM1_0.view
abbrev VS1_1 : View sig .tc .vmem S1024x1 .f32 := scM1_1.view
abbrev VS1_2 : View sig .tc .vmem S1024x256 .f32 := scM1_2.view

/-! ## The region's invariant -/

/-- The core's scoped buffers that this region neither stages through nor carries — the other region's eleven staging
    buffers —, each whole at some contents: the body never touches them, so they travel as one conjunct. -/
def restS1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f))

/-- The invariant the body obligation hands the run and takes back, with the three scratch operands as memrefs owned
    at some contents and everything else scoped as one conjunct: the scoped rest enumerated, a whole memref's
    ownership being its buffer's points-to, and the conjuncts reordered (separating conjunction is commutative
    and associative). -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d) ∗ (∃ d, owns (c : Thread nD τ) scM1_2 fullShare d) ∗ restS1 (F := F) c) ∗ (∃ r, prngReg c r)) := by
  unfold Pipeline.ΦA; rw [scopedRest1_eq]; simp only [scM1_0, scM1_1, scM1_2, owns_whole, restS1]
  refine BI.Entails.antisymm (show (_ : sProp 𝕄) ⊢ _ from ?_) (show (_ : sProp 𝕄) ⊢ _ from ?_)
  · iintro ⟨⟨A0, A1, A2, A3, A4, A5, A6, A7, A8, A9, A10, S0, S1, S2⟩, R⟩
    isplitr [R]
    · isplitl [S0]; · iexact S0
      isplitl [S1]; · iexact S1
      isplitl [S2]; · iexact S2
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      iexact A10
    · iexact R
  · iintro ⟨⟨S0, S1, S2, A0, A1, A2, A3, A4, A5, A6, A7, A8, A9, A10⟩, R⟩
    isplitr [R]
    ·
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [S0]; · iexact S0
      isplitl [S1]; · iexact S1
      iexact S2
    · iexact R

end Cert.KernelIdeal.Fr

end
-- ==== Proof.KI.R1RunA.lean ====
/- Region 1, case A of the body's run: the reduction step is 0 (the first branch taken, the second not). The body
   resets the three carried buffers — running maximum to −∞, running sum and weighted sum to 0 — before it reads
   them, so they may hold anything on entry; it then folds this step's block into them and stores nothing into the
   output, which is handed back as found. The pieces each carried buffer ends with are the witness. -/
import proofs.«426516_j55353538511035_3_alg».proof.Proof.KI.R1Runs
-- membership in a rectangle of these extents: the elaborator's structural look recurses once per coordinate of
-- the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each buffer, as pieces (last first), WHERE THE REDUCTION STEP IS 0, with the proof
    that on whole memrefs — the four inputs at their contents, the output at contents `xi4` handed back untouched
    (no store reaches it), the three carried buffers at anything — the body runs to the continuation holding the inputs
    as they were, the output as it was, and each carried buffer with its pieces written: the reset stores cover each
    carried buffer before the first load of it, so what the loads read are the reset values, whatever was there. -/
noncomputable def kernelRun1_A (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x1024 .i32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S8192x256 .bf16) (x1 : Vec F S1024x1 .f32) (x2 : Vec F S1x1024 .f32) (x3 : Vec F S1024x1024 .i32) :
    Σ' (L4 : List (View.Piece (Elt F) S1024x256 .f32)) (LS0 : List (View.Piece (Elt F) S1024x1 .f32)) (LS1 : List (View.Piece (Elt F) S1024x1 .f32)), { LS2 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Fr

end
-- ==== Proof.KI.R1RunB.lean ====
/- Region 1, case B of the body's run: the reduction step is 1..6 (neither branch taken). The body reads the three
   carried buffers as the step before left them, folds this step's block into them — new running maximum, running
   sum and weighted sum rescaled by the exponential of the maximum's change — and stores nothing into the output,
   which is handed back as found. The pieces each carried buffer ends with are the witness. -/
import proofs.«426516_j55353538511035_3_alg».proof.Proof.KI.R1RunA
-- membership in a rectangle of these extents: the elaborator's structural look recurses once per coordinate of
-- the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each buffer, as pieces (last first), WHERE THE REDUCTION STEP IS 1..6, with the
    proof that on whole memrefs — the four inputs at their contents, the output at contents `xi4` handed back
    untouched (no store reaches it), the three carried buffers at the contents `xs·` the step before left — the body
    runs to the continuation holding the inputs as they were, the output as it was, and each carried buffer with its
    pieces written. -/
noncomputable def kernelRun1_B (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x1024 .i32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) :
    Σ' (L4 : List (View.Piece (Elt F) S1024x256 .f32)) (LS0 : List (View.Piece (Elt F) S1024x1 .f32)) (LS1 : List (View.Piece (Elt F) S1024x1 .f32)), { LS2 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Fr

end
-- ==== Proof.KI.R1RunC.lean ====
/- Region 1, case C of the body's run: the reduction step is 7 (the first branch not taken, the second taken). The
   body folds the last block into the three carried buffers as in the steps before, then reads the weighted sum and
   the running sum back and stores their quotient, row by row, over the whole output block. The pieces the output
   and each carried buffer end with are the witness. -/
import proofs.«426516_j55353538511035_3_alg».proof.Proof.KI.R1RunB
-- membership in a rectangle of these extents: the elaborator's structural look recurses once per coordinate of
-- the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each buffer, as pieces (last first), WHERE THE REDUCTION STEP IS 7, with the proof
    that on whole memrefs — the four inputs at their contents, the output at anything (the body stores its whole
    block), the three carried buffers at the contents `xs·` the step before left — the body runs to the continuation
    holding the inputs as they were and the output and each carried buffer with its pieces written. -/
noncomputable def kernelRun1_C (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x1024 .i32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) :
    Σ' (L4 : List (View.Piece (Elt F) S1024x256 .f32)) (LS0 : List (View.Piece (Elt F) S1024x1 .f32)) (LS1 : List (View.Piece (Elt F) S1024x1 .f32)), { LS2 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.KernelIdeal.Fr

end
-- ==== Proof.KI.R1Pieces.lean ====
/-
  The attention region's three control cases at a grid point: each case's whole-body run taken at the point's own
  staging memrefs and the three scratch buffers, and, per case and per scratch buffer, that the case's stores tile
  the buffer and what they leave in it (the stores read back through the buffer's view); for the case that stores
  the output block, the same for that block. The run of a case is the witness of what it stores; nothing here says
  what the stored values are.
-/
import proofs.«426516_j55353538511035_3_alg».proof.Proof.KI.R1RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At a point where the output block is not stored nothing consults its contents: the window is neither written
    back there nor read at the next point. A fixed placeholder stands for them. -/
def outIdle : Vec F S1024x256 .f32 := VO1_4.read (Elt F) VO1_4.junk

/-! ## Case A: the tile index is 0: the scratch is stored afresh before it is read -/

/-- Case A's run at point `t`: the windows' current staging memrefs and the three scratch buffers. -/
abbrev runA (c : Dev nD) (t : Fin cfg1.N) (hc0 : cond1_0 (grid1.coords t)) (hc1 : ¬cond1_1 (grid1.coords t))
    (x0 : Vec F S8192x256 .bf16) (x1 : Vec F S1024x1 .f32) (x2 : Vec F S1x1024 .f32) (x3 : Vec F S1024x1024 .i32) :=
  kernelRun1_A (F := F) c (grid1.coords t) (ms1_0 t) (hs1_0 t) (ms1_1 t) (hs1_1 t) (ms1_2 t) (hs1_2 t) (ms1_3 t) (hs1_3 t)
    (ms1_4 t) (hs1_4 t) scM1_0 (Memref.isWhole_whole _) scM1_1 (Memref.isWhole_whole _) scM1_2 (Memref.isWhole_whole _) hc0 hc1 x0 x1 x2 x3

/-- Case A's stores into scratch 0 tile it, so they cover it. -/
theorem scoverA_0 (c : Dev nD) (t : Fin cfg1.N) (hc0 : cond1_0 (grid1.coords t)) (hc1 : ¬cond1_1 (grid1.coords t))
    (x0 : Vec F S8192x256 .bf16) (x1 : Vec F S1024x1 .f32) (x2 : Vec F S1x1024 .f32) (x3 : Vec F S1024x1024 .i32) (y : S1024x1.Idx) :
    ∃ pc ∈ (runA (F := F) c t hc0 hc1 x0 x1 x2 x3).2.1, y ∈ pc.1.set :=
  View.cover_of_tiledL (runA (F := F) c t hc0 hc1 x0 x1 x2 x3).2.1 S1024x1.size (by sl_kernel_rfl) y

/-- What case A leaves in scratch 0: its stores read back. -/
def soutA_0 (c : Dev nD) (t : Fin cfg1.N) (hc0 : cond1_0 (grid1.coords t)) (hc1 : ¬cond1_1 (grid1.coords t))
    (x0 : Vec F S8192x256 .bf16) (x1 : Vec F S1024x1 .f32) (x2 : Vec F S1x1024 .f32) (x3 : Vec F S1024x1024 .i32) : Vec F S1024x1 .f32 :=
  VS1_0.read (Elt F) (VS1_0.writes (Elt F) VS1_0.junk (runA (F := F) c t hc0 hc1 x0 x1 x2 x3).2.1)

/-- Case A's stores into scratch 1 tile it, so they cover it. -/
theorem scoverA_1 (c : Dev nD) (t : Fin cfg1.N) (hc0 : cond1_0 (grid1.coords t)) (hc1 : ¬cond1_1 (grid1.coords t))
    (x0 : Vec F S8192x256 .bf16) (x1 : Vec F S1024x1 .f32) (x2 : Vec F S1x1024 .f32) (x3 : Vec F S1024x1024 .i32) (y : S1024x1.Idx) :
    ∃ pc ∈ (runA (F := F) c t hc0 hc1 x0 x1 x2 x3).2.2.1, y ∈ pc.1.set :=
  View.cover_of_tiledL (runA (F := F) c t hc0 hc1 x0 x1 x2 x3).2.2.1 S1024x1.size (by sl_kernel_rfl) y

/-- What case A leaves in scratch 1: its stores read back. -/
def soutA_1 (c : Dev nD) (t : Fin cfg1.N) (hc0 : cond1_0 (grid1.coords t)) (hc1 : ¬cond1_1 (grid1.coords t))
    (x0 : Vec F S8192x256 .bf16) (x1 : Vec F S1024x1 .f32) (x2 : Vec F S1x1024 .f32) (x3 : Vec F S1024x1024 .i32) : Vec F S1024x1 .f32 :=
  VS1_1.read (Elt F) (VS1_1.writes (Elt F) VS1_1.junk (runA (F := F) c t hc0 hc1 x0 x1 x2 x3).2.2.1)

/-- Case A's stores into scratch 2 tile it, so they cover it. -/
theorem scoverA_2 (c : Dev nD) (t : Fin cfg1.N) (hc0 : cond1_0 (grid1.coords t)) (hc1 : ¬cond1_1 (grid1.coords t))
    (x0 : Vec F S8192x256 .bf16) (x1 : Vec F S1024x1 .f32) (x2 : Vec F S1x1024 .f32) (x3 : Vec F S1024x1024 .i32) (y : S1024x256.Idx) :
    ∃ pc ∈ (runA (F := F) c t hc0 hc1 x0 x1 x2 x3).2.2.2.1, y ∈ pc.1.set :=
  View.cover_of_tiledL (runA (F := F) c t hc0 hc1 x0 x1 x2 x3).2.2.2.1 S1024x256.size (by sl_kernel_rfl) y

/-- What case A leaves in scratch 2: its stores read back. -/
def soutA_2 (c : Dev nD) (t : Fin cfg1.N) (hc0 : cond1_0 (grid1.coords t)) (hc1 : ¬cond1_1 (grid1.coords t))
    (x0 : Vec F S8192x256 .bf16) (x1 : Vec F S1024x1 .f32) (x2 : Vec F S1x1024 .f32) (x3 : Vec F S1024x1024 .i32) : Vec F S1024x256 .f32 :=
  VS1_2.read (Elt F) (VS1_2.writes (Elt F) VS1_2.junk (runA (F := F) c t hc0 hc1 x0 x1 x2 x3).2.2.2.1)

/-! ## Case B: the tile index is 1 … 6 -/

/-- Case B's run at point `t`: the windows' current staging memrefs and the three scratch buffers. -/
abbrev runB (c : Dev nD) (t : Fin cfg1.N) (hc0 : ¬cond1_0 (grid1.coords t)) (hc1 : ¬cond1_1 (grid1.coords t))
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) :=
  kernelRun1_B (F := F) c (grid1.coords t) (ms1_0 t) (hs1_0 t) (ms1_1 t) (hs1_1 t) (ms1_2 t) (hs1_2 t) (ms1_3 t) (hs1_3 t)
    (ms1_4 t) (hs1_4 t) scM1_0 (Memref.isWhole_whole _) scM1_1 (Memref.isWhole_whole _) scM1_2 (Memref.isWhole_whole _) hc0 hc1 x0 x1 x2 x3 xs0 xs1 xs2

/-- Case B's stores into scratch 0 tile it, so they cover it. -/
theorem scoverB_0 (c : Dev nD) (t : Fin cfg1.N) (hc0 : ¬cond1_0 (grid1.coords t)) (hc1 : ¬cond1_1 (grid1.coords t))
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) (y : S1024x1.Idx) :
    ∃ pc ∈ (runB (F := F) c t hc0 hc1 x0 x1 x2 x3 xs0 xs1 xs2).2.1, y ∈ pc.1.set :=
  View.cover_of_tiledL (runB (F := F) c t hc0 hc1 x0 x1 x2 x3 xs0 xs1 xs2).2.1 S1024x1.size (by sl_kernel_rfl) y

/-- What case B leaves in scratch 0: its stores read back. -/
def soutB_0 (c : Dev nD) (t : Fin cfg1.N) (hc0 : ¬cond1_0 (grid1.coords t)) (hc1 : ¬cond1_1 (grid1.coords t))
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) : Vec F S1024x1 .f32 :=
  VS1_0.read (Elt F) (VS1_0.writes (Elt F) VS1_0.junk (runB (F := F) c t hc0 hc1 x0 x1 x2 x3 xs0 xs1 xs2).2.1)

/-- Case B's stores into scratch 1 tile it, so they cover it. -/
theorem scoverB_1 (c : Dev nD) (t : Fin cfg1.N) (hc0 : ¬cond1_0 (grid1.coords t)) (hc1 : ¬cond1_1 (grid1.coords t))
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) (y : S1024x1.Idx) :
    ∃ pc ∈ (runB (F := F) c t hc0 hc1 x0 x1 x2 x3 xs0 xs1 xs2).2.2.1, y ∈ pc.1.set :=
  View.cover_of_tiledL (runB (F := F) c t hc0 hc1 x0 x1 x2 x3 xs0 xs1 xs2).2.2.1 S1024x1.size (by sl_kernel_rfl) y

/-- What case B leaves in scratch 1: its stores read back. -/
def soutB_1 (c : Dev nD) (t : Fin cfg1.N) (hc0 : ¬cond1_0 (grid1.coords t)) (hc1 : ¬cond1_1 (grid1.coords t))
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) : Vec F S1024x1 .f32 :=
  VS1_1.read (Elt F) (VS1_1.writes (Elt F) VS1_1.junk (runB (F := F) c t hc0 hc1 x0 x1 x2 x3 xs0 xs1 xs2).2.2.1)

/-- Case B's stores into scratch 2 tile it, so they cover it. -/
theorem scoverB_2 (c : Dev nD) (t : Fin cfg1.N) (hc0 : ¬cond1_0 (grid1.coords t)) (hc1 : ¬cond1_1 (grid1.coords t))
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) (y : S1024x256.Idx) :
    ∃ pc ∈ (runB (F := F) c t hc0 hc1 x0 x1 x2 x3 xs0 xs1 xs2).2.2.2.1, y ∈ pc.1.set :=
  View.cover_of_tiledL (runB (F := F) c t hc0 hc1 x0 x1 x2 x3 xs0 xs1 xs2).2.2.2.1 S1024x256.size (by sl_kernel_rfl) y

/-- What case B leaves in scratch 2: its stores read back. -/
def soutB_2 (c : Dev nD) (t : Fin cfg1.N) (hc0 : ¬cond1_0 (grid1.coords t)) (hc1 : ¬cond1_1 (grid1.coords t))
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) : Vec F S1024x256 .f32 :=
  VS1_2.read (Elt F) (VS1_2.writes (Elt F) VS1_2.junk (runB (F := F) c t hc0 hc1 x0 x1 x2 x3 xs0 xs1 xs2).2.2.2.1)

/-! ## Case C: the tile index is 7: the output block is stored too -/

/-- Case C's run at point `t`: the windows' current staging memrefs and the three scratch buffers. -/
abbrev runC (c : Dev nD) (t : Fin cfg1.N) (hc0 : ¬cond1_0 (grid1.coords t)) (hc1 : cond1_1 (grid1.coords t))
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) :=
  kernelRun1_C (F := F) c (grid1.coords t) (ms1_0 t) (hs1_0 t) (ms1_1 t) (hs1_1 t) (ms1_2 t) (hs1_2 t) (ms1_3 t) (hs1_3 t)
    (ms1_4 t) (hs1_4 t) scM1_0 (Memref.isWhole_whole _) scM1_1 (Memref.isWhole_whole _) scM1_2 (Memref.isWhole_whole _) hc0 hc1 x0 x1 x2 x3 xs0 xs1 xs2

/-- Case C's store into the output block is the whole block, so it covers it. -/
theorem coverC_4 (c : Dev nD) (t : Fin cfg1.N) (hc0 : ¬cond1_0 (grid1.coords t)) (hc1 : cond1_1 (grid1.coords t))
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) (y : S1024x256.Idx) :
    ∃ pc ∈ (runC (F := F) c t hc0 hc1 x0 x1 x2 x3 xs0 xs1 xs2).1, y ∈ pc.1.set :=
  View.cover_of_tiledL (runC (F := F) c t hc0 hc1 x0 x1 x2 x3 xs0 xs1 xs2).1 S1024x256.size (by sl_kernel_rfl) y

/-- What case C leaves in the output block: its store read back. -/
def outC_4 (c : Dev nD) (t : Fin cfg1.N) (hc0 : ¬cond1_0 (grid1.coords t)) (hc1 : cond1_1 (grid1.coords t))
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) : Vec F S1024x256 .f32 :=
  VO1_4.read (Elt F) (VO1_4.writes (Elt F) VO1_4.junk (runC (F := F) c t hc0 hc1 x0 x1 x2 x3 xs0 xs1 xs2).1)

/-- Case C's stores into scratch 0 tile it, so they cover it. -/
theorem scoverC_0 (c : Dev nD) (t : Fin cfg1.N) (hc0 : ¬cond1_0 (grid1.coords t)) (hc1 : cond1_1 (grid1.coords t))
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) (y : S1024x1.Idx) :
    ∃ pc ∈ (runC (F := F) c t hc0 hc1 x0 x1 x2 x3 xs0 xs1 xs2).2.1, y ∈ pc.1.set :=
  View.cover_of_tiledL (runC (F := F) c t hc0 hc1 x0 x1 x2 x3 xs0 xs1 xs2).2.1 S1024x1.size (by sl_kernel_rfl) y

/-- What case C leaves in scratch 0: its stores read back. -/
def soutC_0 (c : Dev nD) (t : Fin cfg1.N) (hc0 : ¬cond1_0 (grid1.coords t)) (hc1 : cond1_1 (grid1.coords t))
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) : Vec F S1024x1 .f32 :=
  VS1_0.read (Elt F) (VS1_0.writes (Elt F) VS1_0.junk (runC (F := F) c t hc0 hc1 x0 x1 x2 x3 xs0 xs1 xs2).2.1)

/-- Case C's stores into scratch 1 tile it, so they cover it. -/
theorem scoverC_1 (c : Dev nD) (t : Fin cfg1.N) (hc0 : ¬cond1_0 (grid1.coords t)) (hc1 : cond1_1 (grid1.coords t))
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) (y : S1024x1.Idx) :
    ∃ pc ∈ (runC (F := F) c t hc0 hc1 x0 x1 x2 x3 xs0 xs1 xs2).2.2.1, y ∈ pc.1.set :=
  View.cover_of_tiledL (runC (F := F) c t hc0 hc1 x0 x1 x2 x3 xs0 xs1 xs2).2.2.1 S1024x1.size (by sl_kernel_rfl) y

/-- What case C leaves in scratch 1: its stores read back. -/
def soutC_1 (c : Dev nD) (t : Fin cfg1.N) (hc0 : ¬cond1_0 (grid1.coords t)) (hc1 : cond1_1 (grid1.coords t))
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) : Vec F S1024x1 .f32 :=
  VS1_1.read (Elt F) (VS1_1.writes (Elt F) VS1_1.junk (runC (F := F) c t hc0 hc1 x0 x1 x2 x3 xs0 xs1 xs2).2.2.1)

/-- Case C's stores into scratch 2 tile it, so they cover it. -/
theorem scoverC_2 (c : Dev nD) (t : Fin cfg1.N) (hc0 : ¬cond1_0 (grid1.coords t)) (hc1 : cond1_1 (grid1.coords t))
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) (y : S1024x256.Idx) :
    ∃ pc ∈ (runC (F := F) c t hc0 hc1 x0 x1 x2 x3 xs0 xs1 xs2).2.2.2.1, y ∈ pc.1.set :=
  View.cover_of_tiledL (runC (F := F) c t hc0 hc1 x0 x1 x2 x3 xs0 xs1 xs2).2.2.2.1 S1024x256.size (by sl_kernel_rfl) y

/-- What case C leaves in scratch 2: its stores read back. -/
def soutC_2 (c : Dev nD) (t : Fin cfg1.N) (hc0 : ¬cond1_0 (grid1.coords t)) (hc1 : cond1_1 (grid1.coords t))
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) : Vec F S1024x256 .f32 :=
  VS1_2.read (Elt F) (VS1_2.writes (Elt F) VS1_2.junk (runC (F := F) c t hc0 hc1 x0 x1 x2 x3 xs0 xs1 xs2).2.2.2.1)

end Cert.KernelIdeal.Fr

end
-- ==== Proof.KI.R1.lean ====
/-
  Region 1 of the kernel program (the attention call, a grid of 8 × 8 points in row-major order, the second
  coordinate running over the eight tiles of 1024 key columns): what its output block and its three scratch
  buffers hold after each grid point, and the region's proof data and body obligation, at any float instance.

  The three scratch buffers carry, between the points of one row of the grid, the running maximum of the masked
  scores (1024 × 1), the running sum of the exponentials (1024 × 1) and the running weighted sum of the value
  rows (1024 × 256). A point whose tile index is 0 stores fresh values into all three before it reads them
  (case A); the points with tile index 1 … 6 read what the point before left and store the update (case B); the
  point with tile index 7 does the same and then stores the quotient of the last two into the output block
  (case C), the only point of its row at which the output block is stored and written back. So the contents
  after point n are defined by recursion on n: case A from the point's input blocks alone, cases B and C from
  the input blocks and the scratch components of point n − 1. The region's invariant before point n + 1 holds
  the three scratch buffers at exactly those components; before the first point it holds them at anything.
-/
import proofs.«426516_j55353538511035_3_alg».proof.Proof.KI.R1Pieces

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The contents after each point -/

/-- The output block and the three scratch buffers after a point of case A: from the point's input blocks alone. -/
def stepA (c : Dev nD) (t : Fin cfg1.N) (hc0 : cond1_0 (grid1.coords t)) (hc1 : ¬cond1_1 (grid1.coords t)) :
    Vec F S1024x256 .f32 × Vec F S1024x1 .f32 × Vec F S1024x1 .f32 × Vec F S1024x256 .f32 :=
  (outIdle, soutA_0 c t hc0 hc1 (iblk1 V c 0 t) (iblk1 V c 1 t) (iblk1 V c 2 t) (iblk1 V c 3 t), soutA_1 c t hc0 hc1 (iblk1 V c 0 t) (iblk1 V c 1 t) (iblk1 V c 2 t) (iblk1 V c 3 t), soutA_2 c t hc0 hc1 (iblk1 V c 0 t) (iblk1 V c 1 t) (iblk1 V c 2 t) (iblk1 V c 3 t))

/-- After a point of case B: from the input blocks and what the point before left in the scratch. -/
def stepB (c : Dev nD) (t : Fin cfg1.N) (hc0 : ¬cond1_0 (grid1.coords t)) (hc1 : ¬cond1_1 (grid1.coords t))
    (p : Vec F S1024x1 .f32 × Vec F S1024x1 .f32 × Vec F S1024x256 .f32) :
    Vec F S1024x256 .f32 × Vec F S1024x1 .f32 × Vec F S1024x1 .f32 × Vec F S1024x256 .f32 :=
  (outIdle, soutB_0 c t hc0 hc1 (iblk1 V c 0 t) (iblk1 V c 1 t) (iblk1 V c 2 t) (iblk1 V c 3 t) p.1 p.2.1 p.2.2, soutB_1 c t hc0 hc1 (iblk1 V c 0 t) (iblk1 V c 1 t) (iblk1 V c 2 t) (iblk1 V c 3 t) p.1 p.2.1 p.2.2,
    soutB_2 c t hc0 hc1 (iblk1 V c 0 t) (iblk1 V c 1 t) (iblk1 V c 2 t) (iblk1 V c 3 t) p.1 p.2.1 p.2.2)

/-- After a point of case C: the same, and the output block stored. -/
def stepC (c : Dev nD) (t : Fin cfg1.N) (hc0 : ¬cond1_0 (grid1.coords t)) (hc1 : cond1_1 (grid1.coords t))
    (p : Vec F S1024x1 .f32 × Vec F S1024x1 .f32 × Vec F S1024x256 .f32) :
    Vec F S1024x256 .f32 × Vec F S1024x1 .f32 × Vec F S1024x1 .f32 × Vec F S1024x256 .f32 :=
  (outC_4 c t hc0 hc1 (iblk1 V c 0 t) (iblk1 V c 1 t) (iblk1 V c 2 t) (iblk1 V c 3 t) p.1 p.2.1 p.2.2, soutC_0 c t hc0 hc1 (iblk1 V c 0 t) (iblk1 V c 1 t) (iblk1 V c 2 t) (iblk1 V c 3 t) p.1 p.2.1 p.2.2,
    soutC_1 c t hc0 hc1 (iblk1 V c 0 t) (iblk1 V c 1 t) (iblk1 V c 2 t) (iblk1 V c 3 t) p.1 p.2.1 p.2.2, soutC_2 c t hc0 hc1 (iblk1 V c 0 t) (iblk1 V c 1 t) (iblk1 V c 2 t) (iblk1 V c 3 t) p.1 p.2.1 p.2.2)

/-- THE RECURSION. What the output block and the three scratch buffers hold after the body at position `n`: the case the
    tile index `n % 8` selects, over what position `n - 1` left in the scratch when the case reads it. Tile index 0 and
    tile index 7 cannot both hold. -/
def outsAt1 (c : Dev nD) : (n : ℕ) → n < cfg1.N →
    Vec F S1024x256 .f32 × Vec F S1024x1 .f32 × Vec F S1024x1 .f32 × Vec F S1024x256 .f32
  | 0, hn => stepA V c ⟨0, hn⟩ ((hcond1_0 ⟨0, hn⟩).mpr (Nat.zero_mod _))
      (fun h => (fun h => by (try dsimp only at h); omega) ((hcond1_1 ⟨0, hn⟩).mp h))
  | n + 1, hn =>
    if h0 : (n + 1) % 8 = 0 then
      if h1 : (n + 1) % 8 = 7 then
        False.elim (by omega)
      else
        stepA V c ⟨n + 1, hn⟩ ((hcond1_0 ⟨n + 1, hn⟩).mpr h0) (fun h => h1 ((hcond1_1 ⟨n + 1, hn⟩).mp h))
    else
      if h1 : (n + 1) % 8 = 7 then
        stepC V c ⟨n + 1, hn⟩ (fun h => h0 ((hcond1_0 ⟨n + 1, hn⟩).mp h)) ((hcond1_1 ⟨n + 1, hn⟩).mpr h1)
          (outsAt1 c n (Nat.lt_of_succ_lt hn)).2
      else
        stepB V c ⟨n + 1, hn⟩ (fun h => h0 ((hcond1_0 ⟨n + 1, hn⟩).mp h)) (fun h => h1 ((hcond1_1 ⟨n + 1, hn⟩).mp h))
          (outsAt1 c n (Nat.lt_of_succ_lt hn)).2

/-- `outsAt1` at a point of case A. -/
theorem outsAt1_A (c : Dev nD) (t : Fin cfg1.N) (h0 : t.val % 8 = 0) (h1 : ¬t.val % 8 = 7) :
    outsAt1 V c t.val t.isLt = stepA V c t ((hcond1_0 t).mpr h0) (fun h => h1 ((hcond1_1 t).mp h)) := by
  obtain ⟨n, hn⟩ := t
  cases n with
  | zero => exact rfl
  | succ n => exact (dif_pos h0).trans ((dif_neg h1).trans rfl)

/-- `outsAt1` at a point of case B: over what the point before left. -/
theorem outsAt1_B (c : Dev nD) (t : Fin cfg1.N) (h0 : ¬t.val % 8 = 0) (h1 : ¬t.val % 8 = 7) :
    outsAt1 V c t.val t.isLt = stepB V c t (fun h => h0 ((hcond1_0 t).mp h)) (fun h => h1 ((hcond1_1 t).mp h))
      (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: over what the point before left. -/
theorem outsAt1_C (c : Dev nD) (t : Fin cfg1.N) (h0 : ¬t.val % 8 = 0) (h1 : t.val % 8 = 7) :
    outsAt1 V c t.val t.isLt = stepC V c t (fun h => h0 ((hcond1_0 t).mp h)) ((hcond1_1 t).mpr h1)
      (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The region's invariant, point by point -/

/-- Before position `n`: before the first point every scratch buffer at anything (the class's invariant); afterwards
    the three scratch buffers at what the point before left, the other region's staging buffers at anything, and the
    generator register at some state. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2.1)
      ∗ owns (c : Thread nD τ) scM1_1 fullShare ((outsAt1 V c n hn).2.2.1)
      ∗ owns (c : Thread nD τ) scM1_2 fullShare ((outsAt1 V c n hn).2.2.2) ∗ restS1 (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM1_0 fullShare ((outsAt1 V c n hn).2.1)
      ∗ owns (c : Thread nD τ) scM1_1 fullShare ((outsAt1 V c n hn).2.2.1)
      ∗ owns (c : Thread nD τ) scM1_2 fullShare ((outsAt1 V c n hn).2.2.2) ∗ restS1 (F := F) c) ∗ (∃ r, prngReg c r)) := rfl

theorem PhiS_pos (c : Dev nD) (n : ℕ) (h : n ≤ cfg1.N) (hz : n ≠ 0) :
    PhiS V c n h = iprop(iprop(owns (c : Thread nD τ) scM1_0 fullShare ((outsAt1 V c (n - 1) (by omega)).2.1)
      ∗ owns (c : Thread nD τ) scM1_1 fullShare ((outsAt1 V c (n - 1) (by omega)).2.2.1)
      ∗ owns (c : Thread nD τ) scM1_2 fullShare ((outsAt1 V c (n - 1) (by omega)).2.2.2) ∗ restS1 (F := F) c) ∗ (∃ r, prngReg c r)) := by
  cases n with
  | zero => exact absurd rfl hz
  | succ n => rfl

/-! ## The pipeline's proof data -/

/-- The proof data of the attention call on core `c`: the arrays as the region finds them; after the body at point `t`
    each input's buffer at its block and the output's at `outsAt1`'s first component; the invariant `PhiS`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

/-- An input window is live at every point: the body leaves its buffer at the block it found. -/
theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) :
    (dat1 V c).leavesExact 3 t = owns (c : Thread nD τ) (ms1_3 t) fullShare (iblk1 V c 3 t) := by
  unfold Dat.leavesExact; rw [liveAt1_3 t, after1_3]

set_option maxHeartbeats 4800000 in
/-- The body at any point. The inputs' memrefs hold their blocks; the tile index `t % 8` says which case the point is
    in; the invariant hands the body the three scratch buffers at what the point before left (at anything before the
    first point, and a point of case A accepts anything since it stores them afresh), and takes them back at this
    point's contents, each case's stores covering each buffer; the output block is handed back untouched where the
    case does not store it, and at the stored contents where it does; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3]
  have hN : t.val < 64 := lt_of_lt_of_eq t.isLt (show cfg1.N = 64 from N_1)
  by_cases h0 : t.val % 8 = 0
  · have h1 : ¬t.val % 8 = 7 := by omega
    rw [Dat.leavesExact_idle (dat1 V c) 4 t (idleAt1_4_A t ((hcond1_0 t).mpr h0) (fun h => h1 ((hcond1_1 t).mp h)))
      (noFlush1_4_A t ((hcond1_0 t).mpr h0) (fun h => h1 ((hcond1_1 t).mp h)))]
    rw [outsAt1_A V c t h0 h1]
    unfold stepA soutA_0 soutA_1 soutA_2; (try dsimp only)
    by_cases hz : t.val = 0
    · rw [PhiS_castSucc V c t, PhiS_zero V c _ _ hz, PhiA1_eq]
      iintro ⟨⟨⟨HS0, HS1, HS2, HR⟩, Hg⟩, Ho, ⟨%d0, H0⟩, ⟨%d1, H1⟩, ⟨%d2, H2⟩, ⟨%d3, H3⟩, ⟨%d4, H4⟩⟩
      iapply ((runA (F := F) c t ((hcond1_0 t).mpr h0) (fun h => h1 ((hcond1_1 t).mp h)) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 HR Hg]
      · isplitr [Hg]
        · isplitl [HS0]
          · unfold owns; iexists _; isplitr
            swap; · iexact HS0
            ipureintro; exact View.read_writes_of_cover _ _ _ _ _ (scoverA_0 _ _ _ _ _ _ _ _)
          isplitl [HS1]
          · unfold owns; iexists _; isplitr
            swap; · iexact HS1
            ipureintro; exact View.read_writes_of_cover _ _ _ _ _ (scoverA_1 _ _ _ _ _ _ _ _)
          isplitl [HS2]
          · unfold owns; iexists _; isplitr
            swap; · iexact HS2
            ipureintro; exact View.read_writes_of_cover _ _ _ _ _ (scoverA_2 _ _ _ _ _ _ _ _)
          iexact HR
        · iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HS0, HS1, HS2, HR⟩, Hg⟩, Ho, ⟨%d0, H0⟩, ⟨%d1, H1⟩, ⟨%d2, H2⟩, ⟨%d3, H3⟩, ⟨%d4, H4⟩⟩
      iapply ((runA (F := F) c t ((hcond1_0 t).mpr h0) (fun h => h1 ((hcond1_1 t).mp h)) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%es0, HS0⟩, ⟨%es1, HS1⟩, ⟨%es2, HS2⟩⟩
      isplitl [HS0 HS1 HS2 HR Hg]
      · isplitr [Hg]
        · isplitl [HS0]
          · unfold owns; iexists _; isplitr
            swap; · iexact HS0
            ipureintro; exact View.read_writes_of_cover _ _ _ _ _ (scoverA_0 _ _ _ _ _ _ _ _)
          isplitl [HS1]
          · unfold owns; iexists _; isplitr
            swap; · iexact HS1
            ipureintro; exact View.read_writes_of_cover _ _ _ _ _ (scoverA_1 _ _ _ _ _ _ _ _)
          isplitl [HS2]
          · unfold owns; iexists _; isplitr
            swap; · iexact HS2
            ipureintro; exact View.read_writes_of_cover _ _ _ _ _ (scoverA_2 _ _ _ _ _ _ _ _)
          iexact HR
        · iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 8 = 7
    · rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold stepC outC_4 soutC_0 soutC_1 soutC_2; (try dsimp only)
      rw [PhiS_castSucc V c t, PhiS_pos V c _ _ hz]
      iintro ⟨⟨⟨HS0, HS1, HS2, HR⟩, Hg⟩, Ho, ⟨%d0, H0⟩, ⟨%d1, H1⟩, ⟨%d2, H2⟩, ⟨%d3, H3⟩, ⟨%d4, H4⟩⟩
      iapply ((runC (F := F) c t (fun h => h0 ((hcond1_0 t).mp h)) ((hcond1_1 t).mpr h1) (iblk1 V c 0 t) (iblk1 V c 1 t) (iblk1 V c 2 t) (iblk1 V c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HS0 HS1 HS2 HR Hg]
      · isplitr [Hg]
        · isplitl [HS0]
          · unfold owns; iexists _; isplitr
            swap; · iexact HS0
            ipureintro; exact View.read_writes_of_cover _ _ _ _ _ (scoverC_0 _ _ _ _ _ _ _ _ _ _ _)
          isplitl [HS1]
          · unfold owns; iexists _; isplitr
            swap; · iexact HS1
            ipureintro; exact View.read_writes_of_cover _ _ _ _ _ (scoverC_1 _ _ _ _ _ _ _ _ _ _ _)
          isplitl [HS2]
          · unfold owns; iexists _; isplitr
            swap; · iexact HS2
            ipureintro; exact View.read_writes_of_cover _ _ _ _ _ (scoverC_2 _ _ _ _ _ _ _ _ _ _ _)
          iexact HR
        · iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC_4 _ _ _ _ _ _ _ _ _ _ _)
    · rw [Dat.leavesExact_idle (dat1 V c) 4 t (idleAt1_4_B t (fun h => h0 ((hcond1_0 t).mp h)) (fun h => h1 ((hcond1_1 t).mp h)))
        (noFlush1_4_B t (fun h => h0 ((hcond1_0 t).mp h)) (fun h => h1 ((hcond1_1 t).mp h)))]
      rw [outsAt1_B V c t h0 h1]
      unfold stepB soutB_0 soutB_1 soutB_2; (try dsimp only)
      rw [PhiS_castSucc V c t, PhiS_pos V c _ _ hz]
      iintro ⟨⟨⟨HS0, HS1, HS2, HR⟩, Hg⟩, Ho, ⟨%d0, H0⟩, ⟨%d1, H1⟩, ⟨%d2, H2⟩, ⟨%d3, H3⟩, ⟨%d4, H4⟩⟩
      iapply ((runB (F := F) c t (fun h => h0 ((hcond1_0 t).mp h)) (fun h => h1 ((hcond1_1 t).mp h)) (iblk1 V c 0 t) (iblk1 V c 1 t) (iblk1 V c 2 t) (iblk1 V c 3 t) _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 HR Hg]
      · isplitr [Hg]
        · isplitl [HS0]
          · unfold owns; iexists _; isplitr
            swap; · iexact HS0
            ipureintro; exact View.read_writes_of_cover _ _ _ _ _ (scoverB_0 _ _ _ _ _ _ _ _ _ _ _)
          isplitl [HS1]
          · unfold owns; iexists _; isplitr
            swap; · iexact HS1
            ipureintro; exact View.read_writes_of_cover _ _ _ _ _ (scoverB_1 _ _ _ _ _ _ _ _ _ _ _)
          isplitl [HS2]
          · unfold owns; iexists _; isplitr
            swap; · iexact HS2
            ipureintro; exact View.read_writes_of_cover _ _ _ _ _ (scoverB_2 _ _ _ _ _ _ _ _ _ _ _)
          iexact HR
        · iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HS0, HS1, HS2, HR⟩, Hg⟩
  isplitr [Hg]
  · isplitl [HS0]; · iexists _; iexact HS0
    isplitl [HS1]; · iexists _; iexact HS1
    isplitl [HS2]; · iexists _; iexact HS2
    iexact HR
  · iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Fr

end
-- ==== Proof.KI.Run.lean ====
/-
  The run of the kernel program: two kernel regions among two stretches of host reshapes. The buffers' contents at
  each boundary are a fold from the launch memory — a host stretch applies its operations; a region leaves each of
  its windows' arrays at what its write-backs leave (an input's array as entered, an output's array at the blocks
  flushed into it) and every other buffer as entered. Over that fold each region is a segment entered from "every
  unscoped buffer at the boundary's contents, the generator register at some state, nothing owed" and left at the
  next boundary's; the first region keeps the class's invariant, the second the invariant that carries its three
  scratch buffers between grid points. The launch then says: every weakly fair execution terminates, and the final
  memory holds every unscoped buffer at the last boundary's contents. Read at the five arguments that is the frame
  claim (no host operation and no region writes an argument); read at the result buffer it is what the second
  region's write-backs leave in the output window's array.
-/
import proofs.«426516_j55353538511035_3_alg».proof.Proof.KI.R0
import proofs.«426516_j55353538511035_3_alg».proof.Proof.KI.R1
import proofs.«426516_j55353538511035_3_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the two attention vectors reshaped to rows): the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the column terms reshaped to a row): the second region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched

No host operation writes an argument; a region reads an argument through an input window (whose array it leaves as
entered) or does not touch it. So the fold at an argument's buffer walks back to the launch memory. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide : main_arg0 ∉ hostOps0_W)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 3).trans (((dat1 (V3 m ρ) c).arrAt_in 3 rfl _).trans (A_eq1 (V3 m ρ) c 3))
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_writes_sub hostOps0 _ hostOps0_writes (by decide : main_arg2 ∉ hostOps0_W)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl

/-- The result buffer ends at what the second region's write-backs leave in its output window's array. -/
theorem W4_main_v4 (c : Dev nD) : W4 m ρ c (Proc.devRef .tc main_v4) = (dat1 (V3 m ρ) c).arrAt 4 cfg1.N :=
  W4_arr m ρ c 4

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the last boundary's contents, the generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left at `W2`. Its arrays are split
    out of the unscoped buffers and put back at the contents its write-backs leave; the generator register goes into
    the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the contents its write-backs leave; the generator register goes into
    the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from hin1 (V3 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    the final memory holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_main m ρ)

/-- The run with the result named: the result buffer ends at what the second region's write-backs leave in its output
    window's array, and every argument array as launched. -/
theorem run_result : θ_run defs (onTc (τ := τ) (main (F := F))) ⟨m, fun _ => 0, ρ⟩ (fun r => ∀ c : Dev nD,
      r.2.mem ((c.tc : Thread nD τ).loc main_v4) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v4 (by decide))).trans (W4_main_v4 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_main m ρ)

end Cert.KernelIdeal.Fr

end
-- ==== Proof.LibColumns.lean ====
/-
  A column kept by a row reduction: the two layout operations a sum over the last axis with the axis kept
  (`keepdims`) goes through before it meets the array it was taken from again, read at an index.

  An `[a]` vector of row values is cast to an `[a, 1]` column (row-major order is unchanged: entry `i` of the
  vector is entry `(i, 0)` of the column), and the column is broadcast along the second axis to `[a, b]`
  (every entry of row `p` reads the column at `p`). Both over any element type and any extents.
-/
import Idealize.ShloMosaic.Lib.Pipeline.Value
import Idealize.ShloMosaic.Lib.ValueIdx

namespace Cert.Columns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.Columns
-- ==== Proof.KI.Val0.lean ====
/- The three output arrays of the first pipelined kernel after its region, as whole-array functions of the arrays
   the region finds, read at the ideal values: the rounded product `x · w` of the row block with the weight matrix,
   and its two row sums weighted by the two attention vectors. First the body's payloads at an index, then what each
   point writes back as a block of one whole-array function, then the cover of the array by the grid's blocks. -/
import proofs.«426516_j55353538511035_3_alg».proof.Proof.KI.R0
import proofs.«426516_j55353538511035_3_alg».proof.Proof.LibColumns
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Fr

open Cert.KernelIdeal Cert.KernelIdeal.Gen
open Idealize.ShloMosaic Idealize.ShloMosaic.TcCoe Idealize.SL.Sem
open Idealize.ShloMosaic.Pipeline (Dat)
open Idealize.ShloMosaic.ValueIdx

/-! ## The body's payloads at an index -/

/-- The product's left operand index on its free axis is the output's row. -/
theorem lhs_mm_0 (i : S1024x256.Idx) (q : dot_S1024x512_S512x256_S1024x256_1_0_0_1_n_n.contr.Idx) :
    (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide),
    dif_pos (show (0 : Fin S1024x512.rank) ∈ dot_S1024x512_S512x256_S1024x256_1_0_0_1_n_n.lhsNonContracting by decide)]
  rfl
/-- On its contracted axis it is the contraction's one coordinate. -/
theorem lhs_mm_1 (i : S1024x256.Idx) (q : dot_S1024x512_S512x256_S1024x256_1_0_0_1_n_n.contr.Idx) :
    (dot_S1024x512_S512x256_S1024x256_1_0_0_1_n_n.lhsIdx i q 1).val = (q ⟨0, by decide⟩).val :=
  dot_S1024x512_S512x256_S1024x256_1_0_0_1_n_n.lhsIdx_val_of_single rfl i q
/-- The right operand index on its contracted axis is the contraction's one coordinate. -/
theorem rhs_mm_0 (i : S1024x256.Idx) (q : dot_S1024x512_S512x256_S1024x256_1_0_0_1_n_n.contr.Idx) :
    (dot_S1024x512_S512x256_S1024x256_1_0_0_1_n_n.rhsIdx i q 0).val = (q ⟨0, by decide⟩).val :=
  dot_S1024x512_S512x256_S1024x256_1_0_0_1_n_n.rhsIdx_val_of_single rfl i q
/-- On its free axis it is the output's column. -/
theorem rhs_mm_1 (i : S1024x256.Idx) (q : dot_S1024x512_S512x256_S1024x256_1_0_0_1_n_n.contr.Idx) :
    (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide),
    dif_pos (show (1 : Fin S512x256.rank) ∈ dot_S1024x512_S512x256_S1024x256_1_0_0_1_n_n.rhsNonContracting by decide)]
  rfl

/-- The matrix product of the two loaded blocks at `(p, k)`: the sum over the 512 contracted positions (the
    narrowing of the operands is the identity on the ideal values, and the accumulator is the zero splat). -/
theorem pay1_apply (x0 : Vec Ideal S1024x512 .f32) (x1 : Vec Ideal S512x256 .f32) (p : Fin 1024) (k : Fin 256) :
    k0_pay1 x0 x1 (ix2 p k) = ∑ j : Fin 512, x0 (ix2 p j) * x1 (ix2 j k) := by
  unfold k0_pay1
  simp only [matmul]
  rw [Ideal.matmul_constant_zero_apply, ← Equiv.sum_comp (contrEquiv1 dot_S1024x512_S512x256_S1024x256_1_0_0_1_n_n 512 rfl rfl).symm]
  refine Finset.sum_congr rfl fun j _ => ?_
  have hk := contrEquiv1_symm_val dot_S1024x512_S512x256_S1024x256_1_0_0_1_n_n 512 rfl rfl j
  have el : dot_S1024x512_S512x256_S1024x256_1_0_0_1_n_n.lhsIdx (ix2 p k) ((contrEquiv1 dot_S1024x512_S512x256_S1024x256_1_0_0_1_n_n 512 rfl rfl).symm j) = ix2 p j := funext fun a => Fin.ext (by
    match a with
    | ⟨0, _⟩ => exact lhs_mm_0 _ _
    | ⟨1, _⟩ => exact (lhs_mm_1 _ _).trans hk)
  have er : dot_S1024x512_S512x256_S1024x256_1_0_0_1_n_n.rhsIdx (ix2 p k) ((contrEquiv1 dot_S1024x512_S512x256_S1024x256_1_0_0_1_n_n 512 rfl rfl).symm j) = ix2 j k := funext fun a => Fin.ext (by
    match a with
    | ⟨0, _⟩ => exact (rhs_mm_0 _ _).trans hk
    | ⟨1, _⟩ => exact rhs_mm_1 _ _)
  rw [el, er]
  rfl

/-- The stored product is the product itself: the narrowing to the storage format is the identity on ideal values. -/
theorem pay2_apply (x0 : Vec Ideal S1024x512 .f32) (x1 : Vec Ideal S512x256 .f32) (j : S1024x256.Idx) :
    k0_pay2 x0 x1 j = k0_pay1 x0 x1 j := rfl

/-- A row of the [1024, 256] array summed along its 256 lanes. -/
theorem lanesum_apply (src : FVec Ideal S1024x256 .f32) (hφ : FKind.Formats FTy.f32)
    (hacc : (0x00000000#32 : BitVec 32) = FKind.add.neutral .f32 hφ) (p : Fin 1024) :
    multiReduction (F := Ideal) .add [1] S1024 src 0x00000000#32 reduces_S1024x256_S1024 hφ hacc (ix1 p) = ∑ k : Fin 256, src (ix2 p k) :=
  (Ideal.multiReduction_add_single src 0x00000000#32 reduces_S1024x256_S1024 hφ hacc (ix1 p)).trans
    (Finset.sum_congr rfl fun k _ => congrArg src (funext fun a => Fin.ext (by
      match a with
      | ⟨0, _⟩ => rfl
      | ⟨1, _⟩ => rfl)))

/-- The first stored column at row `p`: the product's row `p`, each lane weighted by the row vector's lane, summed. -/
theorem pay3_apply (x0 : Vec Ideal S1024x512 .f32) (x1 : Vec Ideal S512x256 .f32) (x2 : Vec Ideal S1x256 .f32) (p : Fin 1024) (u : Fin 1) :
    k0_pay3 x0 x1 x2 (ix2 p u) = ∑ k : Fin 256, k0_pay1 x0 x1 (ix2 p k) * x2 (ix2 (0 : Fin 1) k) := by
  unfold k0_pay3
  refine (Cert.Columns.shapeCast_a_a1_apply _ shapeCasts_S1024_S1024x1 p u).trans ?_
  refine (lanesum_apply _ _ _ p).trans ?_
  refine Finset.sum_congr rfl fun k _ => ?_
  rw [mulf_apply, broadcastTo_1b_ab_apply, shapeCast_self]

/-- The second stored column at row `p`, likewise with the other row vector. -/
theorem pay4_apply (x0 : Vec Ideal S1024x512 .f32) (x1 : Vec Ideal S512x256 .f32) (x3 : Vec Ideal S1x256 .f32) (p : Fin 1024) (u : Fin 1) :
    k0_pay4 x0 x1 x3 (ix2 p u) = ∑ k : Fin 256, k0_pay1 x0 x1 (ix2 p k) * x3 (ix2 (0 : Fin 1) k) := by
  unfold k0_pay4
  refine (Cert.Columns.shapeCast_a_a1_apply _ shapeCasts_S1024_S1024x1 p u).trans ?_
  refine (lanesum_apply _ _ _ p).trans ?_
  refine Finset.sum_congr rfl fun k _ => ?_
  rw [mulf_apply, broadcastTo_1b_ab_apply, shapeCast_self]

/-! ## The blocks the body reads, as entries of the arrays the region finds -/

variable (V : (c : Dev nD) → (b : Ref sig .tc) → Buf (Elt Ideal) ((c : Thread nD τ).loc b))

theorem hz0 : (![0, 0] : Fin 2 → Nat) = fun _ => 0 := funext fun a => by fin_cases a <;> rfl

/-- Products of equal extended reals are equal (the two factors rewritten at once). -/
theorem mul_congr_ereal {a a' b b' : EReal} (h1 : a = a') (h2 : b = b') : a * b = a' * b' := by rw [h1, h2]

/-- The windows' block indices over the grid: the row-blocked windows (the left operand and the three outputs) are on
    block row `t` at point `t`; the weight matrix and the two row vectors are whole at every point. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The grid has eight points. -/
theorem point_lt (t : Fin cfg0.N) : t.val < 8 := by
  have h := t.isLt; have hN : cfg0.N = 8 := N_0; omega

/-- The left operand's block at point `t` is rows `1024 t … 1024 t + 1023` of the first argument. -/
theorem iblk0_0_apply (c : Dev nD) (t : Fin cfg0.N) (p : Fin 1024) (j : Fin 512) (r : Fin 8192) (hr : r.val = t.val * 1024 + p.val) :
    (iblk0 V c 0 t : Vec Ideal S1024x512 .f32) (ix2 p j) = (V c main_arg0 : S8192x512.Idx → EReal) (ix2 r j) := by
  obtain ⟨e, e', -⟩ := idx_facts0 t
  unfold iblk0
  rw [View.read_apply]
  show V c main_arg0 _ = V c main_arg0 _
  congr 1
  funext a
  apply Fin.ext
  match a with
  | ⟨0, _⟩ => show win0_0.index t (0 : Fin 2) * 1024 + 1 * p.val = r.val; rw [e, hr]; omega
  | ⟨1, _⟩ => show win0_0.index t (1 : Fin 2) * 512 + 1 * j.val = j.val; rw [e']; omega

/-- The weight matrix's block is the whole matrix at every point. -/
theorem iblk0_1_apply (c : Dev nD) (t : Fin cfg0.N) (j : Fin 512) (k : Fin 256) :
    (iblk0 V c 1 t : Vec Ideal S512x256 .f32) (ix2 j k) = (V c main_arg2 : S512x256.Idx → EReal) (ix2 j k) := by
  obtain ⟨-, -, e, e', -⟩ := idx_facts0 t
  unfold iblk0
  rw [View.read_apply]
  show V c main_arg2 _ = V c main_arg2 _
  congr 1
  funext a
  apply Fin.ext
  match a with
  | ⟨0, _⟩ => show win0_1.index t (0 : Fin 2) * 512 + 1 * j.val = j.val; rw [e]; omega
  | ⟨1, _⟩ => show win0_1.index t (1 : Fin 2) * 256 + 1 * k.val = k.val; rw [e']; omega

/-- The first row vector's block is the whole vector at every point. -/
theorem iblk0_2_apply (c : Dev nD) (t : Fin cfg0.N) (k : Fin 256) :
    (iblk0 V c 2 t : Vec Ideal S1x256 .f32) (ix2 (0 : Fin 1) k) = (V c main_v0 : S1x256.Idx → EReal) (ix2 (0 : Fin 1) k) := by
  obtain ⟨-, -, -, -, e, e', -⟩ := idx_facts0 t
  unfold iblk0
  rw [View.read_apply]
  show V c main_v0 _ = V c main_v0 _
  congr 1
  funext a
  apply Fin.ext
  match a with
  | ⟨0, _⟩ => show win0_2.index t (0 : Fin 2) * 1 + 1 * 0 = 0; rw [e]
  | ⟨1, _⟩ => show win0_2.index t (1 : Fin 2) * 256 + 1 * k.val = k.val; rw [e']; omega

/-- The second row vector's block is the whole vector at every point. -/
theorem iblk0_3_apply (c : Dev nD) (t : Fin cfg0.N) (k : Fin 256) :
    (iblk0 V c 3 t : Vec Ideal S1x256 .f32) (ix2 (0 : Fin 1) k) = (V c main_v1 : S1x256.Idx → EReal) (ix2 (0 : Fin 1) k) := by
  obtain ⟨-, -, -, -, -, -, e, e', -⟩ := idx_facts0 t
  unfold iblk0
  rw [View.read_apply]
  show V c main_v1 _ = V c main_v1 _
  congr 1
  funext a
  apply Fin.ext
  match a with
  | ⟨0, _⟩ => show win0_3.index t (0 : Fin 2) * 1 + 1 * 0 = 0; rw [e]
  | ⟨1, _⟩ => show win0_3.index t (1 : Fin 2) * 256 + 1 * k.val = k.val; rw [e']; omega

/-! ## The whole-array functions -/

/-- Entry `(i, k)` of the product of an [8192, 512] array with a [512, 256] one. -/
def prod0 (x : S8192x512.Idx → EReal) (w : S512x256.Idx → EReal) (i : Fin 8192) (k : Fin 256) : EReal :=
  ∑ j : Fin 512, x (ix2 i j) * w (ix2 j k)

/-- The product array. -/
def G4 (x : S8192x512.Idx → EReal) (w : S512x256.Idx → EReal) : S8192x256.Idx → EReal := fun i => prod0 x w (i 0) (i 1)
/-- The product's rows weighted by a row vector and summed, as a column. -/
def G5 (x : S8192x512.Idx → EReal) (w : S512x256.Idx → EReal) (a : S1x256.Idx → EReal) : S8192x1.Idx → EReal :=
  fun i => ∑ k : Fin 256, prod0 x w (i 0) k * a (ix2 (0 : Fin 1) k)

theorem G4_apply (x : S8192x512.Idx → EReal) (w : S512x256.Idx → EReal) (i : S8192x256.Idx) (r : Fin 8192) (k : Fin 256)
    (h0 : (i 0).val = r.val) (h1 : (i 1).val = k.val) : G4 x w i = prod0 x w r k := by
  obtain rfl : i = ix2 r k := funext fun a => Fin.ext (by
    match a with
    | ⟨0, _⟩ => exact h0
    | ⟨1, _⟩ => exact h1)
  rfl
theorem G5_apply (x : S8192x512.Idx → EReal) (w : S512x256.Idx → EReal) (a : S1x256.Idx → EReal) (i : S8192x1.Idx) (r : Fin 8192)
    (h0 : (i 0).val = r.val) : G5 x w a i = ∑ k : Fin 256, prod0 x w r k * a (ix2 (0 : Fin 1) k) := by
  obtain rfl : i 0 = r := Fin.ext h0
  rfl

/-- The product of the blocks at point `t`, at `(p, k)`, is the product array's entry at row `1024 t + p`. -/
theorem blockprod_apply (c : Dev nD) (t : Fin cfg0.N) (p : Fin 1024) (k : Fin 256) (r : Fin 8192) (hr : r.val = t.val * 1024 + p.val) :
    k0_pay1 (iblk0 V c 0 t) (iblk0 V c 1 t) (ix2 p k) = prod0 (V c main_arg0) (V c main_arg2) r k := by
  refine (pay1_apply (iblk0 V c 0 t) (iblk0 V c 1 t) p k).trans ?_
  unfold prod0
  refine Finset.sum_congr rfl fun j _ => ?_
  exact mul_congr_ereal (iblk0_0_apply V c t p j r hr) (iblk0_1_apply V c t j k)

/-! ## What each point writes back -/

/-- Point `t` writes back block `t` of the product array. -/
theorem flushed4_eq (c : Dev nD) (t : Fin cfg0.N) :
    (dat0 V c).flushed 4 t = ((cfg0.win 4).blk t).view.read (Elt Ideal) (G4 (V c main_arg0) (V c main_arg2)) := by
  show (cfg0.win 4).cut (grid0.coords t) ((dat0 V c).after 4 t) = _
  rw [after0_4]
  unfold out0_4
  rw [View.canon_unit_zero hz0]
  simp only [View.ld_unit_zero (S := S1024x512) hz0, View.ld_unit_zero (S := S512x256) hz0]
  obtain ⟨-, -, -, -, -, -, -, -, e, e', -⟩ := idx_facts0 t
  have ht := point_lt t
  funext y
  obtain ⟨p, k, rfl⟩ : ∃ (p : Fin 1024) (k : Fin 256), y = ix2 p k := ⟨y 0, y 1, eq_ix2 y⟩
  show k0_pay1 (iblk0 V c 0 t) (iblk0 V c 1 t) (ix2 p k) = G4 (V c main_arg0) (V c main_arg2) (((cfg0.win 4).blk t).view.emb (ix2 p k))
  refine (blockprod_apply V c t p k ⟨t.val * 1024 + p.val, by have := p.isLt; omega⟩ rfl).trans (G4_apply _ _ _ _ _ ?_ ?_).symm
  · show win0_4.index t (0 : Fin 2) * 1024 + 1 * p.val = t.val * 1024 + p.val; rw [e]; omega
  · show win0_4.index t (1 : Fin 2) * 256 + 1 * k.val = k.val; rw [e']; omega

/-- Point `t` writes back block `t` of the first weighted row sum. -/
theorem flushed5_eq (c : Dev nD) (t : Fin cfg0.N) :
    (dat0 V c).flushed 5 t = ((cfg0.win 5).blk t).view.read (Elt Ideal) (G5 (V c main_arg0) (V c main_arg2) (V c main_v0)) := by
  show (cfg0.win 5).cut (grid0.coords t) ((dat0 V c).after 5 t) = _
  rw [after0_5]
  unfold out0_5
  rw [View.canon_unit_zero hz0]
  simp only [View.ld_unit_zero (S := S1024x512) hz0, View.ld_unit_zero (S := S512x256) hz0, View.ld_unit_zero (S := S1x256) hz0]
  obtain ⟨-, -, -, -, -, -, -, -, -, -, e, e', -⟩ := idx_facts0 t
  have ht := point_lt t
  funext y
  obtain ⟨p, u, rfl⟩ : ∃ (p : Fin 1024) (u : Fin 1), y = ix2 p u := ⟨y 0, y 1, eq_ix2 y⟩
  show k0_pay3 (iblk0 V c 0 t) (iblk0 V c 1 t) (iblk0 V c 2 t) (ix2 p u) = G5 (V c main_arg0) (V c main_arg2) (V c main_v0) (((cfg0.win 5).blk t).view.emb (ix2 p u))
  refine (pay3_apply (iblk0 V c 0 t) (iblk0 V c 1 t) (iblk0 V c 2 t) p u).trans ?_
  refine Eq.trans ?_ (G5_apply _ _ _ _ ⟨t.val * 1024 + p.val, by have := p.isLt; omega⟩ ?_).symm
  · refine Finset.sum_congr rfl fun k _ => ?_
    exact mul_congr_ereal (blockprod_apply V c t p k _ rfl) (iblk0_2_apply V c t k)
  · show win0_5.index t (0 : Fin 2) * 1024 + 1 * p.val = t.val * 1024 + p.val; rw [e]; omega

/-- Point `t` writes back block `t` of the second weighted row sum. -/
theorem flushed6_eq (c : Dev nD) (t : Fin cfg0.N) :
    (dat0 V c).flushed 6 t = ((cfg0.win 6).blk t).view.read (Elt Ideal) (G5 (V c main_arg0) (V c main_arg2) (V c main_v1)) := by
  show (cfg0.win 6).cut (grid0.coords t) ((dat0 V c).after 6 t) = _
  rw [after0_6]
  unfold out0_6
  rw [View.canon_unit_zero hz0]
  simp only [View.ld_unit_zero (S := S1024x512) hz0, View.ld_unit_zero (S := S512x256) hz0, View.ld_unit_zero (S := S1x256) hz0]
  obtain ⟨-, -, -, -, -, -, -, -, -, -, -, -, e, e'⟩ := idx_facts0 t
  have ht := point_lt t
  funext y
  obtain ⟨p, u, rfl⟩ : ∃ (p : Fin 1024) (u : Fin 1), y = ix2 p u := ⟨y 0, y 1, eq_ix2 y⟩
  show k0_pay4 (iblk0 V c 0 t) (iblk0 V c 1 t) (iblk0 V c 3 t) (ix2 p u) = G5 (V c main_arg0) (V c main_arg2) (V c main_v1) (((cfg0.win 6).blk t).view.emb (ix2 p u))
  refine (pay4_apply (iblk0 V c 0 t) (iblk0 V c 1 t) (iblk0 V c 3 t) p u).trans ?_
  refine Eq.trans ?_ (G5_apply _ _ _ _ ⟨t.val * 1024 + p.val, by have := p.isLt; omega⟩ ?_).symm
  · refine Finset.sum_congr rfl fun k _ => ?_
    exact mul_congr_ereal (blockprod_apply V c t p k _ rfl) (iblk0_3_apply V c t k)
  · show win0_6.index t (0 : Fin 2) * 1024 + 1 * p.val = t.val * 1024 + p.val; rw [e]; omega

/-! ## The blocks cover the arrays -/

/-- An index of the array is in point `t`'s block of window 4 iff each coordinate is in the block's range on its axis. -/
theorem mem_blk4 (t : Fin cfg0.N) (i : S8192x256.Idx) :
    i ∈ ((cfg0.win 4).blk t).view.set ↔ ∀ a : Fin 2, win0_4.index t a * S1024x256.size a ≤ (i a).val ∧ (i a).val < win0_4.index t a * S1024x256.size a + S1024x256.size a := by
  show i ∈ ((View.whole main_v2_0).slice (win0_4.rect t)).set ↔ _
  rw [View.set_slice_whole, Rect.mem_set_unit]
  exact Iff.rfl

/-- Every index of window 4's array is in the block of the point its row falls in: row `r` in point `r / 1024`. -/
theorem cover4 (i : S8192x256.Idx) : ∃ t : Fin cfg0.N, (cfg0.win 4).flush t = true ∧ i ∈ ((cfg0.win 4).blk t).view.set := by
  have hi0 : (i 0).val < 8192 := (i 0).isLt
  have hi1 : (i 1).val < 256 := (i 1).isLt
  have hN : cfg0.N = 8 := N_0
  obtain ⟨t, ht⟩ : ∃ t : Fin cfg0.N, t.val = (i 0).val / 1024 := ⟨⟨(i 0).val / 1024, by omega⟩, rfl⟩
  refine ⟨t, flush0_4 t, ?_⟩
  rw [mem_blk4]
  obtain ⟨-, -, -, -, -, -, -, -, e, e', -⟩ := idx_facts0 t
  intro a
  match a with
  | ⟨0, _⟩ => show win0_4.index t (0 : Fin 2) * 1024 ≤ (i 0).val ∧ (i 0).val < win0_4.index t (0 : Fin 2) * 1024 + 1024; rw [e, ht]; omega
  | ⟨1, _⟩ => show win0_4.index t (1 : Fin 2) * 256 ≤ (i 1).val ∧ (i 1).val < win0_4.index t (1 : Fin 2) * 256 + 256; rw [e']; omega

/-- An index of the array is in point `t`'s block of window 5 iff each coordinate is in the block's range on its axis. -/
theorem mem_blk5 (t : Fin cfg0.N) (i : S8192x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v2_1).slice (win0_5.rect t)).set ↔ _
  rw [View.set_slice_whole, Rect.mem_set_unit]
  exact Iff.rfl

/-- Every index of window 5's array is in the block of the point its row falls in: row `r` in point `r / 1024`. -/
theorem cover5 (i : S8192x1.Idx) : ∃ t : Fin cfg0.N, (cfg0.win 5).flush t = true ∧ i ∈ ((cfg0.win 5).blk t).view.set := by
  have hi0 : (i 0).val < 8192 := (i 0).isLt
  have hi1 : (i 1).val < 1 := (i 1).isLt
  have hN : cfg0.N = 8 := N_0
  obtain ⟨t, ht⟩ : ∃ t : Fin cfg0.N, t.val = (i 0).val / 1024 := ⟨⟨(i 0).val / 1024, by omega⟩, rfl⟩
  refine ⟨t, flush0_5 t, ?_⟩
  rw [mem_blk5]
  obtain ⟨-, -, -, -, -, -, -, -, -, -, e, e', -⟩ := idx_facts0 t
  intro a
  match a with
  | ⟨0, _⟩ => show win0_5.index t (0 : Fin 2) * 1024 ≤ (i 0).val ∧ (i 0).val < win0_5.index t (0 : Fin 2) * 1024 + 1024; rw [e, ht]; omega
  | ⟨1, _⟩ => show win0_5.index t (1 : Fin 2) * 1 ≤ (i 1).val ∧ (i 1).val < win0_5.index t (1 : Fin 2) * 1 + 1; rw [e']; omega

/-- An index of the array is in point `t`'s block of window 6 iff each coordinate is in the block's range on its axis. -/
theorem mem_blk6 (t : Fin cfg0.N) (i : S8192x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v2_2).slice (win0_6.rect t)).set ↔ _
  rw [View.set_slice_whole, Rect.mem_set_unit]
  exact Iff.rfl

/-- Every index of window 6's array is in the block of the point its row falls in: row `r` in point `r / 1024`. -/
theorem cover6 (i : S8192x1.Idx) : ∃ t : Fin cfg0.N, (cfg0.win 6).flush t = true ∧ i ∈ ((cfg0.win 6).blk t).view.set := by
  have hi0 : (i 0).val < 8192 := (i 0).isLt
  have hi1 : (i 1).val < 1 := (i 1).isLt
  have hN : cfg0.N = 8 := N_0
  obtain ⟨t, ht⟩ : ∃ t : Fin cfg0.N, t.val = (i 0).val / 1024 := ⟨⟨(i 0).val / 1024, by omega⟩, rfl⟩
  refine ⟨t, flush0_6 t, ?_⟩
  rw [mem_blk6]
  obtain ⟨-, -, -, -, -, -, -, -, -, -, -, -, e, e'⟩ := idx_facts0 t
  intro a
  match a with
  | ⟨0, _⟩ => show win0_6.index t (0 : Fin 2) * 1024 ≤ (i 0).val ∧ (i 0).val < win0_6.index t (0 : Fin 2) * 1024 + 1024; rw [e, ht]; omega
  | ⟨1, _⟩ => show win0_6.index t (1 : Fin 2) * 1 ≤ (i 1).val ∧ (i 1).val < win0_6.index t (1 : Fin 2) * 1 + 1; rw [e']; omega

/-! ## The arrays after the region -/

/-- The first output array ends holding the product array. -/
theorem arr0_4_eq (c : Dev nD) : (dat0 V c).arrAt 4 cfg0.N = G4 (V c main_arg0) (V c main_arg2) :=
  (dat0 V c).arrAt_eq_of_cover 4 (G4 (V c main_arg0) (V c main_arg2)) (fun t _ => flushed4_eq V c t) cover4
/-- The second ends holding the product's rows weighted by the first row vector and summed. -/
theorem arr0_5_eq (c : Dev nD) : (dat0 V c).arrAt 5 cfg0.N = G5 (V c main_arg0) (V c main_arg2) (V c main_v0) :=
  (dat0 V c).arrAt_eq_of_cover 5 (G5 (V c main_arg0) (V c main_arg2) (V c main_v0)) (fun t _ => flushed5_eq V c t) cover5
/-- The third ends holding the product's rows weighted by the second row vector and summed. -/
theorem arr0_6_eq (c : Dev nD) : (dat0 V c).arrAt 6 cfg0.N = G5 (V c main_arg0) (V c main_arg2) (V c main_v1) :=
  (dat0 V c).arrAt_eq_of_cover 6 (G5 (V c main_arg0) (V c main_arg2) (V c main_v1)) (fun t _ => flushed6_eq V c t) cover6

-- the product of two entries as extended reals (an entry's type is the element type of its buffer, which is the
-- extended reals only after unfolding the buffer's type)
local notation:70 a:70 " *ₑ " b:71 => HMul.hMul (α := EReal) (β := EReal) (γ := EReal) a b

/-- Entry `(i, k)` of the first output array: the product of row `i` of the first argument with column `k` of the
    weight matrix (its storage format's rounding is the identity on the ideal values). -/
theorem arr0_4 (c : Dev nD) (i : Fin 8192) (k : Fin 256) :
    (dat0 V c).arrAt 4 cfg0.N (ix2 i k) = ∑ j : Fin 512, V c main_arg0 (ix2 i j) *ₑ V c main_arg2 (ix2 j k) := by
  rw [arr0_4_eq]; rfl

/-- Entry `i` of the second output array: the product's row `i` weighted by the first row vector, summed. -/
theorem arr0_5 (c : Dev nD) (i : Fin 8192) :
    (dat0 V c).arrAt 5 cfg0.N (ix2 i (0 : Fin 1))
      = ∑ k : Fin 256, (∑ j : Fin 512, V c main_arg0 (ix2 i j) *ₑ V c main_arg2 (ix2 j k)) *ₑ V c main_v0 (ix2 (0 : Fin 1) k) := by
  rw [arr0_5_eq]; rfl

/-- Entry `i` of the third output array: the product's row `i` weighted by the second row vector, summed. -/
theorem arr0_6 (c : Dev nD) (i : Fin 8192) :
    (dat0 V c).arrAt 6 cfg0.N (ix2 i (0 : Fin 1))
      = ∑ k : Fin 256, (∑ j : Fin 512, V c main_arg0 (ix2 i j) *ₑ V c main_arg2 (ix2 j k)) *ₑ V c main_v1 (ix2 (0 : Fin 1) k) := by
  rw [arr0_6_eq]; rfl

end Cert.KernelIdeal.Fr

end
-- ==== Proof.Spec.lean ====
/-
  The mathematics of the certificate, free of both programs: a graph-attention layer as functions of
  plain coordinates over the extended reals.

  From features h[8192,512], weights W[512,256], two attention vectors a, b[256] and an integer
  adjacency adj[8192,8192]:
    P      = h · W                                   (the projected features)
    s i    = Σ_k P i k · a k,   d j = Σ_k P j k · b k
    e i j  = the leaky-rectified sum s i + d j where adj i j > 0, a large negative constant elsewhere
    out    = softmax over j of e i j, applied to the rows of P.
  `refOut` is the row softmax as one pass: the row's maximum M, u = exp (e − M), the row sum S, the
  quotient u / S, then the product with P. `tileOut` is the same quantity accumulated over eight
  consecutive tiles of 1024 columns with a running maximum: after each tile the running sums are
  rescaled by exp (m_old − m_new) before the tile's own terms are added, and the quotient is taken
  once at the end. The two agree whenever every e i j and every P j k is a real number, because
  softmax does not depend on the shift subtracted inside the exponentials (Proof/Softmax.lean).
-/
import Idealize.ShloMosaic.PureOps.Ideal
import Idealize.ShloMosaic.Lib.ValueIdx

noncomputable section

namespace Cert.Spec

open Idealize.ShloMosaic

/-- The slope of the rectifier's negative side and the mask's fill, as the words both programs spell. -/
abbrev slope : EReal := Ideal.ofBits .f32 0x3E4CCCCD#32
abbrev fill : EReal := Ideal.ofBits .f32 0xD9FFCB9E#32
/-- The word of minus infinity: the start of every running maximum. -/
abbrev ninf : EReal := Ideal.ofBits .f32 0xFF800000#32

/-- The projected features: row i of h against column k of W. -/
def proj (h : Fin 8192 → Fin 512 → EReal) (W : Fin 512 → Fin 256 → EReal) (i : Fin 8192) (k : Fin 256) : EReal :=
  ∑ j : Fin 512, h i j * W j k

/-- A row of the projected features against an attention vector. -/
def att (P : Fin 8192 → Fin 256 → EReal) (a : Fin 256 → EReal) (i : Fin 8192) : EReal :=
  ∑ k : Fin 256, P i k * a k

/-- The leaky rectifier: x where x ≥ 0, slope · x elsewhere. -/
def lrelu (x : EReal) : EReal :=
  Scalar.select (Ideal.cmp .oge x 0) x (slope * x)

/-- The masked score of the pair (i, j). -/
def score (s d : Fin 8192 → EReal) (adj : Fin 8192 → Fin 8192 → BitVec 32) (i j : Fin 8192) : EReal :=
  Scalar.select (IntOp.cmpi .sgt (adj i j) 0#32) (lrelu (s i + d j)) fill

/-! ## The softmax in one pass -/

/-- The row's maximum, folded from minus infinity (and once more against it). -/
def refMax (e : Fin 8192 → Fin 8192 → EReal) (i : Fin 8192) : EReal :=
  max ninf ((Finset.univ : Finset (Fin 8192)).fold max ninf (fun j => e i j))

def refU (e : Fin 8192 → Fin 8192 → EReal) (i j : Fin 8192) : EReal :=
  Ideal.exp (e i j - refMax e i)

def refS (e : Fin 8192 → Fin 8192 → EReal) (i : Fin 8192) : EReal :=
  ∑ j : Fin 8192, refU e i j

def refOut (e : Fin 8192 → Fin 8192 → EReal) (P : Fin 8192 → Fin 256 → EReal) (i : Fin 8192) (k : Fin 256) : EReal :=
  ∑ j : Fin 8192, Ideal.div (refU e i j) (refS e i) * P j k

/-! ## The softmax accumulated over eight tiles of 1024 columns -/

/-- Column r of tile n (tiles counted modulo 8, so that the map is total). -/
def col (n : ℕ) (r : Fin 1024) : Fin 8192 := ⟨(n % 8) * 1024 + r.val, by have := r.isLt; have := Nat.mod_lt n (by decide : 8 > 0); omega⟩

/-- The running maximum before tile n: minus infinity, then each tile's maximum folded in. -/
def tileMax (e : Fin 8192 → Fin 8192 → EReal) (i : Fin 8192) : ℕ → EReal
  | 0 => ninf
  | n + 1 => max (tileMax e i n) ((Finset.univ : Finset (Fin 1024)).fold max ninf (fun r => e i (col n r)))

/-- Tile n's terms against the maximum after it, and the factor that rescales what came before. -/
def tileP (e : Fin 8192 → Fin 8192 → EReal) (i : Fin 8192) (n : ℕ) (r : Fin 1024) : EReal :=
  Ideal.exp (e i (col n r) - tileMax e i (n + 1))
def tileAlpha (e : Fin 8192 → Fin 8192 → EReal) (i : Fin 8192) (n : ℕ) : EReal :=
  Ideal.exp (tileMax e i n - tileMax e i (n + 1))

/-- The running denominator and numerator before tile n. -/
def tileL (e : Fin 8192 → Fin 8192 → EReal) (i : Fin 8192) : ℕ → EReal
  | 0 => 0
  | n + 1 => tileAlpha e i n * tileL e i n + ∑ r : Fin 1024, tileP e i n r
def tileAcc (e : Fin 8192 → Fin 8192 → EReal) (P : Fin 8192 → Fin 256 → EReal) (i : Fin 8192) (k : Fin 256) : ℕ → EReal
  | 0 => 0
  | n + 1 => tileAlpha e i n * tileAcc e P i k n + ∑ r : Fin 1024, tileP e i n r * P (col n r) k

def tileOut (e : Fin 8192 → Fin 8192 → EReal) (P : Fin 8192 → Fin 256 → EReal) (i : Fin 8192) (k : Fin 256) : EReal :=
  Ideal.div (tileAcc e P i k 8) (tileL e i 8)

/-- Both results from the five inputs. -/
def scoreOf (h : Fin 8192 → Fin 512 → EReal) (adj : Fin 8192 → Fin 8192 → BitVec 32) (W : Fin 512 → Fin 256 → EReal)
    (a b : Fin 256 → EReal) : Fin 8192 → Fin 8192 → EReal :=
  score (att (proj h W) a) (att (proj h W) b) adj

end Cert.Spec

end
-- ==== Proof.KI.Entry.lean ====
/-
  What the attention region's input arrays hold when it is entered, in terms of the launch memory, at the ideal
  values. Between the launch and that region lie two reshapes of the attention vectors (a column of 256 to a row),
  the first region (which writes the projected features and the two score columns), and one reshape of the
  second score column to a row. A buffer that a stretch of host operations does not write passes through it; a
  buffer that is no array of the first region passes through the region; a reshape read at an index reads the
  operand at the index of the same row-major position — for a column and a row of the same length, (k, 0) and
  (0, k). So the region's four inputs are: the projected features, the source scores as a column, the destination
  scores as a row, and the adjacency as launched.
-/
import proofs.«426516_j55353538511035_3_alg».proof.Proof.KI.Run
import proofs.«426516_j55353538511035_3_alg».proof.Proof.KI.Val0
import proofs.«426516_j55353538511035_3_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo
open scoped BigOperators

variable (m : (ℓ : Loc nD τ sig) → Buf (Elt Ideal) ℓ) (ρ : Dev nD → PrngReg)

/-! ## The launch memory as functions of plain coordinates -/

abbrev kH (c : Dev nD) : Fin 8192 → Fin 512 → EReal := fun i j => m ((c.tc : Thread nD τ).loc main_arg0) (ValueIdx.ix2 i j)
abbrev kAdj (c : Dev nD) : Fin 8192 → Fin 8192 → BitVec 32 := fun i j => m ((c.tc : Thread nD τ).loc main_arg1) (ValueIdx.ix2 i j)
abbrev kW (c : Dev nD) : Fin 512 → Fin 256 → EReal := fun j k => m ((c.tc : Thread nD τ).loc main_arg2) (ValueIdx.ix2 j k)
abbrev kA (c : Dev nD) : Fin 256 → EReal := fun k => m ((c.tc : Thread nD τ).loc main_arg3) (ValueIdx.ix2 k 0)
abbrev kB (c : Dev nD) : Fin 256 → EReal := fun k => m ((c.tc : Thread nD τ).loc main_arg4) (ValueIdx.ix2 k 0)

/-! ## The first region's entry: the arguments as launched, the attention vectors as rows -/

theorem V1_main_arg0 (c : Dev nD) : V1 m ρ c main_arg0 = m ((c.tc : Thread nD τ).loc main_arg0) :=
  (StableHlo.after_of_writes_sub hostOps0 _ hostOps0_writes (by decide : main_arg0 ∉ hostOps0_W)).trans rfl

theorem V1_main_arg2 (c : Dev nD) : V1 m ρ c main_arg2 = m ((c.tc : Thread nD τ).loc main_arg2) :=
  (StableHlo.after_of_writes_sub hostOps0 _ hostOps0_writes (by decide : main_arg2 ∉ hostOps0_W)).trans rfl

/-- A column of n entries and a row of n entries put (k, 0) and (0, k) at the same row-major position. -/
theorem col_row_pos (n : Nat) (k : Fin n) :
    ((⟨2, ![n, 1]⟩ : Shape).rowMajor (ValueIdx.ix2 k (0 : Fin 1))).val = ((⟨2, ![1, n]⟩ : Shape).rowMajor (ValueIdx.ix2 (0 : Fin 1) k)).val := by
  rw [Shape.rowMajor_val_two, Shape.rowMajor_val_two]
  show k.val * 1 + 0 = 0 * n + k.val
  omega

/-- The first attention vector's row at (0, k) is the launched column at (k, 0). -/
theorem V1_main_v0 (c : Dev nD) (k : Fin 256) : V1 m ρ c main_v0 (ValueIdx.ix2 0 k) = m ((c.tc : Thread nD τ).loc main_arg3) (ValueIdx.ix2 k 0) := by
  have e : (V1 m ρ c main_v0 : S1x256.Idx → EReal)
      = shapeCast S1x256 (m ((c.tc : Thread nD τ).loc main_arg3) : S256x1.Idx → EReal) shapeCasts_S256x1_S1x256 := by
    show StableHlo.after hostOps0 _ (Proc.devRef .tc main_v0) = _
    after_results
    rfl
  rw [e]
  exact shapeCast_apply _ _ (ValueIdx.ix2 0 k) (ValueIdx.ix2 k 0) (col_row_pos 256 k)

/-- The second attention vector's row likewise. -/
theorem V1_main_v1 (c : Dev nD) (k : Fin 256) : V1 m ρ c main_v1 (ValueIdx.ix2 0 k) = m ((c.tc : Thread nD τ).loc main_arg4) (ValueIdx.ix2 k 0) := by
  have e : (V1 m ρ c main_v1 : S1x256.Idx → EReal)
      = shapeCast S1x256 (m ((c.tc : Thread nD τ).loc main_arg4) : S256x1.Idx → EReal) shapeCasts_S256x1_S1x256 := by
    show StableHlo.after hostOps0 _ (Proc.devRef .tc main_v1) = _
    after_results
    rfl
  rw [e]
  exact shapeCast_apply _ _ (ValueIdx.ix2 0 k) (ValueIdx.ix2 k 0) (col_row_pos 256 k)

/-! ## The second region's entry -/

/-- The first region's outputs pass through the reshape that follows it. -/
theorem V3_main_v2_0 (c : Dev nD) : V3 m ρ c main_v2_0 = (dat0 (V1 m ρ) c).arrAt 4 cfg0.N :=
  (StableHlo.after_of_writes_sub hostOps1 _ hostOps1_writes (by decide : main_v2_0 ∉ hostOps1_W)).trans (W2_arr m ρ c 4)

theorem V3_main_v2_1 (c : Dev nD) : V3 m ρ c main_v2_1 = (dat0 (V1 m ρ) c).arrAt 5 cfg0.N :=
  (StableHlo.after_of_writes_sub hostOps1 _ hostOps1_writes (by decide : main_v2_1 ∉ hostOps1_W)).trans (W2_arr m ρ c 5)

/-- The destination scores' row at (0, j) is the first region's third output at (j, 0). -/
theorem V3_main_v3 (c : Dev nD) (j : Fin 8192) :
    V3 m ρ c main_v3 (ValueIdx.ix2 0 j) = (dat0 (V1 m ρ) c).arrAt 6 cfg0.N (ValueIdx.ix2 j 0) := by
  have e : (V3 m ρ c main_v3 : S1x8192.Idx → EReal)
      = shapeCast S1x8192 ((dat0 (V1 m ρ) c).arrAt 6 cfg0.N : S8192x1.Idx → EReal) shapeCasts_S8192x1_S1x8192 := by
    show StableHlo.after hostOps1 _ (Proc.devRef .tc main_v3) = _
    after_results
    rw [W2_arr m ρ c 6]
    rfl
  rw [e]
  exact shapeCast_apply _ _ (ValueIdx.ix2 0 j) (ValueIdx.ix2 j 0) (col_row_pos 8192 j)

/-- The adjacency is as launched: no host operation writes it and it is no array of the first region. -/
theorem entry_adj (c : Dev nD) (i j : Fin 8192) : V3 m ρ c main_arg1 (ValueIdx.ix2 i j) = kAdj m c i j := by
  have e : V3 m ρ c main_arg1 = m ((c.tc : Thread nD τ).loc main_arg1) :=
    calc W3 m ρ c (Proc.devRef .tc main_arg1)
      _ = W2 m ρ c (Proc.devRef .tc main_arg1) := StableHlo.after_of_writes_sub hostOps1 _ hostOps1_writes (by decide : main_arg1 ∉ hostOps1_W)
      _ = W1 m ρ c (Proc.devRef .tc main_arg1) := W2_of_ne m ρ c main_arg1 (by decide)
      _ = W0 m ρ c (Proc.devRef .tc main_arg1) := StableHlo.after_of_writes_sub hostOps0 _ hostOps0_writes (by decide : main_arg1 ∉ hostOps0_W)
      _ = m ((c.tc : Thread nD τ).loc main_arg1) := rfl
  rw [e]

section FromFirstRegion

variable (c : Dev nD)
variable (h4 : ∀ (i : Fin 8192) (k : Fin 256), (dat0 (V1 m ρ) c).arrAt 4 cfg0.N (ValueIdx.ix2 i k)
    = Cert.Spec.proj (fun i j => V1 m ρ c main_arg0 (ValueIdx.ix2 i j)) (fun j k => V1 m ρ c main_arg2 (ValueIdx.ix2 j k)) i k)
variable (h5 : ∀ i : Fin 8192, (dat0 (V1 m ρ) c).arrAt 5 cfg0.N (ValueIdx.ix2 i 0)
    = Cert.Spec.att (Cert.Spec.proj (fun i j => V1 m ρ c main_arg0 (ValueIdx.ix2 i j)) (fun j k => V1 m ρ c main_arg2 (ValueIdx.ix2 j k)))
        (fun k => V1 m ρ c main_v0 (ValueIdx.ix2 0 k)) i)
variable (h6 : ∀ i : Fin 8192, (dat0 (V1 m ρ) c).arrAt 6 cfg0.N (ValueIdx.ix2 i 0)
    = Cert.Spec.att (Cert.Spec.proj (fun i j => V1 m ρ c main_arg0 (ValueIdx.ix2 i j)) (fun j k => V1 m ρ c main_arg2 (ValueIdx.ix2 j k)))
        (fun k => V1 m ρ c main_v1 (ValueIdx.ix2 0 k)) i)

include h4 in
theorem entry_P_of (j : Fin 8192) (k : Fin 256) :
    V3 m ρ c main_v2_0 (ValueIdx.ix2 j k) = Cert.Spec.proj (kH m c) (kW m c) j k := by
  rw [V3_main_v2_0, h4, V1_main_arg0, V1_main_arg2]

include h5 in
theorem entry_s_of (i : Fin 8192) :
    V3 m ρ c main_v2_1 (ValueIdx.ix2 i 0) = Cert.Spec.att (Cert.Spec.proj (kH m c) (kW m c)) (kA m c) i := by
  have e0 : (fun k : Fin 256 => V1 m ρ c main_v0 (ValueIdx.ix2 0 k)) = kA m c := funext fun k => V1_main_v0 m ρ c k
  rw [V3_main_v2_1, h5, V1_main_arg0, V1_main_arg2, e0]

include h6 in
theorem entry_d_of (j : Fin 8192) :
    V3 m ρ c main_v3 (ValueIdx.ix2 0 j) = Cert.Spec.att (Cert.Spec.proj (kH m c) (kW m c)) (kB m c) j := by
  have e1 : (fun k : Fin 256 => V1 m ρ c main_v1 (ValueIdx.ix2 0 k)) = kB m c := funext fun k => V1_main_v1 m ρ c k
  rw [V3_main_v3, h6, V1_main_arg0, V1_main_arg2, e1]

end FromFirstRegion

/-! ## The region's inputs from the launch memory -/

/-- The projected features as the region finds them. -/
theorem entry_P (c : Dev nD) (j : Fin 8192) (k : Fin 256) :
    V3 m ρ c main_v2_0 (ValueIdx.ix2 j k) = Cert.Spec.proj (kH m c) (kW m c) j k :=
  entry_P_of m ρ c (fun i k => arr0_4 (V1 m ρ) c i k) j k

/-- The source scores, a column. -/
theorem entry_s (c : Dev nD) (i : Fin 8192) :
    V3 m ρ c main_v2_1 (ValueIdx.ix2 i 0) = Cert.Spec.att (Cert.Spec.proj (kH m c) (kW m c)) (kA m c) i :=
  entry_s_of m ρ c (fun i => arr0_5 (V1 m ρ) c i) i

/-- The destination scores, a row. -/
theorem entry_d (c : Dev nD) (j : Fin 8192) :
    V3 m ρ c main_v3 (ValueIdx.ix2 0 j) = Cert.Spec.att (Cert.Spec.proj (kH m c) (kW m c)) (kB m c) j :=
  entry_d_of m ρ c (fun i => arr0_6 (V1 m ρ) c i) j

end Cert.KernelIdeal.Fr

end
-- ==== Proof.KI.PiecesVal.lean ====
/- Region 1: what each control case's stores LEAVE in the three carried buffers and, at the last reduction step, in
   the output block, as the body's arithmetic applied to the blocks it read. A buffer's stores cover it, so what is
   read back is the last covering store's payload; a load that follows a covering store of the same run reads that
   store's payload (at step 0: the reset values −∞, 0, 0; at step 7: the carried sums just stored), and a load of a
   buffer held whole at named contents reads those contents. The value array is held whole and loaded at a row
   offset that depends on the step: the tile read there is given a name. -/
import proofs.«426516_j55353538511035_3_alg».proof.Proof.KI.R1Pieces
import Idealize.ShloMosaic.Lib.Pipeline.Value
-- membership in a rectangle of these extents: the elaborator's structural look recurses once per coordinate of
-- the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offset of a rank-2 rectangle, as the constant function. -/
theorem hz : (![0, 0] : Fin 2 → Nat) = fun _ => 0 := funext fun a => by fin_cases a <;> rfl

/-- Read through a whole buffer's own view, the contents chosen to read `X` read `X` — the three carried buffers. -/
theorem read_unread_sc0 (h : scM1_0.IsWhole) (X : Vec F S1024x1 .f32) :
    View.read (Elt F) (View.whole cc1_scratch0) (h.unread X) = X := h.read_unread X
theorem read_unread_sc1 (h : scM1_1.IsWhole) (X : Vec F S1024x1 .f32) :
    View.read (Elt F) (View.whole cc1_scratch1) (h.unread X) = X := h.read_unread X
theorem read_unread_sc2 (h : scM1_2.IsWhole) (X : Vec F S1024x256 .f32) :
    View.read (Elt F) (View.whole cc1_scratch2) (h.unread X) = X := h.read_unread X

/-- The tile of the value array the body multiplies by at point `t`: its 1024 rows from row 1024·(reduction step) on. -/
def wtile (t : Fin cfg1.N) (x0 : Vec F S8192x256 .bf16) : Vec F S1024x256 .bf16 :=
  View.ld x0 (Rect.unit (s := S8192x256) (k1_off1 (grid1.coords t)) S1024x256.size (k1_off1_inb (grid1.coords t)))

/-! ## Step 0: the carried buffers are reset, then updated -/

/-- The running maximum after step 0: the maximum of −∞ and this block's row maxima. -/
theorem soutA_0_eq (c : Dev nD) (t : Fin cfg1.N) (hc0 : cond1_0 (grid1.coords t)) (hc1 : ¬cond1_1 (grid1.coords t))
    (x0 : Vec F S8192x256 .bf16) (x1 : Vec F S1024x1 .f32) (x2 : Vec F S1x1024 .f32) (x3 : Vec F S1024x1024 .i32) :
    soutA_0 c t hc0 hc1 x0 x1 x2 x3 = k1_pay2 (k1_pay8 x1 x2 x3 k1_pay4) := by
  unfold soutA_0
  rw [View.read_writes_eq_canon _ _ _ (scoverA_0 c t hc0 hc1 x0 x1 x2 x3)]
  unfold runA kernelRun1_A
  dsimp only
  sl_unfold_words
  rw [View.canon_cons_unit_zero (S := S1024x1) hz]
  simp only [View.readAt_eq_ld, (hs1_0 t).read_unread, (hs1_1 t).read_unread, (hs1_2 t).read_unread, (hs1_3 t).read_unread, read_unread_sc0, read_unread_sc1, read_unread_sc2,
    View.ld_unit_zero (S := S1024x1) hz, View.ld_unit_zero (S := S1x1024) hz, View.ld_unit_zero (S := S1024x1024) hz, View.ld_unit_zero (S := S1024x256) hz,
    View.readCov_unit_zero (S := S1024x1) _ hz, View.readCov_unit_zero (S := S1024x256) _ hz]

/-- The running sum after step 0: the reset sum 0 rescaled, plus this block's row sums of exponentials. -/
theorem soutA_1_eq (c : Dev nD) (t : Fin cfg1.N) (hc0 : cond1_0 (grid1.coords t)) (hc1 : ¬cond1_1 (grid1.coords t))
    (x0 : Vec F S8192x256 .bf16) (x1 : Vec F S1024x1 .f32) (x2 : Vec F S1x1024 .f32) (x3 : Vec F S1024x1024 .i32) :
    soutA_1 c t hc0 hc1 x0 x1 x2 x3 = k1_pay11 x1 x2 x3 k1_pay4 k1_pay5 := by
  unfold soutA_1
  rw [View.read_writes_eq_canon _ _ _ (scoverA_1 c t hc0 hc1 x0 x1 x2 x3)]
  unfold runA kernelRun1_A
  dsimp only
  sl_unfold_words
  rw [View.canon_cons_unit_zero (S := S1024x1) hz]
  simp only [View.readAt_eq_ld, (hs1_0 t).read_unread, (hs1_1 t).read_unread, (hs1_2 t).read_unread, (hs1_3 t).read_unread, read_unread_sc0, read_unread_sc1, read_unread_sc2,
    View.ld_unit_zero (S := S1024x1) hz, View.ld_unit_zero (S := S1x1024) hz, View.ld_unit_zero (S := S1024x1024) hz, View.ld_unit_zero (S := S1024x256) hz,
    View.readCov_unit_zero (S := S1024x1) _ hz, View.readCov_unit_zero (S := S1024x256) _ hz]

/-- The running weighted sum after step 0: the reset sum 0 rescaled, plus this block's exponentials times the value tile. -/
theorem soutA_2_eq (c : Dev nD) (t : Fin cfg1.N) (hc0 : cond1_0 (grid1.coords t)) (hc1 : ¬cond1_1 (grid1.coords t))
    (x0 : Vec F S8192x256 .bf16) (x1 : Vec F S1024x1 .f32) (x2 : Vec F S1x1024 .f32) (x3 : Vec F S1024x1024 .i32) :
    soutA_2 c t hc0 hc1 x0 x1 x2 x3 = k1_pay1 (k1_pay9 x1 x2 x3 k1_pay4) (k1_pay10 x1 x2 x3 k1_pay4) (wtile t x0) k1_pay6 := by
  unfold soutA_2
  rw [View.read_writes_eq_canon _ _ _ (scoverA_2 c t hc0 hc1 x0 x1 x2 x3)]
  unfold runA kernelRun1_A
  dsimp only
  sl_unfold_words
  rw [View.canon_cons_unit_zero (S := S1024x256) hz]
  simp only [View.readAt_eq_ld, (hs1_0 t).read_unread, (hs1_1 t).read_unread, (hs1_2 t).read_unread, (hs1_3 t).read_unread, read_unread_sc0, read_unread_sc1, read_unread_sc2,
    View.ld_unit_zero (S := S1024x1) hz, View.ld_unit_zero (S := S1x1024) hz, View.ld_unit_zero (S := S1024x1024) hz, View.ld_unit_zero (S := S1024x256) hz,
    View.readCov_unit_zero (S := S1024x1) _ hz, View.readCov_unit_zero (S := S1024x256) _ hz]
  rfl

/-! ## Steps 1..6: the carried buffers are updated from what the step before left -/

/-- The running maximum: the maximum of the carried one and this block's row maxima. -/
theorem soutB_0_eq (c : Dev nD) (t : Fin cfg1.N) (hc0 : ¬cond1_0 (grid1.coords t)) (hc1 : ¬cond1_1 (grid1.coords t))
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) :
    soutB_0 c t hc0 hc1 x0 x1 x2 x3 xs0 xs1 xs2 = k1_pay2 (k1_pay8 x1 x2 x3 xs0) := by
  unfold soutB_0
  rw [View.read_writes_eq_canon _ _ _ (scoverB_0 c t hc0 hc1 x0 x1 x2 x3 xs0 xs1 xs2)]
  unfold runB kernelRun1_B
  dsimp only
  sl_unfold_words
  rw [View.canon_unit_zero hz]
  simp only [View.readAt_eq_ld, (hs1_0 t).read_unread, (hs1_1 t).read_unread, (hs1_2 t).read_unread, (hs1_3 t).read_unread, read_unread_sc0, read_unread_sc1, read_unread_sc2,
    View.ld_unit_zero (S := S1024x1) hz, View.ld_unit_zero (S := S1x1024) hz, View.ld_unit_zero (S := S1024x1024) hz, View.ld_unit_zero (S := S1024x256) hz]

/-- The running sum: the carried one rescaled by the exponential of the maximum's change, plus this block's row sums. -/
theorem soutB_1_eq (c : Dev nD) (t : Fin cfg1.N) (hc0 : ¬cond1_0 (grid1.coords t)) (hc1 : ¬cond1_1 (grid1.coords t))
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) :
    soutB_1 c t hc0 hc1 x0 x1 x2 x3 xs0 xs1 xs2 = k1_pay11 x1 x2 x3 xs0 xs1 := by
  unfold soutB_1
  rw [View.read_writes_eq_canon _ _ _ (scoverB_1 c t hc0 hc1 x0 x1 x2 x3 xs0 xs1 xs2)]
  unfold runB kernelRun1_B
  dsimp only
  sl_unfold_words
  rw [View.canon_unit_zero hz]
  simp only [View.readAt_eq_ld, (hs1_0 t).read_unread, (hs1_1 t).read_unread, (hs1_2 t).read_unread, (hs1_3 t).read_unread, read_unread_sc0, read_unread_sc1, read_unread_sc2,
    View.ld_unit_zero (S := S1024x1) hz, View.ld_unit_zero (S := S1x1024) hz, View.ld_unit_zero (S := S1024x1024) hz, View.ld_unit_zero (S := S1024x256) hz]

/-- The running weighted sum: the carried one rescaled, plus this block's exponentials times the value tile. -/
theorem soutB_2_eq (c : Dev nD) (t : Fin cfg1.N) (hc0 : ¬cond1_0 (grid1.coords t)) (hc1 : ¬cond1_1 (grid1.coords t))
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) :
    soutB_2 c t hc0 hc1 x0 x1 x2 x3 xs0 xs1 xs2 = k1_pay1 (k1_pay9 x1 x2 x3 xs0) (k1_pay10 x1 x2 x3 xs0) (wtile t x0) xs2 := by
  unfold soutB_2
  rw [View.read_writes_eq_canon _ _ _ (scoverB_2 c t hc0 hc1 x0 x1 x2 x3 xs0 xs1 xs2)]
  unfold runB kernelRun1_B
  dsimp only
  sl_unfold_words
  rw [View.canon_unit_zero hz]
  simp only [View.readAt_eq_ld, (hs1_0 t).read_unread, (hs1_1 t).read_unread, (hs1_2 t).read_unread, (hs1_3 t).read_unread, read_unread_sc0, read_unread_sc1, read_unread_sc2,
    View.ld_unit_zero (S := S1024x1) hz, View.ld_unit_zero (S := S1x1024) hz, View.ld_unit_zero (S := S1024x1024) hz, View.ld_unit_zero (S := S1024x256) hz]
  rfl

/-! ## Step 7: the same update, then the output block is the quotient -/

/-- The running maximum, as in the steps before. -/
theorem soutC_0_eq (c : Dev nD) (t : Fin cfg1.N) (hc0 : ¬cond1_0 (grid1.coords t)) (hc1 : cond1_1 (grid1.coords t))
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) :
    soutC_0 c t hc0 hc1 x0 x1 x2 x3 xs0 xs1 xs2 = k1_pay2 (k1_pay8 x1 x2 x3 xs0) := by
  unfold soutC_0
  rw [View.read_writes_eq_canon _ _ _ (scoverC_0 c t hc0 hc1 x0 x1 x2 x3 xs0 xs1 xs2)]
  unfold runC kernelRun1_C
  dsimp only
  sl_unfold_words
  rw [View.canon_unit_zero hz]
  simp only [View.readAt_eq_ld, (hs1_0 t).read_unread, (hs1_1 t).read_unread, (hs1_2 t).read_unread, (hs1_3 t).read_unread, read_unread_sc0, read_unread_sc1, read_unread_sc2,
    View.ld_unit_zero (S := S1024x1) hz, View.ld_unit_zero (S := S1x1024) hz, View.ld_unit_zero (S := S1024x1024) hz, View.ld_unit_zero (S := S1024x256) hz]

/-- The running sum, as in the steps before. -/
theorem soutC_1_eq (c : Dev nD) (t : Fin cfg1.N) (hc0 : ¬cond1_0 (grid1.coords t)) (hc1 : cond1_1 (grid1.coords t))
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) :
    soutC_1 c t hc0 hc1 x0 x1 x2 x3 xs0 xs1 xs2 = k1_pay11 x1 x2 x3 xs0 xs1 := by
  unfold soutC_1
  rw [View.read_writes_eq_canon _ _ _ (scoverC_1 c t hc0 hc1 x0 x1 x2 x3 xs0 xs1 xs2)]
  unfold runC kernelRun1_C
  dsimp only
  sl_unfold_words
  rw [View.canon_unit_zero hz]
  simp only [View.readAt_eq_ld, (hs1_0 t).read_unread, (hs1_1 t).read_unread, (hs1_2 t).read_unread, (hs1_3 t).read_unread, read_unread_sc0, read_unread_sc1, read_unread_sc2,
    View.ld_unit_zero (S := S1024x1) hz, View.ld_unit_zero (S := S1x1024) hz, View.ld_unit_zero (S := S1024x1024) hz, View.ld_unit_zero (S := S1024x256) hz]

/-- The running weighted sum, as in the steps before. -/
theorem soutC_2_eq (c : Dev nD) (t : Fin cfg1.N) (hc0 : ¬cond1_0 (grid1.coords t)) (hc1 : cond1_1 (grid1.coords t))
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) :
    soutC_2 c t hc0 hc1 x0 x1 x2 x3 xs0 xs1 xs2 = k1_pay1 (k1_pay9 x1 x2 x3 xs0) (k1_pay10 x1 x2 x3 xs0) (wtile t x0) xs2 := by
  unfold soutC_2
  rw [View.read_writes_eq_canon _ _ _ (scoverC_2 c t hc0 hc1 x0 x1 x2 x3 xs0 xs1 xs2)]
  unfold runC kernelRun1_C
  dsimp only
  sl_unfold_words
  rw [View.canon_unit_zero hz]
  simp only [View.readAt_eq_ld, (hs1_0 t).read_unread, (hs1_1 t).read_unread, (hs1_2 t).read_unread, (hs1_3 t).read_unread, read_unread_sc0, read_unread_sc1, read_unread_sc2,
    View.ld_unit_zero (S := S1024x1) hz, View.ld_unit_zero (S := S1x1024) hz, View.ld_unit_zero (S := S1024x1024) hz, View.ld_unit_zero (S := S1024x256) hz]
  rfl

/-- The output block: the weighted sum just stored divided, row by row, by the running sum just stored — both loads
    follow the covering store of their buffer in the same run, so they read its payload. -/
theorem outC_4_eq (c : Dev nD) (t : Fin cfg1.N) (hc0 : ¬cond1_0 (grid1.coords t)) (hc1 : cond1_1 (grid1.coords t))
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) :
    outC_4 c t hc0 hc1 x0 x1 x2 x3 xs0 xs1 xs2 = k1_pay3 (k1_pay1 (k1_pay9 x1 x2 x3 xs0) (k1_pay10 x1 x2 x3 xs0) (wtile t x0) xs2) (k1_pay11 x1 x2 x3 xs0 xs1) := by
  unfold outC_4
  rw [View.read_writes_eq_canon _ _ _ (coverC_4 c t hc0 hc1 x0 x1 x2 x3 xs0 xs1 xs2)]
  unfold runC kernelRun1_C
  dsimp only
  sl_unfold_words
  rw [View.canon_unit_zero hz]
  simp only [View.readAt_eq_ld, (hs1_0 t).read_unread, (hs1_1 t).read_unread, (hs1_2 t).read_unread, (hs1_3 t).read_unread, read_unread_sc0, read_unread_sc1, read_unread_sc2,
    View.ld_unit_zero (S := S1024x1) hz, View.ld_unit_zero (S := S1x1024) hz, View.ld_unit_zero (S := S1024x1024) hz, View.ld_unit_zero (S := S1024x256) hz,
    View.readCov_unit_zero (S := S1024x1) _ hz, View.readCov_unit_zero (S := S1024x256) _ hz]
  rfl

/-- The same over what the case leaves in the carried buffers. -/
theorem outC_4_eq_souts (c : Dev nD) (t : Fin cfg1.N) (hc0 : ¬cond1_0 (grid1.coords t)) (hc1 : cond1_1 (grid1.coords t))
    (x0 : Vec F S8192x256 .bf16) (x1 : Vec F S1024x1 .f32) (x2 : Vec F S1x1024 .f32) (x3 : Vec F S1024x1024 .i32) (xs0 : Vec F S1024x1 .f32) (xs1 : Vec F S1024x1 .f32) (xs2 : Vec F S1024x256 .f32) :
    outC_4 c t hc0 hc1 x0 x1 x2 x3 xs0 xs1 xs2 = k1_pay3 (soutC_2 c t hc0 hc1 x0 x1 x2 x3 xs0 xs1 xs2) (soutC_1 c t hc0 hc1 x0 x1 x2 x3 xs0 xs1 xs2) := by
  rw [outC_4_eq, soutC_2_eq, soutC_1_eq]

end Cert.KernelIdeal.Fr

end
-- ==== Proof.KI.Pay.lean ====
/-
  The attention kernel's per-tile arithmetic read at one index.

  Each value the kernel body stores or carries is an array-valued expression: sums of broadcast columns and
  rows, a rectifier, a mask, a row maximum, exponentials of differences, a row sum, a matrix product. Read at
  a single index (r, q) or (r, k) each of them is an ordinary expression over the extended reals in the entries
  of its operands: the masked score at (r, q); the new row maximum as the old one joined with the fold of max
  over the row's scores; the shifted exponentials; the rescaling factor; the rescaled row sum; the rescaled
  accumulator plus the row of weights against the columns of the projected features; the final quotient.
  Broadcasting a column along a row reads the column's entry; a row reduction with the axis kept reads the
  reduction at the row; a matrix product with one contracted axis is the sum over that axis's coordinate.
-/
import proofs.«426516_j55353538511035_3_alg».proof.Proof.Gen.KernelIdeal.Skeleton
import proofs.«426516_j55353538511035_3_alg».proof.Proof.Spec
import proofs.«426516_j55353538511035_3_alg».proof.Proof.LibColumns
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic ValueIdx
open scoped BigOperators

variable (x1 : Vec Ideal S1024x1 .f32) (x2 : Vec Ideal S1x1024 .f32) (x3 : Vec Ideal S1024x1024 .i32)
  (m0 l0 : Vec Ideal S1024x1 .f32) (a0 : Vec Ideal S1024x256 .f32) (wt : Vec Ideal S1024x256 .bf16)
  (r q : Fin 1024) (k : Fin 256)

/-! ## The initial values -/

/-- The running maximum starts at minus infinity. -/
theorem pay4_apply : k1_pay4 (F := Ideal) (ix2 r 0) = Cert.Spec.ninf := by
  show shapeCast S1024x1 (broadcast S1024x1 (Scalar.ofBits (F := Ideal) .f32 0xFF800000#32))
    shapeCasts_S1024x1_S1024x1 (ix2 r 0) = _
  rw [shapeCast_self]
  rfl

/-- The running denominator starts at 0. -/
theorem pay5_apply : k1_pay5 (F := Ideal) (ix2 r 0) = 0 := by
  show shapeCast S1024x1 (broadcast S1024x1 (Scalar.ofBits (F := Ideal) .f32 0x00000000#32))
    shapeCasts_S1024x1_S1024x1 (ix2 r 0) = _
  rw [shapeCast_self]
  exact Ideal.ofBits_zero_f32

/-- The running numerator starts at 0. -/
theorem pay6_apply : k1_pay6 (F := Ideal) (ix2 r k) = 0 := by
  show shapeCast S1024x256 (broadcast S1024x256 (Scalar.ofBits (F := Ideal) .f32 0x00000000#32))
    shapeCasts_S1024x256_S1024x256 (ix2 r k) = _
  rw [shapeCast_self]
  exact Ideal.ofBits_zero_f32

/-! ## The masked score -/

/-- The score at (r, q): the rectified sum of the row's and the column's terms where the adjacency word is
    positive, the fill elsewhere. -/
theorem pay7_apply : k1_pay7 (F := Ideal) x1 x2 x3 (ix2 r q)
    = Scalar.select (IntOp.cmpi .sgt (x3 (ix2 r q)) 0#32)
        (Cert.Spec.lrelu (x1 (ix2 r 0) + x2 (ix2 0 q))) Cert.Spec.fill := by
  have h7 : broadcastTo S1024x1024 (shapeCast S1024x1 x1 shapeCasts_S1024x1_S1024x1)
      broadcasts_S1024x1_S1024x1024 (ix2 r q) = x1 (ix2 r 0) := by
    rw [shapeCast_self]; exact Cert.Columns.broadcastTo_a1_ab_apply x1 _ r q
  have h8 : broadcastTo S1024x1024 (shapeCast S1x1024 x2 shapeCasts_S1x1024_S1x1024)
      broadcasts_S1x1024_S1024x1024 (ix2 r q) = x2 (ix2 0 q) := by
    rw [shapeCast_self]; exact broadcastTo_1b_ab_apply x2 _ r q
  show Scalar.select (IntOp.cmpi .sgt (x3 (ix2 r q)) 0#32)
      (Scalar.select
        (Ideal.cmp .oge
          (broadcastTo S1024x1024 (shapeCast S1024x1 x1 shapeCasts_S1024x1_S1024x1)
              broadcasts_S1024x1_S1024x1024 (ix2 r q)
            + broadcastTo S1024x1024 (shapeCast S1x1024 x2 shapeCasts_S1x1024_S1x1024)
              broadcasts_S1x1024_S1024x1024 (ix2 r q))
          (Ideal.ofBits .f32 0x00000000#32))
        (broadcastTo S1024x1024 (shapeCast S1024x1 x1 shapeCasts_S1024x1_S1024x1)
            broadcasts_S1024x1_S1024x1024 (ix2 r q)
          + broadcastTo S1024x1024 (shapeCast S1x1024 x2 shapeCasts_S1x1024_S1x1024)
            broadcasts_S1x1024_S1024x1024 (ix2 r q))
        (Ideal.ofBits .f32 0x3E4CCCCD#32
          * (broadcastTo S1024x1024 (shapeCast S1024x1 x1 shapeCasts_S1024x1_S1024x1)
              broadcasts_S1024x1_S1024x1024 (ix2 r q)
            + broadcastTo S1024x1024 (shapeCast S1x1024 x2 shapeCasts_S1x1024_S1x1024)
              broadcasts_S1x1024_S1024x1024 (ix2 r q))))
      (Ideal.ofBits .f32 0xD9FFCB9E#32) = _
  rw [h7, h8, Ideal.ofBits_zero_f32]
  rfl

/-! ## The row maximum -/

/-- Row r with the coordinate q inserted on the second axis is (r, q). -/
theorem lift_row (r q : Fin 1024) : reduces_S1024x1024_S1024.lift (ix1 r) q = ix2 r q := by
  funext c
  match c with
  | ⟨0, _⟩ => rfl
  | ⟨1, _⟩ => rfl

/-- The new running maximum of row r: the old one joined with the fold of max over the row's scores. -/
theorem pay8_apply : k1_pay8 (F := Ideal) x1 x2 x3 m0 (ix2 r 0)
    = max (m0 (ix2 r 0)) ((Finset.univ : Finset (Fin 1024)).fold max Cert.Spec.ninf
        (fun q => k1_pay7 (F := Ideal) x1 x2 x3 (ix2 r q))) := by
  unfold k1_pay8
  refine (maximumf_apply (m0 : FVec Ideal S1024x1 .f32) _ (ix2 r 0)).trans ?_
  refine congrArg (fun t => max (m0 (ix2 r 0)) t) ?_
  refine (Cert.Columns.shapeCast_a_a1_apply _ shapeCasts_S1024_S1024x1 r 0).trans ?_
  refine (Ideal.multiReduction_maximumf_single (s := S1024x1024) (t := S1024) (a := 1)
    (k1_pay7 (F := Ideal) x1 x2 x3) 0xFF800000#32 reduces_S1024x1024_S1024 (.inl rfl) rfl (ix1 r)).trans ?_
  exact congrArg (fun f => (Finset.univ : Finset (Fin 1024)).fold max Cert.Spec.ninf f)
    (funext fun q => congrArg (k1_pay7 (F := Ideal) x1 x2 x3) (lift_row r q))

/-! ## The shifted exponentials, the rescaling factor and the row sum -/

/-- An exponential at an index is the exponential of the element. -/
theorem exp_apply {s : Shape} {φ : FTy} (a : FVec Ideal s φ) (i : s.Idx) : exp a i = Ideal.exp (a i) := rfl

/-- The shifted exponential at (r, q): the score there against the row's new maximum. -/
theorem pay9_apply : k1_pay9 (F := Ideal) x1 x2 x3 m0 (ix2 r q)
    = Ideal.exp (k1_pay7 (F := Ideal) x1 x2 x3 (ix2 r q) - k1_pay8 (F := Ideal) x1 x2 x3 m0 (ix2 r 0)) := by
  unfold k1_pay9
  refine (exp_apply _ (ix2 r q)).trans ?_
  refine congrArg Ideal.exp ?_
  refine (subf_apply _ _ (ix2 r q)).trans ?_
  refine congrArg (fun t => k1_pay7 (F := Ideal) x1 x2 x3 (ix2 r q) - t) ?_
  exact Cert.Columns.broadcastTo_a1_ab_apply _ broadcasts_S1024x1_S1024x1024 r q

/-- The rescaling factor of row r: the old maximum against the new one. -/
theorem pay10_apply : k1_pay10 (F := Ideal) x1 x2 x3 m0 (ix2 r 0)
    = Ideal.exp (m0 (ix2 r 0) - k1_pay8 (F := Ideal) x1 x2 x3 m0 (ix2 r 0)) := by
  unfold k1_pay10
  exact (exp_apply _ (ix2 r 0)).trans (congrArg Ideal.exp (subf_apply _ _ (ix2 r 0)))

/-- The new running denominator of row r: the old one rescaled, plus the row's shifted exponentials. -/
theorem pay11_apply : k1_pay11 (F := Ideal) x1 x2 x3 m0 l0 (ix2 r 0)
    = k1_pay10 (F := Ideal) x1 x2 x3 m0 (ix2 r 0) * l0 (ix2 r 0)
      + ∑ q : Fin 1024, k1_pay9 (F := Ideal) x1 x2 x3 m0 (ix2 r q) := by
  unfold k1_pay11
  refine (congrFun (shapeCast_self _ shapeCasts_S1024x1_S1024x1) (ix2 r 0)).trans ?_
  refine (addf_apply _ _ (ix2 r 0)).trans ?_
  refine congr (congrArg (fun s t => s + t) (mulf_apply _ _ (ix2 r 0))) ?_
  refine (Cert.Columns.shapeCast_a_a1_apply _ shapeCasts_S1024_S1024x1 r 0).trans ?_
  refine (Ideal.multiReduction_add_single (s := S1024x1024) (t := S1024) (a := 1)
    (k1_pay9 (F := Ideal) x1 x2 x3 m0) 0x00000000#32 reduces_S1024x1024_S1024 (.inl rfl) rfl (ix1 r)).trans ?_
  exact Finset.sum_congr rfl fun q _ => congrArg (k1_pay9 (F := Ideal) x1 x2 x3 m0) (lift_row r q)

/-! ## The matrix product of the weights with the projected features -/

/-- The left operand's index at result (r, k) and contraction coordinate q is (r, q). -/
theorem dot_lhsIdx (r : Fin 1024) (k : Fin 256) (q : Fin 1024) :
    dot_S1024x1024_S1024x256_S1024x256_1_0_0_1_n_n.lhsIdx (ix2 r k)
      ((contrEquiv1 dot_S1024x1024_S1024x256_S1024x256_1_0_0_1_n_n 1024 rfl rfl).symm q) = ix2 r q := by
  funext a
  match a with
  | ⟨0, _⟩ => rfl
  | ⟨1, _⟩ =>
    exact Fin.ext ((dot_S1024x1024_S1024x256_S1024x256_1_0_0_1_n_n.lhsIdx_val_of_single
      (cl := (1 : Fin 2)) rfl (ix2 r k) _).trans
      (contrEquiv1_symm_val dot_S1024x1024_S1024x256_S1024x256_1_0_0_1_n_n 1024 rfl rfl q))

/-- The right operand's index at result (r, k) and contraction coordinate q is (q, k). -/
theorem dot_rhsIdx (r : Fin 1024) (k : Fin 256) (q : Fin 1024) :
    dot_S1024x1024_S1024x256_S1024x256_1_0_0_1_n_n.rhsIdx (ix2 r k)
      ((contrEquiv1 dot_S1024x1024_S1024x256_S1024x256_1_0_0_1_n_n 1024 rfl rfl).symm q) = ix2 q k := by
  funext a
  match a with
  | ⟨0, _⟩ =>
    exact Fin.ext ((dot_S1024x1024_S1024x256_S1024x256_1_0_0_1_n_n.rhsIdx_val_of_single
      (cr := (0 : Fin 2)) rfl (ix2 r k) _).trans
      (contrEquiv1_symm_val dot_S1024x1024_S1024x256_S1024x256_1_0_0_1_n_n 1024 rfl rfl q))
  | ⟨1, _⟩ => rfl

/-- The new running numerator at (r, k): the old one rescaled by the row's factor, plus the row of weights
    against column k of the projected features. -/
theorem pay1_apply (p : FVec Ideal S1024x1024 .f32) (al : FVec Ideal S1024x1 .f32)
    (a0 : Vec Ideal S1024x256 .f32) (wt : Vec Ideal S1024x256 .bf16) (r : Fin 1024) (k : Fin 256) :
    k1_pay1 (F := Ideal) p al wt a0 (ix2 r k)
      = al (ix2 r 0) * a0 (ix2 r k) + ∑ q : Fin 1024, p (ix2 r q) * wt (ix2 q k) := by
  unfold k1_pay1
  refine (congrFun (shapeCast_self _ shapeCasts_S1024x256_S1024x256) (ix2 r k)).trans ?_
  refine (addf_apply _ _ (ix2 r k)).trans ?_
  refine congr (congrArg (fun s t => s + t) ((mulf_apply _ _ (ix2 r k)).trans
    (congrArg (fun t => t * a0 (ix2 r k))
      (Cert.Columns.broadcastTo_a1_ab_apply al broadcasts_S1024x1_S1024x256 r k)))) ?_
  refine (Ideal.matmul_constant_zero_apply dot_S1024x1024_S1024x256_S1024x256_1_0_0_1_n_n none _ _
    (ix2 r k)).trans ?_
  rw [← Equiv.sum_comp (contrEquiv1 dot_S1024x1024_S1024x256_S1024x256_1_0_0_1_n_n 1024 rfl rfl).symm]
  refine Finset.sum_congr rfl fun q _ => ?_
  rw [dot_lhsIdx, dot_rhsIdx, shapeCast_self]
  rfl

/-! ## The carried maximum and the final quotient -/

/-- The carried maximum is stored as it is. -/
theorem pay2_eq (v : FVec Ideal S1024x1 .f32) : k1_pay2 (F := Ideal) v = v :=
  shapeCast_self v shapeCasts_S1024x1_S1024x1

/-- The result at (r, k): the numerator there over the row's denominator. -/
theorem pay3_apply (ac : Vec Ideal S1024x256 .f32) (l : Vec Ideal S1024x1 .f32) :
    k1_pay3 (F := Ideal) ac l (ix2 r k) = Ideal.div (ac (ix2 r k)) (l (ix2 r 0)) := by
  unfold k1_pay3
  refine (divf_apply _ _ (ix2 r k)).trans ?_
  refine congrArg (fun t => Ideal.div (ac (ix2 r k)) t) ?_
  exact Cert.Columns.broadcastTo_a1_ab_apply l broadcasts_S1024x1_S1024x256 r k

end Cert.KernelIdeal.Pay

end
-- ==== Proof.KI.Blocks1.lean ====
/-
  Region 1 (the attention call over its 8 × 8 grid, point t at coordinates (t / 8, t % 8)): which entries of its
  arrays the blocks of a grid point are. The value array's block is the whole array at every point; the row
  terms' block at point t is rows (t / 8) · 1024 … (t / 8) · 1024 + 1023; the column terms' block is columns
  (t % 8) · 1024 … (t % 8) · 1024 + 1023; the adjacency block is those rows and those columns; and the tile of the
  value array the body loads at point t is the rows (t % 8) · 1024 … of it. Each is the block index times the
  block's extent plus the coordinate inside the block, the block indices read off the index maps once over the
  64 points.

  And the output array from its blocks: the output block is written back at the last point of each grid row
  (t % 8 = 7), onto rows (t / 8) · 1024 … of the array; those eight blocks tile the array (row i lies in the block
  of point 8 · (i / 1024) + 7), so if what each such point leaves in its block is that block of one function G of
  the array's indices, the array ends as G.
-/
import proofs.«426516_j55353538511035_3_alg».proof.Proof.KI.R1Runs
import proofs.«426516_j55353538511035_3_alg».proof.Proof.KI.R1
import Idealize.ShloMosaic.Lib.ValueIdx
import Idealize.ShloMosaic.Lib.Pipeline.Value
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## The block indices over the grid -/

/-- The index maps at point `t`, decided over the 64 points: the row block is `t / 8`, the column block `t % 8`,
    the value array's block index is 0 on both axes; and the offset of the body's tile load is row `(t % 8) · 1024`. -/
theorem idx1_facts : ∀ t : Fin cfg1.N,
    win1_0.index t (0 : Fin 2) = 0 ∧ win1_0.index t (1 : Fin 2) = 0
    ∧ win1_1.index t (0 : Fin 2) = t.val / 8 ∧ win1_1.index t (1 : Fin 2) = 0
    ∧ win1_2.index t (0 : Fin 2) = 0 ∧ win1_2.index t (1 : Fin 2) = t.val % 8
    ∧ win1_3.index t (0 : Fin 2) = t.val / 8 ∧ win1_3.index t (1 : Fin 2) = t.val % 8
    ∧ win1_4.index t (0 : Fin 2) = t.val / 8 ∧ win1_4.index t (1 : Fin 2) = 0
    ∧ k1_off1 (grid1.coords t) (0 : Fin 2) = (t.val % 8) * 1024 ∧ k1_off1 (grid1.coords t) (1 : Fin 2) = 0 :=
  (by decide +kernel : ∀ t : Fin grid1.N, _)

/-- The array row under row `r` of the row block of point `t`. -/
def rowOf (t : Fin cfg1.N) (r : Fin 1024) : Fin 8192 :=
  ⟨(t.val / 8) * 1024 + r.val, by have := t.isLt; have hN : cfg1.N = 64 := N_1; have := r.isLt; omega⟩

/-- The array column under column `q` of the column block of point `t`. -/
def colOf (t : Fin cfg1.N) (q : Fin 1024) : Fin 8192 :=
  ⟨(t.val % 8) * 1024 + q.val, by have := q.isLt; omega⟩

/-! ## The input blocks, entry by entry -/

/-- The value array's block at any point is the array. -/
theorem blk1_0 (c : Dev nD) (t : Fin cfg1.N) (j : Fin 8192) (k : Fin 256) :
    iblk1 V c 0 t (ValueIdx.ix2 j k) = V c main_v2_0 (ValueIdx.ix2 j k) := by
  obtain ⟨e0, e1, -⟩ := idx1_facts t
  unfold iblk1
  rw [View.read_apply]
  show V c main_v2_0 _ = V c main_v2_0 _
  congr 1
  funext a
  apply Fin.ext
  match a with
  | ⟨0, _⟩ => show win1_0.index t (0 : Fin 2) * 8192 + 1 * j.val = j.val; rw [e0]; omega
  | ⟨1, _⟩ => show win1_0.index t (1 : Fin 2) * 256 + 1 * k.val = k.val; rw [e1]; omega

/-- Row `r` of the row terms' block at point `t` is row `rowOf t r` of the array. -/
theorem blk1_1 (c : Dev nD) (t : Fin cfg1.N) (r : Fin 1024) :
    iblk1 V c 1 t (ValueIdx.ix2 r 0) = V c main_v2_1 (ValueIdx.ix2 (rowOf t r) 0) := by
  obtain ⟨-, -, e0, e1, -⟩ := idx1_facts t
  unfold iblk1
  rw [View.read_apply]
  show V c main_v2_1 _ = V c main_v2_1 _
  congr 1
  funext a
  apply Fin.ext
  match a with
  | ⟨0, _⟩ => show win1_1.index t (0 : Fin 2) * 1024 + 1 * r.val = t.val / 8 * 1024 + r.val; rw [e0]; omega
  | ⟨1, _⟩ => show win1_1.index t (1 : Fin 2) * 1 + 1 * 0 = 0; rw [e1]

/-- Column `q` of the column terms' block at point `t` is column `colOf t q` of the array. -/
theorem blk1_2 (c : Dev nD) (t : Fin cfg1.N) (q : Fin 1024) :
    iblk1 V c 2 t (ValueIdx.ix2 0 q) = V c main_v3 (ValueIdx.ix2 0 (colOf t q)) := by
  obtain ⟨-, -, -, -, e0, e1, -⟩ := idx1_facts t
  unfold iblk1
  rw [View.read_apply]
  show V c main_v3 _ = V c main_v3 _
  congr 1
  funext a
  apply Fin.ext
  match a with
  | ⟨0, _⟩ => show win1_2.index t (0 : Fin 2) * 1 + 1 * 0 = 0; rw [e0]
  | ⟨1, _⟩ => show win1_2.index t (1 : Fin 2) * 1024 + 1 * q.val = t.val % 8 * 1024 + q.val; rw [e1]; omega

/-- Entry `(r, q)` of the adjacency block at point `t` is entry `(rowOf t r, colOf t q)` of the array. -/
theorem blk1_3 (c : Dev nD) (t : Fin cfg1.N) (r q : Fin 1024) :
    iblk1 V c 3 t (ValueIdx.ix2 r q) = V c main_arg1 (ValueIdx.ix2 (rowOf t r) (colOf t q)) := by
  obtain ⟨-, -, -, -, -, -, e0, e1, -⟩ := idx1_facts t
  unfold iblk1
  rw [View.read_apply]
  show V c main_arg1 _ = V c main_arg1 _
  congr 1
  funext a
  apply Fin.ext
  match a with
  | ⟨0, _⟩ => show win1_3.index t (0 : Fin 2) * 1024 + 1 * r.val = t.val / 8 * 1024 + r.val; rw [e0]; omega
  | ⟨1, _⟩ => show win1_3.index t (1 : Fin 2) * 1024 + 1 * q.val = t.val % 8 * 1024 + q.val; rw [e1]; omega

/-- The tile of the value array the body loads at point `t`: row `q` of the tile is row `colOf t q` of the array
    (the tile's rows are the key columns of the point's adjacency block). -/
theorem wtile_apply (t : Fin cfg1.N) (x0 : Vec F S8192x256 .bf16) (q : Fin 1024) (k : Fin 256) :
    View.ld x0 (Rect.unit (s := S8192x256) (k1_off1 (grid1.coords t)) S1024x256.size (k1_off1_inb (grid1.coords t)))
        (ValueIdx.ix2 q k) = x0 (ValueIdx.ix2 (colOf t q) k) := by
  obtain ⟨-, -, -, -, -, -, -, -, -, -, e0, e1⟩ := idx1_facts t
  show x0 _ = x0 _
  congr 1
  funext a
  apply Fin.ext
  match a with
  | ⟨0, _⟩ => show k1_off1 (grid1.coords t) (0 : Fin 2) + 1 * q.val = t.val % 8 * 1024 + q.val; rw [e0]; omega
  | ⟨1, _⟩ => show k1_off1 (grid1.coords t) (1 : Fin 2) + 1 * k.val = k.val; rw [e1]; omega

/-! ## The output array from its blocks -/

/-- An index of the output array is in point `t`'s block iff each coordinate is in the block's range on its axis. -/
theorem mem_blk1_4 (t : Fin cfg1.N) (i : S8192x256.Idx) :
    i ∈ ((cfg1.win 4).blk t).view.set ↔ ∀ a : Fin 2, win1_4.index t a * S1024x256.size a ≤ (i a).val
      ∧ (i a).val < win1_4.index t a * S1024x256.size a + S1024x256.size a := by
  show i ∈ ((View.whole main_v4).slice (win1_4.rect t)).set ↔ _
  rw [View.set_slice_whole, Rect.mem_set_unit]
  exact Iff.rfl

/-- What a point that writes the output block back writes is its block of `G`, when the block the body leaves there
    is `G` on the block's rows. -/
theorem flushed1_4_eq (c : Dev nD) (G : S8192x256.Idx → Elt F .f32)
    (hG : ∀ (t : Fin cfg1.N), t.val % 8 = 7 → ∀ (r : Fin 1024) (k : Fin 256),
      (outsAt1 V c t.val t.isLt).1 (ValueIdx.ix2 r k) = G (ValueIdx.ix2 (rowOf t r) k))
    (t : Fin cfg1.N) (hf : (cfg1.win 4).flush t = true) :
    (dat1 V c).flushed 4 t = ((cfg1.win 4).blk t).view.read (Elt F) G := by
  have h7 : t.val % 8 = 7 := (flush1_4 t).mp hf
  obtain ⟨-, -, -, -, -, -, -, -, e0, e1, -⟩ := idx1_facts t
  show (cfg1.win 4).cut (grid1.coords t) ((dat1 V c).after 4 t) = _
  rw [after1_4]
  have key : ∀ (r : Fin 1024) (k : Fin 256),
      (outsAt1 V c t.val t.isLt).1 (ValueIdx.ix2 r k) = G (((cfg1.win 4).blk t).view.emb (ValueIdx.ix2 r k)) := by
    intro r k
    rw [hG t h7 r k]
    congr 1
    funext a
    apply Fin.ext
    match a with
    | ⟨0, _⟩ => show t.val / 8 * 1024 + r.val = win1_4.index t (0 : Fin 2) * 1024 + 1 * r.val; rw [e0]; omega
    | ⟨1, _⟩ => show k.val = win1_4.index t (1 : Fin 2) * 256 + 1 * k.val; rw [e1]; omega
  refine funext fun (y : S1024x256.Idx) => ?_
  rw [View.read_apply]
  exact (congrArg (fun z : S1024x256.Idx => (outsAt1 V c t.val t.isLt).1 z) (ValueIdx.eq_ix2 y)).trans
    ((key (y 0) (y 1)).trans
      (congrArg (fun z : S1024x256.Idx => G (((cfg1.win 4).blk t).view.emb z)) (ValueIdx.eq_ix2 y).symm))

/-- Every row of the output array lies in the block some point writes back: row `i` in that of point `8 · (i / 1024) + 7`. -/
theorem cover1_4 (i : S8192x256.Idx) :
    ∃ t : Fin cfg1.N, (cfg1.win 4).flush t = true ∧ i ∈ ((cfg1.win 4).blk t).view.set := by
  have hi0 : (i 0).val < 8192 := (i 0).isLt
  have hi1 : (i 1).val < 256 := (i 1).isLt
  have hN : cfg1.N = 64 := N_1
  have hlt : 8 * ((i 0).val / 1024) + 7 < cfg1.N := by omega
  obtain ⟨-, -, -, -, -, -, -, -, e0, e1, -⟩ := idx1_facts ⟨8 * ((i 0).val / 1024) + 7, hlt⟩
  refine ⟨⟨8 * ((i 0).val / 1024) + 7, hlt⟩, (flush1_4 _).mpr (by show (8 * ((i 0).val / 1024) + 7) % 8 = 7; omega), ?_⟩
  rw [mem_blk1_4]
  intro a
  match a with
  | ⟨0, _⟩ =>
    show win1_4.index ⟨8 * ((i 0).val / 1024) + 7, hlt⟩ (0 : Fin 2) * 1024 ≤ (i 0).val
      ∧ (i 0).val < win1_4.index ⟨8 * ((i 0).val / 1024) + 7, hlt⟩ (0 : Fin 2) * 1024 + 1024
    rw [e0]
    show (8 * ((i 0).val / 1024) + 7) / 8 * 1024 ≤ (i 0).val ∧ (i 0).val < (8 * ((i 0).val / 1024) + 7) / 8 * 1024 + 1024
    omega
  | ⟨1, _⟩ =>
    show win1_4.index ⟨8 * ((i 0).val / 1024) + 7, hlt⟩ (1 : Fin 2) * 256 ≤ (i 1).val
      ∧ (i 1).val < win1_4.index ⟨8 * ((i 0).val / 1024) + 7, hlt⟩ (1 : Fin 2) * 256 + 256
    rw [e1]
    omega

/-- The output array after the region: `G`, when the block each written-back point leaves is `G` on that point's rows. -/
theorem arr1_4_of (c : Dev nD) (G : S8192x256.Idx → Elt F .f32)
    (hG : ∀ (t : Fin cfg1.N), t.val % 8 = 7 → ∀ (r : Fin 1024) (k : Fin 256),
      (outsAt1 V c t.val t.isLt).1 (ValueIdx.ix2 r k) = G (ValueIdx.ix2 (rowOf t r) k)) :
    (dat1 V c).arrAt 4 cfg1.N = G :=
  (dat1 V c).arrAt_eq_of_cover 4 G (fun t hf => flushed1_4_eq V c G hG t hf) cover1_4

end Cert.KernelIdeal.Fr

end
-- ==== Proof.KI.Inv1.lean ====
/-
  The attention region's scratch buffers and output block as the tiled softmax of the specification.

  Suppose that when the region is entered its four input arrays hold, at plain coordinates, a row term s i, a column
  term d j, an adjacency adj i j and value rows P j k, and write E i j for the masked score of the pair (i, j). A grid
  point t works on the rows (t / 8) · 1024 + r and on tile t % 8 of the key columns. Then after point t the three
  scratch buffers hold, at lane r, the running maximum, the running denominator and the running numerator of row
  (t / 8) · 1024 + r after t % 8 + 1 tiles — the specification's tileMax, tileL and tileAcc at that count: a point
  with tile index 0 starts them from minus infinity, 0 and 0, which are the values at count 0; every other point
  starts from what the point before left, which by induction are the values at count t % 8; and one step of the body
  is one step of the three recurrences, entry by entry: the new maximum is the old one against the tile's maximum,
  the denominator and the numerator are rescaled by exp (old − new) and gain the tile's terms. At tile index 7 the
  count is 8 and the stored output block is the quotient, the specification's tileOut.
-/
import proofs.«426516_j55353538511035_3_alg».proof.Proof.KI.PiecesVal
import proofs.«426516_j55353538511035_3_alg».proof.Proof.KI.Pay
import proofs.«426516_j55353538511035_3_alg».proof.Proof.KI.Blocks1
import proofs.«426516_j55353538511035_3_alg».proof.Proof.Spec

set_option maxRecDepth 16384

noncomputable section

namespace Cert.KernelIdeal.Fr

open Cert.KernelIdeal Cert.KernelIdeal.Gen Cert.KernelIdeal.Pay
open Idealize.ShloMosaic Idealize.ShloMosaic.TcCoe Idealize.SL.Sem ValueIdx
open Idealize.ShloMosaic.Pipeline (Dat)
open Cert.Spec (score tileMax tileL tileAcc tileP tileAlpha tileOut col ninf)

variable (V : (c : Dev nD) → (b : Ref sig .tc) → Buf (Elt Ideal) ((c : Thread nD τ).loc b)) (c : Dev nD)
variable (s d : Fin 8192 → EReal) (adj : Fin 8192 → Fin 8192 → BitVec 32) (P : Fin 8192 → Fin 256 → EReal)

/-- What the region's input arrays hold at entry, at plain coordinates. -/
structure EntryAt : Prop where
  hS : ∀ i : Fin 8192, V c main_v2_1 (ix2 i 0) = s i
  hD : ∀ j : Fin 8192, V c main_v3 (ix2 0 j) = d j
  hA : ∀ i j : Fin 8192, V c main_arg1 (ix2 i j) = adj i j
  hP : ∀ (j : Fin 8192) (k : Fin 256), V c main_v2_0 (ix2 j k) = P j k

/-- The specification's column r of tile t % 8 is the point's column r. -/
theorem col_eq (t : Fin cfg1.N) (q : Fin 1024) : col (t.val % 8) q = colOf t q :=
  Fin.ext (by simp only [col, colOf, Nat.mod_mod])

variable {V c s d adj P}

/-- An entry of the point's score block is the masked score of its row and column. -/
theorem score_blk (h : EntryAt V c s d adj P) (t : Fin cfg1.N) (r q : Fin 1024) :
    k1_pay7 (F := Ideal) (iblk1 V c 1 t) (iblk1 V c 2 t) (iblk1 V c 3 t) (ix2 r q) = score s d adj (rowOf t r) (colOf t q) := by
  rw [pay7_apply, blk1_1, blk1_2, blk1_3, h.hS, h.hD, h.hA]
  rfl

/-! ## One step of the three recurrences -/

section step

variable (h : EntryAt V c s d adj P) (t : Fin cfg1.N) (n : ℕ) (hn : t.val % 8 = n)
variable (m0 l0 : Vec Ideal S1024x1 .f32) (a0 : Vec Ideal S1024x256 .f32)

/-- The new maximum: the old one against the tile's. -/
theorem step_max (h : EntryAt V c s d adj P) (t : Fin cfg1.N) (n : ℕ) (hn : t.val % 8 = n) (m0 : Vec Ideal S1024x1 .f32)
    (h0 : ∀ r : Fin 1024, m0 (ix2 r 0) = tileMax (score s d adj) (rowOf t r) n) (r : Fin 1024) :
    k1_pay8 (F := Ideal) (iblk1 V c 1 t) (iblk1 V c 2 t) (iblk1 V c 3 t) m0 (ix2 r 0) = tileMax (score s d adj) (rowOf t r) (n + 1) := by
  rw [pay8_apply, h0 r]
  show _ = max (tileMax (score s d adj) (rowOf t r) n) ((Finset.univ : Finset (Fin 1024)).fold max ninf (fun q => score s d adj (rowOf t r) (col n q)))
  refine congrArg (max _) (congrArg (fun f : Fin 1024 → EReal => (Finset.univ : Finset (Fin 1024)).fold max ninf f) (funext fun q => ?_))
  rw [score_blk h, ← hn, col_eq]

/-- A term of the tile against the new maximum. -/
theorem step_p (h : EntryAt V c s d adj P) (t : Fin cfg1.N) (n : ℕ) (hn : t.val % 8 = n) (m0 : Vec Ideal S1024x1 .f32)
    (h0 : ∀ r : Fin 1024, m0 (ix2 r 0) = tileMax (score s d adj) (rowOf t r) n) (r q : Fin 1024) :
    k1_pay9 (F := Ideal) (iblk1 V c 1 t) (iblk1 V c 2 t) (iblk1 V c 3 t) m0 (ix2 r q) = tileP (score s d adj) (rowOf t r) n q := by
  rw [pay9_apply, step_max h t n hn m0 h0 r, score_blk h]
  show _ = Ideal.exp (score s d adj (rowOf t r) (col n q) - tileMax (score s d adj) (rowOf t r) (n + 1))
  rw [← hn, col_eq]

/-- The rescaling factor. -/
theorem step_alpha (h : EntryAt V c s d adj P) (t : Fin cfg1.N) (n : ℕ) (hn : t.val % 8 = n) (m0 : Vec Ideal S1024x1 .f32)
    (h0 : ∀ r : Fin 1024, m0 (ix2 r 0) = tileMax (score s d adj) (rowOf t r) n) (r : Fin 1024) :
    k1_pay10 (F := Ideal) (iblk1 V c 1 t) (iblk1 V c 2 t) (iblk1 V c 3 t) m0 (ix2 r 0) = tileAlpha (score s d adj) (rowOf t r) n := by
  rw [pay10_apply, step_max h t n hn m0 h0 r, h0 r]
  rfl

/-- The new denominator. -/
theorem step_l (h : EntryAt V c s d adj P) (t : Fin cfg1.N) (n : ℕ) (hn : t.val % 8 = n) (m0 l0 : Vec Ideal S1024x1 .f32)
    (h0 : ∀ r : Fin 1024, m0 (ix2 r 0) = tileMax (score s d adj) (rowOf t r) n)
    (h1 : ∀ r : Fin 1024, l0 (ix2 r 0) = tileL (score s d adj) (rowOf t r) n) (r : Fin 1024) :
    k1_pay11 (F := Ideal) (iblk1 V c 1 t) (iblk1 V c 2 t) (iblk1 V c 3 t) m0 l0 (ix2 r 0) = tileL (score s d adj) (rowOf t r) (n + 1) := by
  rw [pay11_apply, step_alpha h t n hn m0 h0 r, h1 r]
  show _ = tileAlpha (score s d adj) (rowOf t r) n * tileL (score s d adj) (rowOf t r) n + ∑ q : Fin 1024, tileP (score s d adj) (rowOf t r) n q
  exact congrArg (fun z : EReal => tileAlpha (score s d adj) (rowOf t r) n * tileL (score s d adj) (rowOf t r) n + z)
    (Finset.sum_congr rfl fun q _ => step_p h t n hn m0 h0 r q)

/-- The new numerator. -/
theorem step_acc (h : EntryAt V c s d adj P) (t : Fin cfg1.N) (n : ℕ) (hn : t.val % 8 = n) (m0 : Vec Ideal S1024x1 .f32) (a0 : Vec Ideal S1024x256 .f32)
    (h0 : ∀ r : Fin 1024, m0 (ix2 r 0) = tileMax (score s d adj) (rowOf t r) n)
    (h2 : ∀ (r : Fin 1024) (k : Fin 256), a0 (ix2 r k) = tileAcc (score s d adj) P (rowOf t r) k n) (r : Fin 1024) (k : Fin 256) :
    k1_pay1 (F := Ideal) (k1_pay9 (F := Ideal) (iblk1 V c 1 t) (iblk1 V c 2 t) (iblk1 V c 3 t) m0)
        (k1_pay10 (F := Ideal) (iblk1 V c 1 t) (iblk1 V c 2 t) (iblk1 V c 3 t) m0) (wtile t (iblk1 V c 0 t)) a0 (ix2 r k)
      = tileAcc (score s d adj) P (rowOf t r) k (n + 1) := by
  rw [pay1_apply, step_alpha h t n hn m0 h0 r, h2 r k]
  show _ = tileAlpha (score s d adj) (rowOf t r) n * tileAcc (score s d adj) P (rowOf t r) k n
      + ∑ q : Fin 1024, tileP (score s d adj) (rowOf t r) n q * P (col n q) k
  refine congrArg (fun z : EReal => tileAlpha (score s d adj) (rowOf t r) n * tileAcc (score s d adj) P (rowOf t r) k n + z)
    (Finset.sum_congr rfl fun q _ => ?_)
  rw [step_p h t n hn m0 h0 r q]
  refine congrArg (fun z : EReal => tileP (score s d adj) (rowOf t r) n q * z) ?_
  show wtile t (iblk1 V c 0 t) (ix2 q k) = _
  unfold wtile
  rw [wtile_apply, blk1_0, h.hP, ← hn, col_eq]

end step

/-! ## The induction over the grid points -/

/-- The rows of a point whose tile index is not 0 are the rows of the point before it. -/
theorem rowOf_pred (t : Fin cfg1.N) (h0 : ¬t.val % 8 = 0) (r : Fin 1024) :
    rowOf ⟨t.val - 1, Nat.lt_of_le_of_lt (Nat.sub_le _ _) t.isLt⟩ r = rowOf t r :=
  Fin.ext (by simp only [rowOf]; omega)

/-- After point `t` the three scratch buffers hold the row's running maximum, denominator and numerator after
    `t % 8 + 1` tiles. -/
def InvAt (V : (c : Dev nD) → (b : Ref sig .tc) → Buf (Elt Ideal) ((c : Thread nD τ).loc b)) (c : Dev nD)
    (s d : Fin 8192 → EReal) (adj : Fin 8192 → Fin 8192 → BitVec 32) (P : Fin 8192 → Fin 256 → EReal) (t : Fin cfg1.N) : Prop :=
  (∀ r : Fin 1024, (outsAt1 V c t.val t.isLt).2.1 (ix2 r 0) = tileMax (score s d adj) (rowOf t r) (t.val % 8 + 1))
  ∧ (∀ r : Fin 1024, (outsAt1 V c t.val t.isLt).2.2.1 (ix2 r 0) = tileL (score s d adj) (rowOf t r) (t.val % 8 + 1))
  ∧ (∀ (r : Fin 1024) (k : Fin 256), (outsAt1 V c t.val t.isLt).2.2.2 (ix2 r k) = tileAcc (score s d adj) P (rowOf t r) k (t.val % 8 + 1))

/-- What the point before leaves is this point's start: the same rows, the count `t % 8`. -/
theorem inv_pred (t : Fin cfg1.N) (h0 : ¬t.val % 8 = 0)
    (ih : InvAt V c s d adj P ⟨t.val - 1, Nat.lt_of_le_of_lt (Nat.sub_le _ _) t.isLt⟩) :
    (∀ r : Fin 1024, (outsAt1 V c (t.val - 1) (Nat.lt_of_le_of_lt (Nat.sub_le _ _) t.isLt)).2.1 (ix2 r 0) = tileMax (score s d adj) (rowOf t r) (t.val % 8))
    ∧ (∀ r : Fin 1024, (outsAt1 V c (t.val - 1) (Nat.lt_of_le_of_lt (Nat.sub_le _ _) t.isLt)).2.2.1 (ix2 r 0) = tileL (score s d adj) (rowOf t r) (t.val % 8))
    ∧ (∀ (r : Fin 1024) (k : Fin 256), (outsAt1 V c (t.val - 1) (Nat.lt_of_le_of_lt (Nat.sub_le _ _) t.isLt)).2.2.2 (ix2 r k) = tileAcc (score s d adj) P (rowOf t r) k (t.val % 8)) := by
  have hc : (t.val - 1) % 8 + 1 = t.val % 8 := by omega
  obtain ⟨i0, i1, i2⟩ := ih
  refine ⟨fun r => ?_, fun r => ?_, fun r k => ?_⟩
  · have := i0 r; rw [rowOf_pred t h0 r] at this; dsimp only at this; rw [hc] at this; exact this
  · have := i1 r; rw [rowOf_pred t h0 r] at this; dsimp only at this; rw [hc] at this; exact this
  · have := i2 r k; rw [rowOf_pred t h0 r] at this; dsimp only at this; rw [hc] at this; exact this

/-- THE INVARIANT, at every point. -/
theorem inv (h : EntryAt V c s d adj P) : ∀ (n : ℕ) (hn : n < cfg1.N), InvAt V c s d adj P ⟨n, hn⟩ := by
  intro n
  induction n using Nat.strong_induction_on with
  | _ n ih =>
    intro hn
    by_cases h0 : n % 8 = 0
    · have h1 : ¬n % 8 = 7 := by omega
      have e := outsAt1_A V c ⟨n, hn⟩ h0 h1
      have b0 : ∀ r : Fin 1024, (k1_pay4 (F := Ideal)) (ix2 r 0) = tileMax (score s d adj) (rowOf ⟨n, hn⟩ r) (n % 8) := fun r => by
        rw [h0]; exact pay4_apply r
      have b1 : ∀ r : Fin 1024, (k1_pay5 (F := Ideal)) (ix2 r 0) = tileL (score s d adj) (rowOf ⟨n, hn⟩ r) (n % 8) := fun r => by
        rw [h0]; exact pay5_apply r
      have b2 : ∀ (r : Fin 1024) (k : Fin 256), (k1_pay6 (F := Ideal)) (ix2 r k) = tileAcc (score s d adj) P (rowOf ⟨n, hn⟩ r) k (n % 8) := fun r k => by
        rw [h0]; exact pay6_apply r k
      unfold InvAt
      dsimp only at e ⊢
      rw [e]
      unfold stepA
      dsimp only
      refine ⟨fun r => ?_, fun r => ?_, fun r k => ?_⟩
      · rw [soutA_0_eq, pay2_eq]; exact step_max h ⟨n, hn⟩ (n % 8) rfl _ b0 r
      · rw [soutA_1_eq]; exact step_l h ⟨n, hn⟩ (n % 8) rfl _ _ b0 b1 r
      · rw [soutA_2_eq]; exact step_acc h ⟨n, hn⟩ (n % 8) rfl _ _ b0 b2 r k
    · have hp := inv_pred (V := V) (c := c) (s := s) (d := d) (adj := adj) (P := P) ⟨n, hn⟩ h0
        (ih (n - 1) (by omega) (Nat.lt_of_le_of_lt (Nat.sub_le _ _) hn))
      obtain ⟨p0, p1, p2⟩ := hp
      unfold InvAt
      by_cases h1 : n % 8 = 7
      · have e := outsAt1_C V c ⟨n, hn⟩ h0 h1
        dsimp only at e ⊢
        rw [e]
        unfold stepC
        dsimp only
        refine ⟨fun r => ?_, fun r => ?_, fun r k => ?_⟩
        · rw [soutC_0_eq, pay2_eq]; exact step_max h ⟨n, hn⟩ (n % 8) rfl _ p0 r
        · rw [soutC_1_eq]; exact step_l h ⟨n, hn⟩ (n % 8) rfl _ _ p0 p1 r
        · rw [soutC_2_eq]; exact step_acc h ⟨n, hn⟩ (n % 8) rfl _ _ p0 p2 r k
      · have e := outsAt1_B V c ⟨n, hn⟩ h0 h1
        dsimp only at e ⊢
        rw [e]
        unfold stepB
        dsimp only
        refine ⟨fun r => ?_, fun r => ?_, fun r k => ?_⟩
        · rw [soutB_0_eq, pay2_eq]; exact step_max h ⟨n, hn⟩ (n % 8) rfl _ p0 r
        · rw [soutB_1_eq]; exact step_l h ⟨n, hn⟩ (n % 8) rfl _ _ p0 p1 r
        · rw [soutB_2_eq]; exact step_acc h ⟨n, hn⟩ (n % 8) rfl _ _ p0 p2 r k

/-! ## The output block and the output array -/

/-- At a point with tile index 7 the stored output block is the quotient after eight tiles. -/
theorem out_blk (h : EntryAt V c s d adj P) (t : Fin cfg1.N) (h7 : t.val % 8 = 7) (r : Fin 1024) (k : Fin 256) :
    (outsAt1 V c t.val t.isLt).1 (ix2 r k) = tileOut (score s d adj) P (rowOf t r) k := by
  have h0 : ¬t.val % 8 = 0 := by omega
  obtain ⟨p0, p1, p2⟩ := inv_pred (V := V) (c := c) (s := s) (d := d) (adj := adj) (P := P) t h0
    (inv h (t.val - 1) (Nat.lt_of_le_of_lt (Nat.sub_le _ _) t.isLt))
  rw [outsAt1_C V c t h0 h7]
  unfold stepC
  dsimp only
  rw [outC_4_eq, pay3_apply, step_acc h t (t.val % 8) rfl _ _ p0 p2 r k, step_l h t (t.val % 8) rfl _ _ p0 p1 r, h7]
  rfl

/-- THE RESULT: after the region its output window's array is the tiled softmax of the specification. -/
theorem arr1_4_eq (h : EntryAt V c s d adj P) :
    (dat1 V c).arrAt 4 cfg1.N = fun idx : S8192x256.Idx => tileOut (score s d adj) P (idx 0) (idx 1) :=
  arr1_4_of V c _ fun t h7 r k => out_blk h t h7 r k

end Cert.KernelIdeal.Fr

end
-- ==== Proof.KI.Value.lean ====
/-
  The idealized kernel's result as the specification's tiled softmax of the launch memory: the attention region is
  entered with its four arrays at the projected features, the two attention terms and the adjacency of the launch
  memory (the first region's outputs and the host reshapes, read at plain coordinates), so what its write-backs
  leave in the output array is the tiled softmax of those.
-/
import proofs.«426516_j55353538511035_3_alg».proof.Proof.KI.Entry
import proofs.«426516_j55353538511035_3_alg».proof.Proof.KI.Inv1

noncomputable section

namespace Cert.KernelIdeal.Fr

open Cert.KernelIdeal Cert.KernelIdeal.Gen
open Idealize.ShloMosaic Idealize.ShloMosaic.TcCoe Idealize.SL.Sem ValueIdx

variable (m : (ℓ : Loc nD τ sig) → Buf (Elt Ideal) ℓ) (ρ : Dev nD → PrngReg)

/-- The attention region's entry contents, at plain coordinates. -/
theorem entryAt (c : Dev nD) :
    EntryAt (V3 m ρ) c (Cert.Spec.att (Cert.Spec.proj (kH m c) (kW m c)) (kA m c)) (Cert.Spec.att (Cert.Spec.proj (kH m c) (kW m c)) (kB m c))
      (kAdj m c) (Cert.Spec.proj (kH m c) (kW m c)) :=
  ⟨entry_s m ρ c, entry_d m ρ c, entry_adj m ρ c, entry_P m ρ c⟩

/-- The result array after the run. -/
theorem result_val (c : Dev nD) :
    (dat1 (V3 m ρ) c).arrAt 4 cfg1.N = fun idx : S8192x256.Idx =>
      Cert.Spec.tileOut (Cert.Spec.scoreOf (kH m c) (kAdj m c) (kW m c) (kA m c) (kB m c)) (Cert.Spec.proj (kH m c) (kW m c)) (idx 0) (idx 1) :=
  arr1_4_eq (entryAt m ρ c)

end Cert.KernelIdeal.Fr

end
-- ==== Proof.RefRun.lean ====
/- The run of the reference program's @main read back. @main calls two functions of its module
   (a leaky ReLU, itself calling a select, and a masked select); their operations are listed inline at the
   call sites over the calls' buffer records, so that @main is ONE straight line of host operations. Every
   weakly fair execution then terminates with the result buffer at the operations' composed pure term of
   the five arguments' launch contents, the arguments unchanged. The composed term is named stage by
   stage (the projected features, the two score vectors, the pairwise scores, the leaky ReLU, the mask,
   the row maxima, the shifted exponentials, the row sums, the normalised weights, the weighted sum). -/
import proofs.«426516_j55353538511035_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the called functions' operations inline at their call sites: the
    leaky ReLU's six and its select (into the first call's buffers), the masked select's three (into the
    second call's). -/
abbrev ops : List (HloOp τ sig (Elt F)) :=
  [ binary main_arg0 main_arg2 main_v0 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    binary main_v0 main_arg3 main_v1 ((fun l r => Host.dotGeneral dot_S8192x256_S256x1_S8192x1_1_0_0_1_n_n none l r) : (⟨S8192x256, .f32⟩ : BufTy).Contents (Elt F) → (⟨S256x1, .f32⟩ : BufTy).Contents (Elt F) → (⟨S8192x1, .f32⟩ : BufTy).Contents (Elt F)),
    binary main_v0 main_arg4 main_v2 ((fun l r => Host.dotGeneral dot_S8192x256_S256x1_S8192x1_1_0_0_1_n_n none l r) : (⟨S8192x256, .f32⟩ : BufTy).Contents (Elt F) → (⟨S256x1, .f32⟩ : BufTy).Contents (Elt F) → (⟨S8192x1, .f32⟩ : BufTy).Contents (Elt F)),
    unary main_v2 main_v3 ((transpose S1x8192 [1, 0] · transposes_S8192x1_S1x8192_1_0) : (⟨S8192x1, .f32⟩ : BufTy).Contents (Elt F) → (⟨S1x8192, .f32⟩ : BufTy).Contents (Elt F)),
    unary main_v1 main_v4 (broadcastInDim S8192x8192 ![0, 1] bcast_S8192x1_S8192x8192_0_1 : (⟨S8192x1, .f32⟩ : BufTy).Contents (Elt F) → (⟨S8192x8192, .f32⟩ : BufTy).Contents (Elt F)),
    unary main_v3 main_v5 (broadcastInDim S8192x8192 ![0, 1] bcast_S1x8192_S8192x8192_0_1 : (⟨S1x8192, .f32⟩ : BufTy).Contents (Elt F) → (⟨S8192x8192, .f32⟩ : BufTy).Contents (Elt F)),
    binary main_v4 main_v5 main_v6 (addf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x3E4CCCCD#32),
    TRef.nullary main_call0.cst (constant S_ .f32 0x00000000#32),
    TRef.unary main_call0.cst main_call0.v0 (broadcastInDim S8192x8192 ![] bcast_S_S8192x8192),
    TRef.binary (.of main_v6) main_call0.v0 main_call0.v1 (cmpf .oge),
    TRef.unary (.of main_cst) main_call0.v2 id,
    TRef.unary main_call0.v2 main_call0.v3 (broadcastInDim S8192x8192 ![] bcast_S_S8192x8192),
    TRef.binary main_call0.v3 (.of main_v6) main_call0.v4 mulf,
    TRef.ternary main_call0.v1 (.of main_v6) main_call0.v4 main_call0.call0.v0 select,
    nullary main_c (constantI S_ 32 0#32),
    unary main_c main_v8 (broadcastInDim S8192x8192 ![] bcast_S_S8192x8192 : (⟨S_, .i32⟩ : BufTy).Contents (Elt F) → (⟨S8192x8192, .i32⟩ : BufTy).Contents (Elt F)),
    binary main_arg1 main_v8 main_v9 (cmpi .sgt : (⟨S8192x8192, .i32⟩ : BufTy).Contents (Elt F) → (⟨S8192x8192, .i32⟩ : BufTy).Contents (Elt F) → (⟨S8192x8192, .i1⟩ : BufTy).Contents (Elt F)),
    nullary main_cst_0 (constant S_ .f32 0xD9FFCB9E#32),
    TRef.unary (.of main_cst_0) main_call1.v0 id,
    TRef.unary main_call1.v0 main_call1.v1 (broadcastInDim S8192x8192 ![] bcast_S_S8192x8192),
    TRef.ternary (.of main_v9) (.of main_v7) main_call1.v1 main_call1.v2 select,
    nullary main_cst_1 (constant S_ .f32 0xFF800000#32),
    binary main_v10 main_cst_1 main_v11 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_2 (constant S_ .f32 0xFF800000#32),
    unary main_cst_2 main_v12 (broadcastInDim S8192 ![] bcast_S_S8192 : (⟨S_, .f32⟩ : BufTy).Contents (Elt F) → (⟨S8192, .f32⟩ : BufTy).Contents (Elt F)),
    binary main_v12 main_v11 main_v13 (maximumf : (⟨S8192, .f32⟩ : BufTy).Contents (Elt F) → (⟨S8192, .f32⟩ : BufTy).Contents (Elt F) → (⟨S8192, .f32⟩ : BufTy).Contents (Elt F)),
    unary main_v13 main_v14 (broadcastInDim S8192x1 ![0] bcast_S8192_S8192x1_0 : (⟨S8192, .f32⟩ : BufTy).Contents (Elt F) → (⟨S8192x1, .f32⟩ : BufTy).Contents (Elt F)),
    unary main_v14 main_v15 (broadcastInDim S8192x8192 ![0, 1] bcast_S8192x1_S8192x8192_0_1 : (⟨S8192x1, .f32⟩ : BufTy).Contents (Elt F) → (⟨S8192x8192, .f32⟩ : BufTy).Contents (Elt F)),
    binary main_v10 main_v15 main_v16 (subf : (⟨S8192x8192, .f32⟩ : BufTy).Contents (Elt F) → (⟨S8192x8192, .f32⟩ : BufTy).Contents (Elt F) → (⟨S8192x8192, .f32⟩ : BufTy).Contents (Elt F)),
    unary main_v16 main_v17 (Host.exp : (⟨S8192x8192, .f32⟩ : BufTy).Contents (Elt F) → (⟨S8192x8192, .f32⟩ : BufTy).Contents (Elt F)),
    nullary main_cst_3 (constant S_ .f32 0x00000000#32),
    binary main_v17 main_cst_3 main_v18 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v18 main_v19 (broadcastInDim S8192x1 ![0] bcast_S8192_S8192x1_0 : (⟨S8192, .f32⟩ : BufTy).Contents (Elt F) → (⟨S8192x1, .f32⟩ : BufTy).Contents (Elt F)),
    unary main_v19 main_v20 (broadcastInDim S8192x8192 ![0, 1] bcast_S8192x1_S8192x8192_0_1 : (⟨S8192x1, .f32⟩ : BufTy).Contents (Elt F) → (⟨S8192x8192, .f32⟩ : BufTy).Contents (Elt F)),
    binary main_v17 main_v20 main_v21 (Host.divf : (⟨S8192x8192, .f32⟩ : BufTy).Contents (Elt F) → (⟨S8192x8192, .f32⟩ : BufTy).Contents (Elt F) → (⟨S8192x8192, .f32⟩ : BufTy).Contents (Elt F)),
    binary main_v21 main_v0 main_v22 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)) ]

set_option maxRecDepth 2048 in
/-- @main is that straight line: the functions' definitions unfolded at their calls and the records at
    their fields, both sides are one chain of host steps once sequencing is reassociated. -/
theorem main_eq (c : Dev nD) : main (F := F) c = seq ops := by
  simp only [main, fn_leaky_relu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub .., binary_bufs_sub .., unary_bufs_sub .., unary_bufs_sub .., unary_bufs_sub ..,
    binary_bufs_sub .., nullary_bufs_sub ..,
    nullary_bufs_sub .., unary_bufs_sub .., binary_bufs_sub .., unary_bufs_sub .., unary_bufs_sub .., binary_bufs_sub ..,
    ternary_bufs_sub ..,
    nullary_bufs_sub .., unary_bufs_sub .., binary_bufs_sub .., nullary_bufs_sub ..,
    unary_bufs_sub .., unary_bufs_sub .., ternary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub .., binary_bufs_sub ..⟩

/-! ## The composed term, stage by stage -/

/-- The projected features: the node features times the weight matrix. -/
def stWh (x0 : (⟨S8192x512, .f32⟩ : BufTy).Contents (Elt F)) (x2 : (⟨S512x256, .f32⟩ : BufTy).Contents (Elt F)) : (⟨S8192x256, .f32⟩ : BufTy).Contents (Elt F) :=
  Host.dotGeneral dot_S8192x512_S512x256_S8192x256_1_0_0_1_n_n none x0 x2

/-- The source scores: the projected features times the first attention vector. -/
def stSrc (wh : (⟨S8192x256, .f32⟩ : BufTy).Contents (Elt F)) (x3 : (⟨S256x1, .f32⟩ : BufTy).Contents (Elt F)) : (⟨S8192x1, .f32⟩ : BufTy).Contents (Elt F) :=
  Host.dotGeneral dot_S8192x256_S256x1_S8192x1_1_0_0_1_n_n none wh x3

/-- The destination scores: the projected features times the second attention vector. -/
def stDst (wh : (⟨S8192x256, .f32⟩ : BufTy).Contents (Elt F)) (x4 : (⟨S256x1, .f32⟩ : BufTy).Contents (Elt F)) : (⟨S8192x1, .f32⟩ : BufTy).Contents (Elt F) :=
  Host.dotGeneral dot_S8192x256_S256x1_S8192x1_1_0_0_1_n_n none wh x4

/-- The pairwise scores: entry (i, j) is source score i plus destination score j. -/
def stE0 (s d : (⟨S8192x1, .f32⟩ : BufTy).Contents (Elt F)) : (⟨S8192x8192, .f32⟩ : BufTy).Contents (Elt F) :=
  addf (broadcastInDim S8192x8192 ![0, 1] bcast_S8192x1_S8192x8192_0_1 s)
    (broadcastInDim S8192x8192 ![0, 1] bcast_S1x8192_S8192x8192_0_1 (transpose S1x8192 [1, 0] d transposes_S8192x1_S1x8192_1_0))

/-- The leaky ReLU of slope 0.2: a score not below zero is kept, another is scaled. -/
def stLrelu (e0 : (⟨S8192x8192, .f32⟩ : BufTy).Contents (Elt F)) : (⟨S8192x8192, .f32⟩ : BufTy).Contents (Elt F) :=
  select (cmpf .oge e0 (broadcastInDim S8192x8192 ![] bcast_S_S8192x8192 (constant S_ .f32 0x00000000#32))) e0
    (mulf (broadcastInDim S8192x8192 ![] bcast_S_S8192x8192 (id (constant S_ .f32 0x3E4CCCCD#32))) e0)

/-- The mask: where the adjacency entry is positive the score is kept, elsewhere it is the large negative constant. -/
def stMasked (x1 : (⟨S8192x8192, .i32⟩ : BufTy).Contents (Elt F)) (l : (⟨S8192x8192, .f32⟩ : BufTy).Contents (Elt F)) : (⟨S8192x8192, .f32⟩ : BufTy).Contents (Elt F) :=
  select (cmpi .sgt x1 (broadcastInDim S8192x8192 ![] bcast_S_S8192x8192 (constantI S_ 32 0#32))) l
    (broadcastInDim S8192x8192 ![] bcast_S_S8192x8192 (id (constant S_ .f32 0xD9FFCB9E#32)))

/-- The row maxima (each joined once more with minus infinity, as printed). -/
def stMax (e : (⟨S8192x8192, .f32⟩ : BufTy).Contents (Elt F)) : (⟨S8192, .f32⟩ : BufTy).Contents (Elt F) :=
  maximumf (broadcastInDim S8192 ![] bcast_S_S8192 (constant S_ .f32 0xFF800000#32))
    (Host.reduce FloatOps.maximumf e (constant S_ .f32 0xFF800000#32) reducesTo_S8192x8192_S8192_d1 h_S_)

/-- The exponentials of the scores shifted by their row's maximum. -/
def stU (e : (⟨S8192x8192, .f32⟩ : BufTy).Contents (Elt F)) (mx : (⟨S8192, .f32⟩ : BufTy).Contents (Elt F)) : (⟨S8192x8192, .f32⟩ : BufTy).Contents (Elt F) :=
  Host.exp (subf e (broadcastInDim S8192x8192 ![0, 1] bcast_S8192x1_S8192x8192_0_1 (broadcastInDim S8192x1 ![0] bcast_S8192_S8192x1_0 mx)))

/-- The row sums of the exponentials. -/
def stS (u : (⟨S8192x8192, .f32⟩ : BufTy).Contents (Elt F)) : (⟨S8192, .f32⟩ : BufTy).Contents (Elt F) :=
  Host.reduceAdd u (constant S_ .f32 0x00000000#32) reducesTo_S8192x8192_S8192_d1 h_S_

/-- The attention weights: each exponential over its row's sum. -/
def stAttn (u : (⟨S8192x8192, .f32⟩ : BufTy).Contents (Elt F)) (sm : (⟨S8192, .f32⟩ : BufTy).Contents (Elt F)) : (⟨S8192x8192, .f32⟩ : BufTy).Contents (Elt F) :=
  Host.divf u (broadcastInDim S8192x8192 ![0, 1] bcast_S8192x1_S8192x8192_0_1 (broadcastInDim S8192x1 ![0] bcast_S8192_S8192x1_0 sm))

/-- The result: the attention weights times the projected features. -/
def out (x0 : (⟨S8192x512, .f32⟩ : BufTy).Contents (Elt F)) (x1 : (⟨S8192x8192, .i32⟩ : BufTy).Contents (Elt F)) (x2 : (⟨S512x256, .f32⟩ : BufTy).Contents (Elt F)) (x3 x4 : (⟨S256x1, .f32⟩ : BufTy).Contents (Elt F)) : (⟨S8192x256, .f32⟩ : BufTy).Contents (Elt F) :=
  let wh := stWh x0 x2
  let e := stMasked x1 (stLrelu (stE0 (stSrc wh x3) (stDst wh x4)))
  let u := stU e (stMax e)
  Host.dotGeneral dot_S8192x8192_S8192x256_S8192x256_1_0_0_1_n_n none (stAttn u (stS u)) wh

attribute [local irreducible] Host.reduce Host.reduceAdd in
set_option maxRecDepth 8192 in
/-- The fold of the operations at the result buffer is the composed term: each operation's result at
    its own buffer is its function's value and at any other buffer what was there; the typed references'
    transports are the identity at these literal references. The reductions and products are kept folded:
    the equation never looks inside them. -/
theorem out_eq (V : Valuation τ sig (Elt F)) :
    after ops V (main_v22 : DevRef τ sig)
      = out (V (main_arg0 : DevRef τ sig)) (V (main_arg1 : DevRef τ sig)) (V (main_arg2 : DevRef τ sig))
          (V (main_arg3 : DevRef τ sig)) (V (main_arg4 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp

/-- On every device, for any float values, from any memory with zero counters: every weakly fair execution of
    @main terminates with the result buffer at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v22).trans (out_eq _),
      (h c main_arg0).trans (arg0_eq _),
      (h c main_arg1).trans (arg1_eq _),
      (h c main_arg2).trans (arg2_eq _),
      (h c main_arg3).trans (arg3_eq _),
      (h c main_arg4).trans (arg4_eq _)⟩)
    (run_seq scopedRefs_eq scopedSems_eq defs main (fun _ => ops) main_eq (fun _ => ops_sub) m ρ)

end Cert.ReferenceIdeal.Hand

end
-- ==== Proof.RefValue.lean ====
/- The reference's result read at an index, at the ideal values, against the specification: each stage of
   the composed term (the projected features, the two score vectors, the pairwise scores, the leaky
   rectifier, the mask, the row maxima, the shifted exponentials, the row sums, the quotients, the final
   product) is read at explicit coordinates and identified with the specification's function of plain
   coordinates. A matrix product read at (i, c) is the sum over the shared axis; a reduction along the
   second axis read at i is the fold (or sum) over that row; a broadcast of a column, a row or a scalar
   reads the entry it repeats. -/
import proofs.«426516_j55353538511035_3_alg».proof.Proof.Spec
import proofs.«426516_j55353538511035_3_alg».proof.Proof.RefRun
import Idealize.ShloMosaic.Lib.ValueIdx
import Idealize.ShloMosaic.Lib.IdealHost
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Hand Idealize.ShloMosaic Idealize.ShloMosaic.ValueIdx
open scoped BigOperators

/-! ## The inputs as functions of plain coordinates -/

abbrev cH (x0 : FVec Ideal S8192x512 .f32) : Fin 8192 → Fin 512 → EReal := fun i j => x0 (ValueIdx.ix2 i j)
abbrev cAdj (x1 : IVec S8192x8192 32) : Fin 8192 → Fin 8192 → BitVec 32 := fun i j => x1 (ValueIdx.ix2 i j)
abbrev cW (x2 : FVec Ideal S512x256 .f32) : Fin 512 → Fin 256 → EReal := fun j k => x2 (ValueIdx.ix2 j k)
abbrev cA (x3 : FVec Ideal S256x1 .f32) : Fin 256 → EReal := fun k => x3 (ValueIdx.ix2 k 0)

/-! ## A plain matrix product read at an index -/

/-- The left operand's index at result (i, c) and contraction coordinate q is (i, q). -/
theorem plain_lhsIdx (M K N : Nat) (i : Fin M) (c : Fin N) (q : Fin K) :
    (DotDims.plain M K N).lhsIdx (ix2 i c) ((contrEquiv1 (DotDims.plain M K N) K rfl rfl).symm q) = ix2 i q := by
  funext a
  match a with
  | ⟨0, _⟩ => rfl
  | ⟨1, _⟩ =>
    exact Fin.ext (((DotDims.plain M K N).lhsIdx_val_of_single (cl := (1 : Fin 2)) rfl (ix2 i c) _).trans
      (contrEquiv1_symm_val (DotDims.plain M K N) K rfl rfl q))

/-- The right operand's index at result (i, c) and contraction coordinate q is (q, c). -/
theorem plain_rhsIdx (M K N : Nat) (i : Fin M) (c : Fin N) (q : Fin K) :
    (DotDims.plain M K N).rhsIdx (ix2 i c) ((contrEquiv1 (DotDims.plain M K N) K rfl rfl).symm q) = ix2 q c := by
  funext a
  match a with
  | ⟨0, _⟩ =>
    exact Fin.ext (((DotDims.plain M K N).rhsIdx_val_of_single (cr := (0 : Fin 2)) rfl (ix2 i c) _).trans
      (contrEquiv1_symm_val (DotDims.plain M K N) K rfl rfl q))
  | ⟨1, _⟩ => rfl

/-- A plain matrix product on the host at the ideal values, read at (i, c): the sum over the shared axis of the
    products of row i of the left operand and column c of the right one. -/
theorem plain_dot_apply {φ₁ φ₂ : FTy} (M K N : Nat) (lhs : FVec Ideal ⟨2, ![M, K]⟩ φ₁) (rhs : FVec Ideal ⟨2, ![K, N]⟩ φ₂)
    (i : Fin M) (c : Fin N) :
    Host.dotGeneral (DotDims.plain M K N) none lhs rhs (ix2 i c) = ∑ q : Fin K, lhs (ix2 i q) * rhs (ix2 q c) := by
  show FloatOps.dotGeneral (DotDims.plain M K N) none _ lhs rhs (ix2 i c) = _
  rw [Ideal.dotGeneral_apply, ← Equiv.sum_comp (contrEquiv1 (DotDims.plain M K N) K rfl rfl).symm]
  exact Finset.sum_congr rfl fun q _ => by rw [plain_lhsIdx, plain_rhsIdx]

/-! ## The stages -/

/-- The projected features at (i, c). -/
theorem stWh_apply (x0 : FVec Ideal S8192x512 .f32) (x2 : FVec Ideal S512x256 .f32) (i : Fin 8192) (c : Fin 256) :
    stWh (F := Ideal) x0 x2 (ix2 i c) = Cert.Spec.proj (cH x0) (cW x2) i c :=
  plain_dot_apply 8192 512 256 x0 x2 i c

theorem wh_fun (x0 : FVec Ideal S8192x512 .f32) (x2 : FVec Ideal S512x256 .f32) :
    (fun a b => stWh (F := Ideal) x0 x2 (ix2 a b)) = Cert.Spec.proj (cH x0) (cW x2) :=
  funext fun a => funext fun b => stWh_apply x0 x2 a b

/-- A score vector at i: row i of the projected features against the attention vector. -/
theorem stSrc_apply (wh : FVec Ideal S8192x256 .f32) (x3 : FVec Ideal S256x1 .f32) (i : Fin 8192) :
    stSrc (F := Ideal) wh x3 (ix2 i 0) = Cert.Spec.att (fun a b => wh (ix2 a b)) (cA x3) i :=
  plain_dot_apply 8192 256 1 wh x3 i 0

theorem stDst_apply (wh : FVec Ideal S8192x256 .f32) (x4 : FVec Ideal S256x1 .f32) (i : Fin 8192) :
    stDst (F := Ideal) wh x4 (ix2 i 0) = Cert.Spec.att (fun a b => wh (ix2 a b)) (cA x4) i :=
  plain_dot_apply 8192 256 1 wh x4 i 0

/-- The pairwise scores at (i, j): the column of source scores repeated along the rows plus the transposed
    column of destination scores repeated down them. -/
theorem stE0_apply (s d : FVec Ideal S8192x1 .f32) (i j : Fin 8192) :
    stE0 (F := Ideal) s d (ix2 i j) = s (ix2 i 0) + d (ix2 j 0) := by
  unfold stE0
  rw [addf_apply,
    broadcastInDim_apply ![0, 1] bcast_S8192x1_S8192x8192_0_1 s (ix2 i j) (ix2 i 0) (by
      intro a
      match a with
      | ⟨0, _⟩ => rfl
      | ⟨1, _⟩ => rfl),
    broadcastInDim_apply ![0, 1] bcast_S1x8192_S8192x8192_0_1 _ (ix2 i j) (ix2 0 j) (by
      intro a
      match a with
      | ⟨0, _⟩ => rfl
      | ⟨1, _⟩ => rfl),
    transpose_apply [1, 0] d transposes_S8192x1_S1x8192_1_0 (ix2 0 j) (ix2 j 0) (by
      intro b
      match b with
      | ⟨0, _⟩ => rfl
      | ⟨1, _⟩ => rfl)]

/-- The leaky rectifier at an index. -/
theorem stLrelu_apply (e0 : FVec Ideal S8192x8192 .f32) (y : S8192x8192.Idx) :
    stLrelu (F := Ideal) e0 y = Cert.Spec.lrelu (e0 y) := by
  unfold stLrelu Cert.Spec.lrelu
  rw [select_apply, cmpf_apply, mulf_apply, broadcastInDim_scalar_apply, broadcastInDim_scalar_apply]
  show Scalar.select (Ideal.cmp .oge (e0 y) (Ideal.ofBits .f32 0x00000000#32)) (e0 y) (Ideal.ofBits .f32 0x3E4CCCCD#32 * e0 y) = _
  rw [Ideal.ofBits_zero_f32]

/-- The mask at an index. -/
theorem stMasked_apply (x1 : IVec S8192x8192 32) (l : FVec Ideal S8192x8192 .f32) (y : S8192x8192.Idx) :
    stMasked (F := Ideal) x1 l y = Scalar.select (IntOp.cmpi .sgt (x1 y) 0#32) (l y) Cert.Spec.fill := by
  unfold stMasked
  rw [select_apply, broadcastInDim_scalar_apply]
  rfl

/-- The masked scores at (i, j) are the specification's. -/
theorem score_apply (x0 : FVec Ideal S8192x512 .f32) (x1 : IVec S8192x8192 32) (x2 : FVec Ideal S512x256 .f32)
    (x3 x4 : FVec Ideal S256x1 .f32) (i j : Fin 8192) :
    stMasked (F := Ideal) x1 (stLrelu (stE0 (stSrc (stWh x0 x2) x3) (stDst (stWh x0 x2) x4))) (ix2 i j)
      = Cert.Spec.scoreOf (cH x0) (cAdj x1) (cW x2) (cA x3) (cA x4) i j := by
  rw [stMasked_apply, stLrelu_apply, stE0_apply, stSrc_apply, stDst_apply, wh_fun]
  rfl

theorem score_fun (x0 : FVec Ideal S8192x512 .f32) (x1 : IVec S8192x8192 32) (x2 : FVec Ideal S512x256 .f32)
    (x3 x4 : FVec Ideal S256x1 .f32) :
    (fun a b => stMasked (F := Ideal) x1 (stLrelu (stE0 (stSrc (stWh x0 x2) x3) (stDst (stWh x0 x2) x4))) (ix2 a b))
      = Cert.Spec.scoreOf (cH x0) (cAdj x1) (cW x2) (cA x3) (cA x4) :=
  funext fun a => funext fun b => score_apply x0 x1 x2 x3 x4 a b

/-! ## The softmax's stages -/

/-- The second axis dropped: the shapes' fact that names the inserted coordinate. -/
theorem reduces_d1 : S8192x8192.Reduces [(1 : Fin 2)] S8192 := by decide

/-- Row i with the coordinate j inserted on the second axis is (i, j). -/
theorem lift_row (i j : Fin 8192) : reduces_d1.lift (ix1 i) j = ix2 i j := by
  funext c
  match c with
  | ⟨0, _⟩ => rfl
  | ⟨1, _⟩ => rfl

/-- The row maximum at i: the fold of max from minus infinity over the row, joined once more with it. -/
theorem stMax_apply (e : FVec Ideal S8192x8192 .f32) (i : Fin 8192) :
    stMax (F := Ideal) e (ix1 i) = Cert.Spec.refMax (fun a b => e (ix2 a b)) i := by
  unfold stMax Cert.Spec.refMax
  rw [maximumf_apply, broadcastInDim_scalar_apply,
    Host.reduce_eq_fold_single FloatOps.maximumf e _ reducesTo_S8192x8192_S8192_d1 reduces_d1 h_S_ (ix1 i)]
  have hc : (e ∘ reduces_d1.lift (ix1 i)) = fun j : Fin 8192 => e (ix2 i j) :=
    funext fun j => congrArg e (lift_row i j)
  rw [hc]
  rfl

/-- The shifted exponential at (i, j). -/
theorem stU_apply (e : FVec Ideal S8192x8192 .f32) (mx : FVec Ideal S8192 .f32) (i j : Fin 8192) :
    stU (F := Ideal) e mx (ix2 i j) = Ideal.exp (e (ix2 i j) - mx (ix1 i)) := by
  unfold stU
  show Ideal.exp (subf e _ (ix2 i j)) = _
  rw [subf_apply,
    broadcastInDim_apply ![0, 1] bcast_S8192x1_S8192x8192_0_1 _ (ix2 i j) (ix2 i 0) (by
      intro a
      match a with
      | ⟨0, _⟩ => rfl
      | ⟨1, _⟩ => rfl),
    broadcastInDim_apply ![0] bcast_S8192_S8192x1_0 mx (ix2 i 0) (ix1 i) (by
      intro a
      match a with
      | ⟨0, _⟩ => rfl)]

/-- The row sum at i. -/
theorem stS_apply (u : FVec Ideal S8192x8192 .f32) (i : Fin 8192) :
    stS (F := Ideal) u (ix1 i) = ∑ j : Fin 8192, u (ix2 i j) := by
  unfold stS
  rw [hostReduceAdd_apply, Ideal.hostReduceAdd_single reducesTo_S8192x8192_S8192_d1 reduces_d1]
  show Ideal.ofBits .f32 0x00000000#32 + _ = _
  rw [Ideal.ofBits_zero_f32, zero_add]
  exact Finset.sum_congr rfl fun j _ => congrArg u (lift_row i j)

/-- The quotient at (i, j). -/
theorem stAttn_apply (u : FVec Ideal S8192x8192 .f32) (sm : FVec Ideal S8192 .f32) (i j : Fin 8192) :
    stAttn (F := Ideal) u sm (ix2 i j) = Ideal.div (u (ix2 i j)) (sm (ix1 i)) := by
  unfold stAttn
  rw [hostDivf_apply,
    broadcastInDim_apply ![0, 1] bcast_S8192x1_S8192x8192_0_1 _ (ix2 i j) (ix2 i 0) (by
      intro a
      match a with
      | ⟨0, _⟩ => rfl
      | ⟨1, _⟩ => rfl),
    broadcastInDim_apply ![0] bcast_S8192_S8192x1_0 sm (ix2 i 0) (ix1 i) (by
      intro a
      match a with
      | ⟨0, _⟩ => rfl)]

/-- The shifted exponentials are the specification's. -/
theorem refU_eq (e : FVec Ideal S8192x8192 .f32) (i j : Fin 8192) :
    stU (F := Ideal) e (stMax e) (ix2 i j) = Cert.Spec.refU (fun a b => e (ix2 a b)) i j := by
  rw [stU_apply, stMax_apply]
  rfl

/-- The row sums are the specification's. -/
theorem refS_eq (e : FVec Ideal S8192x8192 .f32) (i : Fin 8192) :
    stS (F := Ideal) (stU e (stMax e)) (ix1 i) = Cert.Spec.refS (fun a b => e (ix2 a b)) i := by
  rw [stS_apply]
  unfold Cert.Spec.refS
  exact Finset.sum_congr rfl fun j _ => refU_eq e i j

/-- From the masked scores on: the weights times the projected features, at (i, k). -/
theorem tail_apply (e : FVec Ideal S8192x8192 .f32) (wh : FVec Ideal S8192x256 .f32) (i : Fin 8192) (k : Fin 256) :
    Host.dotGeneral (φ₁ := .f32) (φ₂ := .f32) dot_S8192x8192_S8192x256_S8192x256_1_0_0_1_n_n none
        (stAttn (F := Ideal) (stU e (stMax e)) (stS (stU e (stMax e)))) wh (ix2 i k)
      = Cert.Spec.refOut (fun a b => e (ix2 a b)) (fun a b => wh (ix2 a b)) i k := by
  refine (plain_dot_apply 8192 8192 256 _ wh i k).trans ?_
  unfold Cert.Spec.refOut
  refine Finset.sum_congr rfl fun j _ => ?_
  rw [stAttn_apply, refU_eq, refS_eq]

/-- The reference's result at (i, k) is the specification's one-pass softmax of the masked scores applied to the
    projected features. -/
theorem out_apply (x0 : FVec Ideal S8192x512 .f32) (x1 : IVec S8192x8192 32) (x2 : FVec Ideal S512x256 .f32)
    (x3 x4 : FVec Ideal S256x1 .f32) (i : Fin 8192) (k : Fin 256) :
    Cert.ReferenceIdeal.Hand.out (F := Ideal) x0 x1 x2 x3 x4 (ValueIdx.ix2 i k)
      = Cert.Spec.refOut (Cert.Spec.scoreOf (cH x0) (cAdj x1) (cW x2) (cA x3) (cA x4)) (Cert.Spec.proj (cH x0) (cW x2)) i k := by
  unfold out
  rw [tail_apply, wh_fun, score_fun]

end Cert.ReferenceIdeal.RefValue

end
-- ==== Proof.Softmax.lean ====
/-
  Softmax over the reals, free of any program.

  Two facts.
  * `shift_invariant`: a softmax-weighted average does not depend on the constant subtracted inside the
    exponentials. For reals e_j, w_j and any reals c, M,
      (Σ_j exp (e_j − c) · w_j) / (Σ_j exp (e_j − c)) = Σ_j (exp (e_j − M) / Σ_j' exp (e_j' − M)) · w_j,
    because exp (e_j − c) = exp (M − c) · exp (e_j − M) and the common positive factor exp (M − c) cancels.
  * `tiled_sums`: a sum accumulated tile by tile, each step first rescaling what came before by
    exp (c_n − c_{n+1}) and then adding the tile's own terms taken against the new shift c_{n+1}, is at every
    step the plain sum of all earlier terms taken against the current shift, because
    exp (c_n − c_{n+1}) · exp (x − c_n) = exp (x − c_{n+1}). The shifts are arbitrary reals: nothing here asks
    them to be maxima. Before the first tile the running value is 0, so the first factor may be anything.
-/
import Mathlib.Analysis.SpecialFunctions.Exp
import Mathlib.Algebra.BigOperators.Field
import Mathlib.Algebra.Order.BigOperators.Ring.Finset

namespace Cert.Softmax

open Finset

/-- A sum of exponentials over a nonempty finite family is positive. -/
theorem sum_exp_pos {ι : Type*} [Fintype ι] [Nonempty ι] (e : ι → ℝ) (c : ℝ) :
    0 < ∑ j, Real.exp (e j - c) :=
  Finset.sum_pos (fun j _ => Real.exp_pos _) Finset.univ_nonempty

/-- Changing the shift from M to c multiplies every exponential by the same factor exp (M − c). -/
theorem exp_shift (x c M : ℝ) : Real.exp (x - c) = Real.exp (M - c) * Real.exp (x - M) := by
  rw [← Real.exp_add]; congr 1; ring

/-- The softmax-weighted average does not depend on the shift. -/
theorem shift_invariant {ι : Type*} [Fintype ι] [Nonempty ι] (e w : ι → ℝ) (c M : ℝ) :
    (∑ j, Real.exp (e j - c) * w j) / (∑ j, Real.exp (e j - c))
      = ∑ j, Real.exp (e j - M) / (∑ j', Real.exp (e j' - M)) * w j := by
  have hS : (∑ j, Real.exp (e j - M)) ≠ 0 := (sum_exp_pos e M).ne'
  have hk : Real.exp (M - c) ≠ 0 := (Real.exp_pos _).ne'
  have hnum : ∑ j, Real.exp (e j - c) * w j = Real.exp (M - c) * ∑ j, Real.exp (e j - M) * w j := by
    rw [Finset.mul_sum]
    exact Finset.sum_congr rfl (fun j _ => by rw [exp_shift (e j) c M, mul_assoc])
  have hden : ∑ j, Real.exp (e j - c) = Real.exp (M - c) * ∑ j, Real.exp (e j - M) := by
    rw [Finset.mul_sum]
    exact Finset.sum_congr rfl (fun j _ => exp_shift (e j) c M)
  rw [hnum, hden, mul_div_mul_left _ _ hk, Finset.sum_div]
  exact Finset.sum_congr rfl (fun j _ => by rw [div_mul_eq_mul_div])

/-- The tiled accumulation with weights: if A 0 = 0 and
    A (n+1) = α n · A n + Σ_r exp (e n r − c (n+1)) · w n r, where α n = exp (c n − c (n+1)) from the second step
    on, then for n ≥ 1 the running value A n is the sum over all earlier tiles of exp (e n' r − c n) · w n' r. -/
theorem tiled_sums {ρ : Type*} [Fintype ρ] (e w : ℕ → ρ → ℝ) (c α A : ℕ → ℝ)
    (h0 : A 0 = 0)
    (hα : ∀ n, 1 ≤ n → α n = Real.exp (c n - c (n + 1)))
    (hstep : ∀ n, A (n + 1) = α n * A n + ∑ r, Real.exp (e n r - c (n + 1)) * w n r) :
    ∀ n, 1 ≤ n → A n = ∑ n' ∈ Finset.range n, ∑ r, Real.exp (e n' r - c n) * w n' r := by
  intro n hn
  induction n, hn using Nat.le_induction with
  | base =>
    rw [hstep 0, h0, mul_zero, zero_add, Finset.sum_range_one]
  | succ n hn ih =>
    rw [hstep n, ih, hα n hn, Finset.sum_range_succ, Finset.mul_sum]
    congr 1
    refine Finset.sum_congr rfl (fun n' _ => ?_)
    rw [Finset.mul_sum]
    refine Finset.sum_congr rfl (fun r _ => ?_)
    rw [← mul_assoc, ← Real.exp_add]
    congr 2; ring

/-- The same without weights: the running denominator. -/
theorem tiled_sums_one {ρ : Type*} [Fintype ρ] (e : ℕ → ρ → ℝ) (c α L : ℕ → ℝ)
    (h0 : L 0 = 0)
    (hα : ∀ n, 1 ≤ n → α n = Real.exp (c n - c (n + 1)))
    (hstep : ∀ n, L (n + 1) = α n * L n + ∑ r, Real.exp (e n r - c (n + 1))) :
    ∀ n, 1 ≤ n → L n = ∑ n' ∈ Finset.range n, ∑ r, Real.exp (e n' r - c n) := by
  intro n hn
  have h := tiled_sums e (fun _ _ => 1) c α L h0 hα (fun m => by simpa using hstep m) n hn
  simpa using h

end Cert.Softmax
-- ==== Proof.Bridge.lean ====
/-
  The lift of the real softmax facts to the extended reals, against the specification.

  Every quantity of the specification is a real number once the scores e i j and the projected features P j k
  are: the maxima are folds of `max` from minus infinity over nonempty finite families of reals (a fold of
  max is one of its arguments), the exponentials of real differences are real, and finite sums and products of
  reals are real. The only non-real value met is the first running maximum, minus infinity, whose rescaling
  factor exp (−∞ − c) = 0 multiplies the initial 0. With everything real, the tiled recurrences are those of
  `Softmax.tiled_sums`, the eight tiles of 1024 columns cover the 8192 columns exactly once, and
  `Softmax.shift_invariant` identifies the two quotients.
-/
import proofs.«426516_j55353538511035_3_alg».proof.Proof.Spec
import proofs.«426516_j55353538511035_3_alg».proof.Proof.Softmax
import Mathlib.Data.EReal.Basic
import Mathlib.Data.EReal.Operations
import Mathlib.Data.EReal.Inv
import Mathlib.Analysis.SpecialFunctions.Exp
import Mathlib.Algebra.BigOperators.Fin
import Mathlib.Data.Fintype.BigOperators
import Mathlib.Logic.Equiv.Fin.Basic
import Mathlib.Data.Finset.Lattice.Fold

noncomputable section

namespace Cert.Bridge

open Idealize.ShloMosaic Cert.Spec

/-! ## Real values are closed under the operations met -/

theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

/-- The coercion passes through a finite sum. -/
theorem coe_sum {ι : Type*} (s : Finset ι) (f : ι → ℝ) :
    ∑ j ∈ s, (f j : EReal) = ((∑ j ∈ s, f j : ℝ) : EReal) := by
  classical
  refine Finset.induction_on s ?_ ?_
  · simp
  · intro a s ha ih
    rw [Finset.sum_insert ha, Finset.sum_insert ha, ih, EReal.coe_add]

theorem real_sum {ι : Type*} (s : Finset ι) (f : ι → EReal) (hf : ∀ j, ∃ r : ℝ, f j = (r : EReal)) :
    ∃ r : ℝ, ∑ j ∈ s, f j = (r : EReal) := by
  choose g hg using hf
  exact ⟨∑ j ∈ s, g j, by rw [← coe_sum]; exact Finset.sum_congr rfl (fun j _ => hg j)⟩

/-- The larger of two reals is real; so is the larger of minus infinity and a real. -/
theorem real_max {x y : EReal} (hx : x = ⊥ ∨ ∃ r : ℝ, x = (r : EReal)) (hy : ∃ r : ℝ, y = (r : EReal)) :
    ∃ r : ℝ, max x y = (r : EReal) := by
  rcases hx with rfl | hx
  · rw [max_eq_right bot_le]; exact hy
  · rcases max_choice x y with h | h <;> rw [h]
    · exact hx
    · exact hy

/-- A fold of max from minus infinity over a nonempty finite family of reals is one of them. -/
theorem real_fold_max {ι : Type*} (s : Finset ι) (hs : s.Nonempty) (f : ι → EReal)
    (hf : ∀ j, ∃ r : ℝ, f j = (r : EReal)) : ∃ r : ℝ, s.fold max ⊥ f = (r : EReal) := by
  have h : s.fold max ⊥ f = s.sup f := rfl
  obtain ⟨j, -, hj⟩ := Finset.exists_mem_eq_sup s hs f
  rw [h, hj]; exact hf j

/-! ## The three words -/

theorem ninf_eq : Spec.ninf = ⊥ := by simp [Spec.ninf, Ideal.ofBits, Ideal.ieee]

/-- A pattern whose exponent field is not all ones denotes a real number: a signed dyadic rational. -/
theorem ieee_real (e m : ℕ) {w : ℕ} (b : BitVec w) (h : (b.extractLsb' m e).toNat ≠ 2 ^ e - 1) :
    ∃ r : ℝ, Ideal.ieee e m b = (r : EReal) := by
  unfold Ideal.ieee
  simp only [h, ↓reduceIte]
  split_ifs <;> exact ⟨_, rfl⟩

theorem slope_real : ∃ r : ℝ, Spec.slope = (r : EReal) :=
  ieee_real 8 23 (0x3E4CCCCD#32) (by decide)

theorem fill_real : ∃ r : ℝ, Spec.fill = (r : EReal) :=
  ieee_real 8 23 (0xD9FFCB9E#32) (by decide)

/-! ## The maxima are real -/

theorem refMax_real {e : Fin 8192 → Fin 8192 → EReal} (he : ∀ i j, ∃ r : ℝ, e i j = (r : EReal))
    (i : Fin 8192) : ∃ r : ℝ, refMax e i = (r : EReal) := by
  rw [refMax, ninf_eq]
  exact real_max (Or.inl rfl) (real_fold_max _ Finset.univ_nonempty _ (fun j => he i j))

theorem tileMax_zero (e : Fin 8192 → Fin 8192 → EReal) (i : Fin 8192) : tileMax e i 0 = ⊥ := ninf_eq

theorem tileMax_succ (e : Fin 8192 → Fin 8192 → EReal) (i : Fin 8192) (n : ℕ) :
    tileMax e i (n + 1)
      = max (tileMax e i n) ((Finset.univ : Finset (Fin 1024)).fold max ⊥ (fun r => e i (col n r))) := by
  rw [tileMax, ninf_eq]

/-- After at least one tile the running maximum is a real number. -/
theorem tileMax_succ_real {e : Fin 8192 → Fin 8192 → EReal} (he : ∀ i j, ∃ r : ℝ, e i j = (r : EReal))
    (i : Fin 8192) : ∀ n, ∃ r : ℝ, tileMax e i (n + 1) = (r : EReal)
  | 0 => by
    rw [tileMax_succ, tileMax_zero]
    exact real_max (Or.inl rfl) (real_fold_max _ Finset.univ_nonempty _ (fun r => he i _))
  | n + 1 => by
    rw [tileMax_succ]
    exact real_max (Or.inr (tileMax_succ_real he i n))
      (real_fold_max _ Finset.univ_nonempty _ (fun r => he i _))

/-! ## The tiled recurrences over the reals -/

/-- The rescaling factors over the reals: 0 before the first tile (there minus infinity is left behind),
    exp (c n − c (n+1)) afterwards. -/
def rAlpha (c : ℕ → ℝ) : ℕ → ℝ
  | 0 => 0
  | n + 1 => Real.exp (c (n + 1) - c (n + 2))

/-- The running numerator over the reals, for one row E of scores and one column w of features. -/
def rAcc (E w : Fin 8192 → ℝ) (c : ℕ → ℝ) : ℕ → ℝ
  | 0 => 0
  | n + 1 => rAlpha c n * rAcc E w c n + ∑ r : Fin 1024, Real.exp (E (col n r) - c (n + 1)) * w (col n r)

/-- The running denominator over the reals. -/
def rL (E : Fin 8192 → ℝ) (c : ℕ → ℝ) : ℕ → ℝ
  | 0 => 0
  | n + 1 => rAlpha c n * rL E c n + ∑ r : Fin 1024, Real.exp (E (col n r) - c (n + 1))

section Row

variable {e : Fin 8192 → Fin 8192 → EReal} {P : Fin 8192 → Fin 256 → EReal} {i : Fin 8192} {k : Fin 256}
  {E w : Fin 8192 → ℝ} {c : ℕ → ℝ}

theorem tileP_eq (hE : ∀ j, e i j = (E j : EReal)) (hc : ∀ n, tileMax e i (n + 1) = (c (n + 1) : EReal))
    (n : ℕ) (r : Fin 1024) : tileP e i n r = ((Real.exp (E (col n r) - c (n + 1)) : ℝ) : EReal) := by
  rw [tileP, hE, hc, ← EReal.coe_sub, Ideal.exp_coe]

theorem tileAlpha_eq (hc : ∀ n, tileMax e i (n + 1) = (c (n + 1) : EReal)) :
    ∀ n, tileAlpha e i n = ((rAlpha c n : ℝ) : EReal)
  | 0 => by
    rw [tileAlpha, tileMax_zero, EReal.bot_sub, Ideal.exp_bot]; rfl
  | n + 1 => by
    rw [tileAlpha, hc n, hc (n + 1), ← EReal.coe_sub, Ideal.exp_coe]; rfl

theorem tileL_eq (hE : ∀ j, e i j = (E j : EReal)) (hc : ∀ n, tileMax e i (n + 1) = (c (n + 1) : EReal)) :
    ∀ n, tileL e i n = ((rL E c n : ℝ) : EReal)
  | 0 => rfl
  | n + 1 => by
    show tileAlpha e i n * tileL e i n + ∑ r : Fin 1024, tileP e i n r
      = ((rAlpha c n * rL E c n + ∑ r : Fin 1024, Real.exp (E (col n r) - c (n + 1)) : ℝ) : EReal)
    rw [tileAlpha_eq hc n, tileL_eq hE hc n, EReal.coe_add, EReal.coe_mul, ← coe_sum]
    congr 1
    exact Finset.sum_congr rfl (fun r _ => tileP_eq hE hc n r)

theorem tileAcc_eq (hE : ∀ j, e i j = (E j : EReal)) (hw : ∀ j, P j k = (w j : EReal))
    (hc : ∀ n, tileMax e i (n + 1) = (c (n + 1) : EReal)) :
    ∀ n, tileAcc e P i k n = ((rAcc E w c n : ℝ) : EReal)
  | 0 => rfl
  | n + 1 => by
    show tileAlpha e i n * tileAcc e P i k n + ∑ r : Fin 1024, tileP e i n r * P (col n r) k
      = ((rAlpha c n * rAcc E w c n
          + ∑ r : Fin 1024, Real.exp (E (col n r) - c (n + 1)) * w (col n r) : ℝ) : EReal)
    rw [tileAlpha_eq hc n, tileAcc_eq hE hw hc n, EReal.coe_add, EReal.coe_mul, ← coe_sum]
    congr 1
    refine Finset.sum_congr rfl (fun r _ => ?_)
    rw [tileP_eq hE hc n r, hw, EReal.coe_mul]

end Row

/-- The eight tiles of 1024 columns cover the 8192 columns exactly once. -/
theorem sum_tiles (f : Fin 8192 → ℝ) :
    ∑ n ∈ Finset.range 8, ∑ r : Fin 1024, f (col n r) = ∑ j, f j := by
  rw [Finset.sum_range (fun n => ∑ r : Fin 1024, f (col n r))]
  rw [← Fintype.sum_prod_type' (f := fun (a : Fin 8) (r : Fin 1024) => f (col a r))]
  refine Fintype.sum_equiv (finProdFinEquiv : Fin 8 × Fin 1024 ≃ Fin (8 * 1024)) _ _ (fun x => ?_)
  show f (col x.1 x.2) = f (finProdFinEquiv x)
  congr 1
  apply Fin.ext
  have h1 := x.1.isLt
  simp only [col, finProdFinEquiv_apply_val]
  rw [Nat.mod_eq_of_lt h1]; omega

theorem rAlpha_eq (c : ℕ → ℝ) : ∀ n, 1 ≤ n → rAlpha c n = Real.exp (c n - c (n + 1))
  | 0, h => absurd h (by decide)
  | _ + 1, _ => rfl

/-- After the eight tiles the running numerator is the full row sum against the last shift. -/
theorem rAcc_eight (E w : Fin 8192 → ℝ) (c : ℕ → ℝ) :
    rAcc E w c 8 = ∑ j, Real.exp (E j - c 8) * w j :=
  (Softmax.tiled_sums (fun n r => E (col n r)) (fun n r => w (col n r)) c (rAlpha c) (rAcc E w c) rfl
    (rAlpha_eq c) (fun _ => rfl) 8 (by decide)).trans (sum_tiles (fun j => Real.exp (E j - c 8) * w j))

/-- And the running denominator the full row sum of the exponentials. -/
theorem rL_eight (E : Fin 8192 → ℝ) (c : ℕ → ℝ) :
    rL E c 8 = ∑ j, Real.exp (E j - c 8) :=
  (Softmax.tiled_sums_one (fun n r => E (col n r)) c (rAlpha c) (rL E c) rfl
    (rAlpha_eq c) (fun _ => rfl) 8 (by decide)).trans (sum_tiles (fun j => Real.exp (E j - c 8)))

/-! ## The two results agree -/

theorem tileOut_eq_refOut {e : Fin 8192 → Fin 8192 → EReal} {P : Fin 8192 → Fin 256 → EReal}
    (he : ∀ i j, ∃ r : ℝ, e i j = (r : EReal)) (hP : ∀ j k, ∃ r : ℝ, P j k = (r : EReal))
    (i : Fin 8192) (k : Fin 256) : tileOut e P i k = refOut e P i k := by
  obtain ⟨M, hM⟩ := refMax_real he i
  choose c' hc' using tileMax_succ_real he i
  choose E hE using he
  choose Pr hPr using hP
  have hc : ∀ n, tileMax e i (n + 1) = (((fun n => c' (n - 1)) (n + 1) : ℝ) : EReal) := fun n => hc' n
  generalize (fun n => c' (n - 1)) = c at hc
  -- the one-pass side
  have hU : ∀ j, refU e i j = ((Real.exp (E i j - M) : ℝ) : EReal) := fun j => by
    rw [refU, hE, hM, ← EReal.coe_sub, Ideal.exp_coe]
  have hSpos : 0 < ∑ j, Real.exp (E i j - M) := Softmax.sum_exp_pos (E i) M
  have hS : refS e i = ((∑ j, Real.exp (E i j - M) : ℝ) : EReal) := by
    rw [refS, ← coe_sum]; exact Finset.sum_congr rfl (fun j _ => hU j)
  have hRef : refOut e P i k
      = ((∑ j, Real.exp (E i j - M) / (∑ j', Real.exp (E i j' - M)) * Pr j k : ℝ) : EReal) := by
    rw [refOut, ← coe_sum]
    refine Finset.sum_congr rfl (fun j _ => ?_)
    rw [hU, hS, Ideal.div_coe hSpos.ne', hPr, ← EReal.coe_mul, ← EReal.coe_mul, mul_one_div]
  -- the tiled side
  have hLpos : 0 < ∑ j, Real.exp (E i j - c 8) := Softmax.sum_exp_pos (E i) (c 8)
  have hL8 : tileL e i 8 = ((∑ j, Real.exp (E i j - c 8) : ℝ) : EReal) := by
    rw [tileL_eq (E := E i) (hE i) hc 8, rL_eight]
  have hA8 : tileAcc e P i k 8 = ((∑ j, Real.exp (E i j - c 8) * Pr j k : ℝ) : EReal) := by
    rw [tileAcc_eq (E := E i) (w := fun j => Pr j k) (hE i) (fun j => hPr j k) hc 8, rAcc_eight]
  rw [tileOut, hA8, hL8, Ideal.div_coe hLpos.ne', ← EReal.coe_mul, hRef, mul_one_div]
  exact congrArg (fun x : ℝ => (x : EReal)) (Softmax.shift_invariant (E i) (fun j => Pr j k) (c 8) M)

/-! ## The scores and the projected features are real when the inputs are -/

theorem proj_real {h : Fin 8192 → Fin 512 → EReal} {W : Fin 512 → Fin 256 → EReal}
    (hh : ∀ i j, ∃ r : ℝ, h i j = (r : EReal)) (hW : ∀ j k, ∃ r : ℝ, W j k = (r : EReal)) :
    ∀ i k, ∃ r : ℝ, Cert.Spec.proj h W i k = (r : EReal) :=
  fun i k => real_sum _ _ (fun j => real_mul (hh i j) (hW j k))

theorem att_real {P : Fin 8192 → Fin 256 → EReal} {a : Fin 256 → EReal}
    (hP : ∀ i k, ∃ r : ℝ, P i k = (r : EReal)) (ha : ∀ k, ∃ r : ℝ, a k = (r : EReal)) :
    ∀ i, ∃ r : ℝ, Cert.Spec.att P a i = (r : EReal) :=
  fun i => real_sum _ _ (fun k => real_mul (hP i k) (ha k))

/-- Either side of the rectifier is real at a real argument. -/
theorem lrelu_real {x : EReal} (hx : ∃ r : ℝ, x = (r : EReal)) : ∃ r : ℝ, lrelu x = (r : EReal) := by
  unfold lrelu Scalar.select
  split_ifs
  · exact hx
  · exact real_mul slope_real hx

theorem score_real {s d : Fin 8192 → EReal} (adj : Fin 8192 → Fin 8192 → BitVec 32)
    (hs : ∀ i, ∃ r : ℝ, s i = (r : EReal)) (hd : ∀ i, ∃ r : ℝ, d i = (r : EReal)) :
    ∀ i j, ∃ r : ℝ, Cert.Spec.score s d adj i j = (r : EReal) := by
  intro i j
  unfold score Scalar.select
  split_ifs
  · exact lrelu_real (real_add (hs i) (hd j))
  · exact fill_real

theorem result_eq (h : Fin 8192 → Fin 512 → EReal) (adj : Fin 8192 → Fin 8192 → BitVec 32)
    (W : Fin 512 → Fin 256 → EReal) (a b : Fin 256 → EReal)
    (hh : ∀ i j, ∃ r : ℝ, h i j = (r : EReal)) (hW : ∀ j k, ∃ r : ℝ, W j k = (r : EReal))
    (ha : ∀ k, ∃ r : ℝ, a k = (r : EReal)) (hb : ∀ k, ∃ r : ℝ, b k = (r : EReal))
    (i : Fin 8192) (k : Fin 256) :
    Cert.Spec.tileOut (Cert.Spec.scoreOf h adj W a b) (Cert.Spec.proj h W) i k
      = Cert.Spec.refOut (Cert.Spec.scoreOf h adj W a b) (Cert.Spec.proj h W) i k := by
  have hPr := proj_real hh hW
  have he : ∀ i j, ∃ r : ℝ, Cert.Spec.scoreOf h adj W a b i j = (r : EReal) :=
    score_real adj (att_real hPr ha) (att_real hPr hb)
  exact tileOut_eq_refOut he hPr i k

end Cert.Bridge

end
-- ==== Proof.Finite.lean ====
import proofs.«426516_j55353538511035_3_alg».proof.Pre_finite_inputs
import proofs.«426516_j55353538511035_3_alg».proof.Proof.Gen.Pre_finite_inputs
import Idealize.ShloMosaic.PureOps.Ideal
import Idealize.ShloMosaic.Lib.ReduceAll
import Idealize.ShloMosaic.Lib.ValueIdx
import Mathlib.Data.EReal.Basic

/-!
  From the precondition `finite_inputs` to real entries.

  The precondition says, of each of the four float inputs, that `|x| < +∞` holds at every entry
  (an `and`-reduction over all axes of the elementwise strict comparison, the four results joined
  by `and`). Over the extended reals `|x| = max x (-x)`, which is `⊤` at both infinities, so the
  strict inequality holds exactly at the real numbers.
-/

namespace Cert.Finite

open Idealize.ShloMosaic

/-- The rank-0 shape has one index. -/
instance : Subsingleton Cert.Pre_finite_inputs.S_.Idx := ⟨fun a b => funext fun d => d.elim0⟩

/-- The pattern `0x7F800000` (all-ones exponent, zero fraction, positive sign) denotes `+∞`. -/
theorem ofBits_inf : Ideal.ofBits .f32 0x7F800000#32 = (⊤ : EReal) := by
  simp [Ideal.ofBits, Ideal.ieee]

/-- An extended real whose absolute value `max x (-x)` is strictly below `+∞` is a real number:
    at `⊤` and at `⊥` the maximum is `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- One entry: the comparison `|x| < +∞` answering 1 makes `x` real. -/
theorem real_of_cmp (x : Ideal .f32)
    (h : FloatOps.cmpf .olt (FloatOps.hostAbsf x) (FloatOps.ofBits (F := Ideal) .f32 0x7F800000#32) = 1#1) :
    ∃ r : ℝ, x = (r : EReal) := by
  change Ideal.cmp .olt (max (x : EReal) (-(x : EReal))) (Ideal.ofBits .f32 0x7F800000#32) = 1#1 at h
  rw [ofBits_inf] at h
  refine real_of_abs_lt_top x ?_
  by_contra hn
  simp [Ideal.cmp, hn] at h

theorem real_of_pre (x0 : FVec Ideal Cert.Pre_finite_inputs.S8192x512 .f32) (x1 : IVec Cert.Pre_finite_inputs.S8192x8192 32)
    (x2 : FVec Ideal Cert.Pre_finite_inputs.S512x256 .f32) (x3 x4 : FVec Ideal Cert.Pre_finite_inputs.S256x1 .f32)
    (h : Cert.Pre_finite_inputs.fn (F := Ideal) x0 x1 x2 x3 x4 = fun _ => 1#1) :
    (∀ i, ∃ r : ℝ, x0 i = (r : EReal)) ∧ (∀ i, ∃ r : ℝ, x2 i = (r : EReal)) ∧ (∀ i, ∃ r : ℝ, x3 i = (r : EReal))
      ∧ (∀ i, ∃ r : ℝ, x4 i = (r : EReal)) := by
  have h0 := congrFun h ValueIdx.ix0
  dsimp only [Cert.Pre_finite_inputs.fn, Cert.Pre_finite_inputs.fn_part1] at h0
  obtain ⟨h012, h4⟩ := IntOp.andi_eq_one.1 h0
  obtain ⟨h01, h3⟩ := IntOp.andi_eq_one.1 h012
  obtain ⟨h0', h2⟩ := IntOp.andi_eq_one.1 h01
  refine ⟨fun i => ?_, fun i => ?_, fun i => ?_, fun i => ?_⟩
  · exact real_of_cmp (x0 i) (Host.reduce_andi_all _ _ _ _ _ h0' i)
  · exact real_of_cmp (x2 i) (Host.reduce_andi_all _ _ _ _ _ h2 i)
  · exact real_of_cmp (x3 i) (Host.reduce_andi_all _ _ _ _ _ h3 i)
  · exact real_of_cmp (x4 i) (Host.reduce_andi_all _ _ _ _ _ h4 i)

end Cert.Finite
-- ==== Proof.lean ====
/-
  The certificate of a graph-attention layer computed by two pipelined kernels against its plain reference.

  The kernel program projects the features (h · W, on the matrix unit), takes the two attention terms of each row
  as lane sums, and then, over an 8 × 8 grid of 1024 × 1024 tiles of the masked, leaky-rectified score matrix,
  accumulates the row softmax of the scores applied to the projected features with a running maximum: after each tile
  the running denominator and numerator are rescaled by exp (old maximum − new maximum) and gain the tile's terms;
  the quotient is taken once, after the eighth tile. The reference computes the same layer in one pass: the row
  maximum, the exponentials, the row sum, the quotients, one product.

  Frames. Each kernel region is a pipeline segment of @main whose body obligation is discharged by running the body
  on its staging buffers; the second region's invariant carries its three scratch buffers from grid point to grid
  point at contents defined by recursion on the point. The launch over the segments gives, at any float instance,
  that every execution terminates with every unscoped buffer at the last boundary's contents: the arguments as
  launched (the frame, at the word-level instance and at the ideal one), the result buffer at what the second region
  wrote back. The reference is a straight line of host operations, its module-local functions inlined.

  Values, at the ideal instance (floats are extended reals, a change of format is the identity). The first region's
  outputs are the projected features and the two attention terms as plain sums; entry by entry the second region's
  scratch buffers after a point are the specification's running maximum, denominator and numerator after that many
  tiles, by induction on the point, and the output block stored at the last tile is the quotient. The reference's
  result, read one operation at a time, is the specification's one-pass softmax.

  The law that joins them. Under the precondition every input entry is a real number, hence so is every projected
  feature and every score. For reals the softmax does not depend on the shift subtracted inside the exponentials,
  (Σ exp(e − c) w) / (Σ exp(e − c)) = Σ (exp(e − M) / Σ exp(e − M)) w for any reals c and M, and the rescaled
  running sums are the sums at the newest shift because exp(c − c') · exp(e − c) = exp(e − c'); at the first tile
  the factor is exp(−∞ − c) = 0 against zero sums. So the tiled quotient is the one-pass softmax.

  The kernel program and its idealization are one text (the idealization rewrote no operation), so what
  `preserves` asks is nothing.
-/
import proofs.«426516_j55353538511035_3_alg».proof.Defs
import proofs.«426516_j55353538511035_3_alg».proof.Proof.Gen.Kernel
import proofs.«426516_j55353538511035_3_alg».proof.Proof.Gen.KernelIdeal
import proofs.«426516_j55353538511035_3_alg».proof.Proof.Gen.ReferenceIdeal
import proofs.«426516_j55353538511035_3_alg».proof.Proof.Gen.Pre_finite_inputs
import proofs.«426516_j55353538511035_3_alg».proof.Proof.K.Run
import proofs.«426516_j55353538511035_3_alg».proof.Proof.KI.Value
import proofs.«426516_j55353538511035_3_alg».proof.Proof.RefValue
import proofs.«426516_j55353538511035_3_alg».proof.Proof.Bridge
import proofs.«426516_j55353538511035_3_alg».proof.Proof.Finite

noncomputable section

namespace Cert.Proof

open Idealize.ShloMosaic Idealize.ShloMosaic.TcCoe Idealize.SL.Sem ValueIdx

/-- The word-level kernel program runs and leaves its arguments unchanged. -/
theorem frame_k : Cert.frame_Kernel (hKernel := Cert.Kernel.Gen.facts) (hPre_finite_inputs := Cert.Pre_finite_inputs.Gen.facts) :=
  fun m ρ _ => Cert.Kernel.Fr.frame (F := Bits) m ρ

/-- So does the idealized one. -/
theorem frame_ki : Cert.frame_KernelIdeal (hKernelIdeal := Cert.KernelIdeal.Gen.facts) (hPre_finite_inputs := Cert.Pre_finite_inputs.Gen.facts) :=
  fun m ρ _ => Cert.KernelIdeal.Fr.frame (F := Ideal) m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.run (F := Ideal) m ρ)

/-- The idealization rewrote nothing. -/
theorem preserves : Cert.preserves_Kernel_KernelIdeal := trivial

/-- At the ideal instance, from memories agreeing on the arguments, the kernel's result array is the tiled softmax of
    the inputs and the reference's the one-pass softmax; the inputs are real under the precondition, where the two
    are one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => (Cert.KernelIdeal.Fr.dat1 (Cert.KernelIdeal.Fr.V3 m ρ) c).arrAt 4 Cert.KernelIdeal.cfg1.N,
    Cert.KernelIdeal.Fr.run_result (F := Ideal) m ρ, ?_⟩
  refine (θ_run Cert.ReferenceIdeal.defs _ _).mono (fun _ h c => ⟨(h c).1.trans ?_, (h c).2⟩)
    (Cert.ReferenceIdeal.Hand.run (F := Ideal) m' ρ')
  obtain ⟨hh, hW, ha, hb⟩ := Cert.Finite.real_of_pre _ _ _ _ _ (hpre c)
  rw [(hagree c).1, (hagree c).2.1, (hagree c).2.2.1, (hagree c).2.2.2.1, (hagree c).2.2.2.2]
  beta_reduce
  rw [Cert.KernelIdeal.Fr.result_val m ρ c]
  funext idx
  obtain ⟨i, k, rfl⟩ : ∃ (i : Fin 8192) (k : Fin 256), idx = ix2 i k := ⟨idx 0, idx 1, eq_ix2 idx⟩
  rw [Cert.ReferenceIdeal.RefValue.out_apply]
  exact (Cert.Bridge.result_eq _ _ _ _ _ (fun i j => hh (ix2 i j)) (fun j k => hW (ix2 j k)) (fun k => ha (ix2 k 0))
    (fun k => hb (ix2 k 0)) i k).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
